-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S24576x1000 : Shape := ⟨2, ![24576, 1000]⟩
abbrev S1000x256 : Shape := ⟨2, ![1000, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S24576x1000 : S_.BroadcastsInDim S24576x1000 (![] : Fin 0 → Fin S24576x1000.rank)
  reducesTo_S24576x1000_S_d0_1 : S24576x1000.ReducesTo [0, 1] S_
  bcast_S_S1000x256 : S_.BroadcastsInDim S1000x256 (![] : Fin 0 → Fin S1000x256.rank)
  reducesTo_S1000x256_S_d0_1 : S1000x256.ReducesTo [0, 1] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg6 : IVec S8192 32) (main_v30 : IVec S_ 1) (main_v32 : IVec S8192 1) (main_c_12 : IVec S_ 32) : IVec S_ 1 :=
  let main_v33 : IVec S8192 32 := broadcastInDim S8192 ![] bcast_S_S8192 main_c_12
  let main_v34 : IVec S8192 1 := cmpi .slt main_arg6 main_v33
  let main_v35 : IVec S8192 1 := andi main_v32 main_v34
  let main_c_13 : IVec S_ 1 := constantI S_ 1 1#1
  let main_v36 : IVec S_ 1 := (fun x v => Host.reduce IntOp.andi x v reducesTo_S8192_S_d0 h_S_) main_v35 main_c_13
  let main_v37 : IVec S_ 1 := andi main_v30 main_v36
  main_v37

def fn_part1 {F : FTy → Type} [FloatOps F] (main_arg4 : FVec F S1000x256 .f32) (main_arg5 : IVec S8192 32) (main_arg6 : IVec S8192 32) (main_v13 : IVec S_ 1) (main_v16 : IVec S24576x1000 1) : IVec S_ 1 :=
  let main_c_5 : IVec S_ 1 := constantI S_ 1 1#1
  let main_v17 : IVec S_ 1 := (fun x v => Host.reduce IntOp.andi x v reducesTo_S24576x1000_S_d0_1 h_S_) main_v16 main_c_5
  let main_v18 : IVec S_ 1 := andi main_v13 main_v17
  let main_v19 : FVec F S1000x256 .f32 := Host.absf main_arg4
  let main_cst_6 : FVec F S_ .f32 := constant S_ .f32 0x7F800000#32
  let main_v20 : FVec F S1000x256 .f32 := broadcastInDim S1000x256 ![] bcast_S_S1000x256 main_cst_6
  let main_v21 : IVec S1000x256 1 := cmpf .olt main_v19 main_v20
  let main_c_7 : IVec S_ 1 := constantI S_ 1 1#1
  let main_v22 : IVec S_ 1 := (fun x v => Host.reduce IntOp.andi x v reducesTo_S1000x256_S_d0_1 h_S_) main_v21 main_c_7
  let main_v23 : IVec S_ 1 := andi main_v18 main_v22
  let main_c_8 : IVec S_ 32 := constantI S_ 32 0#32
  let main_v24 : IVec S8192 32 := broadcastInDim S8192 ![] bcast_S_S8192 main_c_8
  let main_v25 : IVec S8192 1 := cmpi .sge main_arg5 main_v24
  let main_c_9 : IVec S_ 32 := constantI S_ 32 1000#32
  let main_v26 : IVec S8192 32 := broadcastInDim S8192 ![] bcast_S_S8192 main_c_9
  let main_v27 : IVec S8192 1 := cmpi .slt main_arg5 main_v26
  let main_v28 : IVec S8192 1 := andi main_v25 main_v27
  let main_c_10 : IVec S_ 1 := constantI S_ 1 1#1
  let main_v29 : IVec S_ 1 := (fun x v => Host.reduce IntOp.andi x v reducesTo_S8192_S_d0 h_S_) main_v28 main_c_10
  let main_v30 : IVec S_ 1 := andi main_v23 main_v29
  let main_c_11 : IVec S_ 32 := constantI S_ 32 0#32
  let main_v31 : IVec S8192 32 := broadcastInDim S8192 ![] bcast_S_S8192 main_c_11
  let main_v32 : IVec S8192 1 := cmpi .sge main_arg6 main_v31
  let main_c_12 : IVec S_ 32 := constantI S_ 32 1000#32
  fn_part2 (F := F) main_arg6 main_v30 main_v32 main_c_12

def fn {F : FTy → Type} [FloatOps F] (main_arg0 : FVec F S8192x256 .f32) (main_arg1 : FVec F S8192x256 .f32) (main_arg2 : FVec F S8192x256 .f32) (main_arg3 : FVec F S24576x1000 .f32) (main_arg4 : FVec F S1000x256 .f32) (main_arg5 : IVec S8192 32) (main_arg6 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S24576x1000 .f32 := Host.absf main_arg3
  let main_cst_4 : FVec F S_ .f32 := constant S_ .f32 0x7F800000#32
  let main_v15 : FVec F S24576x1000 .f32 := broadcastInDim S24576x1000 ![] bcast_S_S24576x1000 main_cst_4
  let main_v16 : IVec S24576x1000 1 := cmpf .olt main_v14 main_v15
  fn_part1 (F := F) main_arg4 main_arg5 main_arg6 main_v13 main_v16
-- ==== Kernel.lean ====
abbrev S8192x256 : Shape := ⟨2, ![8192, 256]⟩
abbrev S24576x1000 : Shape := ⟨2, ![24576, 1000]⟩
abbrev S1000x256 : Shape := ⟨2, ![1000, 256]⟩
abbrev S8192 : Shape := ⟨1, ![8192]⟩
abbrev S_ : Shape := ⟨0, ![]⟩
abbrev S8192x1 : Shape := ⟨2, ![8192, 1]⟩
abbrev S2048x256 : Shape := ⟨2, ![2048, 256]⟩
abbrev S2048x1 : Shape := ⟨2, ![2048, 1]⟩
abbrev S2048 : Shape := ⟨1, ![2048]⟩
abbrev S24576 : Shape := ⟨1, ![24576]⟩
abbrev S24576x1 : Shape := ⟨2, ![24576, 1]⟩
abbrev S2048x1000 : Shape := ⟨2, ![2048, 1000]⟩

abbrev nBuf : Space → Nat
  | .hbm => 44
  | .vmem => 20
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S24576x1000, .f32⟩
  | .hbm, ⟨4, _⟩ => ⟨S1000x256, .f32⟩
  | .hbm, ⟨5, _⟩ => ⟨S8192, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S8192x256, .f32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192x1, .i32⟩
  | .hbm, ⟨24, _⟩ => ⟨S8192x256, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S24576, .i32⟩
  | .hbm, ⟨32, _⟩ => ⟨S24576x1, .i32⟩
  | .hbm, ⟨33, _⟩ => ⟨S24576x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | .local _ .vmem, ⟨14, _⟩ => ⟨S2048x1000, .f32⟩
  | .local _ .vmem, ⟨15, _⟩ => ⟨S2048x1000, .f32⟩
  | .local _ .vmem, ⟨16, _⟩ => ⟨S2048x1, .i32⟩
  | .local _ .vmem, ⟨17, _⟩ => ⟨S2048x1, .i32⟩
  | .local _ .vmem, ⟨18, _⟩ => ⟨S2048x1, .f32⟩
  | .local _ .vmem, ⟨19, _⟩ => ⟨S2048x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_cst : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  iota_S2048x1_d0_w32 : S2048x1.Iotas .tc 32 [0]
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  reducesTo_S8192x1_S_d0_1 : S8192x1.ReducesTo [0, 1] S_
  h_S_ : 0 < S_.numel
  concatenates_S8192_S8192_S8192_S24576_d0 : Shape.Concatenates [S8192, S8192, S8192] S24576 0
  shapeCasts_S24576_S24576x1 : S24576.ShapeCasts S24576x1
  inb_S2048x1000_S2048x1000_0_0 : ∀ a, (![0, 0] : Fin 2 → Nat) a + S2048x1000.size a ≤ S2048x1000.size a
  h_S2048x1000 : 0 < S2048x1000.numel
  shapeCasts_S2048x1_S2048x1 : S2048x1.ShapeCasts S2048x1
  reduces_S2048x1000_S2048 : S2048x1000.Reduces [1] S2048
  broadcasts_S2048x1_S2048x1000 : S2048x1.Broadcasts S2048x1000
  iota_S2048x1000_d1_w32 : S2048x1000.Iotas .tc 32 [1]
  reducesTo_S24576x1_S_d0_1 : S24576x1.ReducesTo [0, 1] S_
  gather_S1000x256_S8192x1_S8192x256_1_0_n_n_0_1_1256_wf : GatherDims.WF S1000x256 S8192x1 S8192x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .f32 = 32 ∨ (Rect.block (s := S8192x256) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x256.size a
  hwx0_4 : ∀ i : grid0.Coords, EltTy.bits .f32 = 32 ∨ (Rect.block (s := S8192x256) S2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S8192x1.size a
  hwx0_5 : ∀ i : grid0.Coords, EltTy.bits .f32 = 32 ∨ (Rect.block (s := S8192x1) S2048x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S8192x1.size a
  hwx0_6 : ∀ i : grid0.Coords, EltTy.bits .f32 = 32 ∨ (Rect.block (s := S8192x1) S2048x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1000.size a ≤ S24576x1000.size a
  hwx1_0 : ∀ i : grid1.Coords, EltTy.bits .f32 = 32 ∨ (Rect.block (s := S24576x1000) S2048x1000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S24576x1.size a
  hwx1_1 : ∀ i : grid1.Coords, EltTy.bits .i32 = 32 ∨ (Rect.block (s := S24576x1) S2048x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S24576x1.size a
  hwx1_2 : ∀ i : grid1.Coords, EltTy.bits .f32 = 32 ∨ (Rect.block (s := S24576x1) S2048x1.size (cc1_transform_2 i) (hinb1_2 i)).WholeWords (EltTy.packing .f32)

variable [Facts₀]

def gather_S1000x256_S8192x1_S8192x256_1_0_n_n_0_1_1256 : GatherDims S1000x256 S8192x1 S8192x256 where
  offsetDims := [1]
  collapsedSliceDims := [0]
  operandBatchingDims := []
  startIndicesBatchingDims := []
  startIndexMap := [0]
  indexVectorDim := 1
  sliceSizes := ![1, 256]
  wf := gather_S1000x256_S8192x1_S8192x256_1_0_n_n_0_1_1256_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S2048x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S2048x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg3) S2048x1000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x256 : Shape := ⟨2, ![8192, 256]⟩
abbrev S24576x1000 : Shape := ⟨2, ![24576, 1000]⟩
abbrev S1000x256 : Shape := ⟨2, ![1000, 256]⟩
abbrev S8192 : Shape := ⟨1, ![8192]⟩
abbrev S_ : Shape := ⟨0, ![]⟩
abbrev S24576 : Shape := ⟨1, ![24576]⟩
abbrev S24576x1 : Shape := ⟨2, ![24576, 1]⟩
abbrev S24576x1x1 : Shape := ⟨3, ![24576, 1, 1]⟩
abbrev S1 : Shape := ⟨1, ![1]⟩
abbrev S1x1x1 : Shape := ⟨3, ![1, 1, 1]⟩
abbrev S8192x1 : Shape := ⟨2, ![8192, 1]⟩

abbrev nBuf : Space → Nat
  | .hbm => 135
  | .vmem => 0
  | .smem => 0
  | _ => 0

abbrev hbmTy0_0 (i : Nat) : BufTy := match i % 128 with
  | 0 => ⟨S8192x256, .f32⟩
  | 1 => ⟨S8192x256, .f32⟩
  | 2 => ⟨S8192x256, .f32⟩
  | 3 => ⟨S24576x1000, .f32⟩
  | 4 => ⟨S1000x256, .f32⟩
  | 5 => ⟨S8192, .i32⟩
  | 6 => ⟨S8192, .i32⟩
  | 7 => ⟨S8192x256, .f32⟩
  | 8 => ⟨S8192x256, .f32⟩
  | 9 => ⟨S_, .f32⟩
  | 10 => ⟨S8192, .f32⟩
  | 11 => ⟨S8192x256, .f32⟩
  | 12 => ⟨S8192x256, .f32⟩
  | 13 => ⟨S_, .f32⟩
  | 14 => ⟨S8192, .f32⟩
  | 15 => ⟨S8192, .f32⟩
  | 16 => ⟨S_, .f32⟩
  | 17 => ⟨S8192, .f32⟩
  | 18 => ⟨S8192, .f32⟩
  | 19 => ⟨S_, .f32⟩
  | 20 => ⟨S_, .f32⟩
  | 21 => ⟨S24576, .i32⟩
  | 22 => ⟨S_, .f32⟩
  | 23 => ⟨S24576x1000, .f32⟩
  | 24 => ⟨S24576x1000, .f32⟩
  | 25 => ⟨S_, .f32⟩
  | 26 => ⟨S24576, .f32⟩
  | 27 => ⟨S_, .f32⟩
  | 28 => ⟨S24576, .f32⟩
  | 29 => ⟨S24576, .f32⟩
  | 30 => ⟨S24576x1, .f32⟩
  | 31 => ⟨S24576x1000, .f32⟩
  | 32 => ⟨S24576x1000, .f32⟩
  | 33 => ⟨S24576x1000, .f32⟩
  | 34 => ⟨S_, .f32⟩
  | 35 => ⟨S24576, .f32⟩
  | 36 => ⟨S24576x1, .f32⟩
  | 37 => ⟨S24576x1, .f32⟩
  | 38 => ⟨S24576x1000, .f32⟩
  | 39 => ⟨S24576x1000, .f32⟩
  | 40 => ⟨S24576x1, .i32⟩
  | 41 => ⟨S_, .i32⟩
  | 42 => ⟨S24576x1, .i32⟩
  | 43 => ⟨S24576x1, .i1⟩
  | 44 => ⟨S_, .i32⟩
  | 45 => ⟨S24576x1, .i32⟩
  | 46 => ⟨S24576x1, .i32⟩
  | 47 => ⟨S24576x1, .i32⟩
  | 48 => ⟨S24576x1x1, .i32⟩
  | 49 => ⟨S1, .i32⟩
  | 50 => ⟨S_, .i32⟩
  | 51 => ⟨S24576x1x1, .i32⟩
  | 52 => ⟨S24576x1x1, .i1⟩
  | 53 => ⟨S1x1x1, .i32⟩
  | 54 => ⟨S24576x1x1, .i32⟩
  | 55 => ⟨S24576x1x1, .i1⟩
  | 56 => ⟨S24576x1x1, .i1⟩
  | 57 => ⟨S_, .i1⟩
  | 58 => ⟨S24576x1, .i1⟩
  | 59 => ⟨S24576x1, .f32⟩
  | 60 => ⟨S_, .f32⟩
  | 61 => ⟨S24576x1, .f32⟩
  | 62 => ⟨S24576x1, .f32⟩
  | 63 => ⟨S_, .f32⟩
  | 64 => ⟨S_, .f32⟩
  | 65 => ⟨S_, .f32⟩
  | 66 => ⟨S_, .f32⟩
  | 67 => ⟨S_, .f32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192x256, .f32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S8192x1, .i32⟩
  | 85 => ⟨S8192x256, .f32⟩
  | 86 => ⟨S8192x256, .f32⟩
  | 87 => ⟨S_, .f32⟩
  | 88 => ⟨S8192x256, .f32⟩
  | 89 => ⟨S8192x256, .f32⟩
  | 90 => ⟨S8192x256, .f32⟩
  | 91 => ⟨S_, .f32⟩
  | 92 => ⟨S8192, .f32⟩
  | 93 => ⟨S8192, .f32⟩
  | 94 => ⟨S8192x256, .f32⟩
  | 95 => ⟨S_, .f32⟩
  | 96 => ⟨S8192x256, .f32⟩
  | 97 => ⟨S8192x256, .f32⟩
  | 98 => ⟨S8192x256, .f32⟩
  | 99 => ⟨S_, .f32⟩
  | 100 => ⟨S8192, .f32⟩
  | 101 => ⟨S8192, .f32⟩
  | 102 => ⟨S8192x256, .f32⟩
  | 103 => ⟨S_, .f32⟩
  | 104 => ⟨S8192x256, .f32⟩
  | 105 => ⟨S8192x256, .f32⟩
  | 106 => ⟨S8192x256, .f32⟩
  | 107 => ⟨S_, .f32⟩
  | 108 => ⟨S8192, .f32⟩
  | 109 => ⟨S8192, .f32⟩
  | 110 => ⟨S8192x256, .f32⟩
  | 111 => ⟨S_, .f32⟩
  | 112 => ⟨S8192x256, .f32⟩
  | 113 => ⟨S8192x256, .f32⟩
  | 114 => ⟨S8192x256, .f32⟩
  | 115 => ⟨S_, .f32⟩
  | 116 => ⟨S8192, .f32⟩
  | 117 => ⟨S8192, .f32⟩
  | 118 => ⟨S8192, .f32⟩
  | 119 => ⟨S_, .f32⟩
  | 120 => ⟨S8192, .f32⟩
  | 121 => ⟨S8192, .f32⟩
  | 122 => ⟨S8192, .f32⟩
  | 123 => ⟨S_, .f32⟩
  | 124 => ⟨S8192, .f32⟩
  | 125 => ⟨S8192, .f32⟩
  | 126 => ⟨S8192, .f32⟩
  | 127 => ⟨S_, .f32⟩
  | _ => ⟨S8192x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_call1_cst : Ref sig .tc := ⟨.hbm, 25, rfl⟩
abbrev main_call1_v0 : Ref sig .tc := ⟨.hbm, 26, rfl⟩
abbrev main_call1_cst_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_cst_1 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v12 : Ref sig .tc := ⟨.hbm, 39, rfl⟩
abbrev main_v13 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v14 : Ref sig .tc := ⟨.hbm, 62, rfl⟩
abbrev main_cst_3 : Ref sig .tc := ⟨.hbm, 63, rfl⟩
abbrev main_v15 : Ref sig .tc := ⟨.hbm, 64, rfl⟩
abbrev main_cst_4 : Ref sig .tc := ⟨.hbm, 65, rfl⟩
abbrev main_v16 : Ref sig .tc := ⟨.hbm, 66, rfl⟩
abbrev main_v17 : Ref sig .tc := ⟨.hbm, 67, rfl⟩
abbrev main_c : Ref sig .tc := ⟨.hbm, 68, rfl⟩
abbrev main_v18 : Ref sig .tc := ⟨.hbm, 69, rfl⟩
abbrev main_v19 : Ref sig .tc := ⟨.hbm, 70, rfl⟩
abbrev main_c_5 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_c_6 : Ref sig .tc := ⟨.hbm, 77, rfl⟩
abbrev main_v25 : Ref sig .tc := ⟨.hbm, 78, rfl⟩
abbrev main_v26 : Ref sig .tc := ⟨.hbm, 79, rfl⟩
abbrev main_c_7 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_cst_8 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_cst_9 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_cst_10 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_cst_11 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_cst_12 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_cst_13 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_cst_14 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_cst_15 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_call3_cst : Ref sig .tc := ⟨.hbm, 119, rfl⟩
abbrev main_call3_v0 : Ref sig .tc := ⟨.hbm, 120, rfl⟩
abbrev main_v57 : Ref sig .tc := ⟨.hbm, 121, rfl⟩
abbrev main_v58 : Ref sig .tc := ⟨.hbm, 122, rfl⟩
abbrev main_call4_cst : Ref sig .tc := ⟨.hbm, 123, rfl⟩
abbrev main_call4_v0 : Ref sig .tc := ⟨.hbm, 124, rfl⟩
abbrev main_v59 : Ref sig .tc := ⟨.hbm, 125, rfl⟩
abbrev main_v60 : Ref sig .tc := ⟨.hbm, 126, rfl⟩
abbrev main_cst_16 : Ref sig .tc := ⟨.hbm, 127, rfl⟩
abbrev main_v61 : Ref sig .tc := ⟨.hbm, 128, rfl⟩
abbrev main_cst_17 : Ref sig .tc := ⟨.hbm, 129, rfl⟩
abbrev main_v62 : Ref sig .tc := ⟨.hbm, 130, rfl⟩
abbrev main_v63 : Ref sig .tc := ⟨.hbm, 131, rfl⟩
abbrev main_cst_18 : Ref sig .tc := ⟨.hbm, 132, rfl⟩
abbrev main_v64 : Ref sig .tc := ⟨.hbm, 133, rfl⟩
abbrev main_v65 : Ref sig .tc := ⟨.hbm, 134, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S_S8192 : S_.BroadcastsInDim S8192 (![] : Fin 0 → Fin S8192.rank)
  reducesTo_S8192_S_d0 : S8192.ReducesTo [0] S_
  concatenates_S8192_S8192_S8192_S24576_d0 : Shape.Concatenates [S8192, S8192, S8192] S24576 0
  bcast_S_S24576x1000 : S_.BroadcastsInDim S24576x1000 (![] : Fin 0 → Fin S24576x1000.rank)
  reducesTo_S24576x1000_S24576_d1 : S24576x1000.ReducesTo [1] S24576
  bcast_S_S24576 : S_.BroadcastsInDim S24576 (![] : Fin 0 → Fin S24576.rank)
  bcast_S24576_S24576x1_0 : S24576.BroadcastsInDim S24576x1 (![0] : Fin 1 → Fin S24576x1.rank)
  bcast_S24576x1_S24576x1000_0_1 : S24576x1.BroadcastsInDim S24576x1000 (![0, 1] : Fin 2 → Fin S24576x1000.rank)
  bcast_S_S24576x1 : S_.BroadcastsInDim S24576x1 (![] : Fin 0 → Fin S24576x1.rank)
  shapeCasts_S24576x1_S24576x1x1 : S24576x1.ShapeCasts S24576x1x1
  bcast_S_S24576x1x1 : S_.BroadcastsInDim S24576x1x1 (![] : Fin 0 → Fin S24576x1x1.rank)
  bcast_S1_S1x1x1_2 : S1.BroadcastsInDim S1x1x1 (![2] : Fin 1 → Fin S1x1x1.rank)
  bcast_S1x1x1_S24576x1x1_0_1_2 : S1x1x1.BroadcastsInDim S24576x1x1 (![0, 1, 2] : Fin 3 → Fin S24576x1x1.rank)
  reducesTo_S24576x1x1_S24576x1_d2 : S24576x1x1.ReducesTo [2] S24576x1
  reducesTo_S24576x1_S_d0_1 : S24576x1.ReducesTo [0, 1] S_
  bcast_S8192_S8192x1_0 : S8192.BroadcastsInDim S8192x1 (![0] : Fin 1 → Fin S8192x1.rank)
  bcast_S_S8192x256 : S_.BroadcastsInDim S8192x256 (![] : Fin 0 → Fin S8192x256.rank)
  gather_S24576x1000_S24576x1x1_S24576x1_n_1_0_0_1_2_11_wf : GatherDims.WF S24576x1000 S24576x1x1 S24576x1 [] [1] [0] [1] [0] 2 ![1, 1]
  gather_S1000x256_S8192x1_S8192x256_1_0_n_n_0_1_1256_wf : GatherDims.WF S1000x256 S8192x1 S8192x256 [1] [0] [] [0] [] 1 ![1, 256]

variable [Facts₀]

def gather_S24576x1000_S24576x1x1_S24576x1_n_1_0_0_1_2_11 : GatherDims S24576x1000 S24576x1x1 S24576x1 where
  offsetDims := []
  collapsedSliceDims := [1]
  operandBatchingDims := [0]
  startIndicesBatchingDims := [0]
  startIndexMap := [1]
  indexVectorDim := 2
  sliceSizes := ![1, 1]
  wf := gather_S24576x1000_S24576x1x1_S24576x1_n_1_0_0_1_2_11_wf
def gather_S1000x256_S8192x1_S8192x256_1_0_n_n_0_1_1256 : GatherDims S1000x256 S8192x1 S8192x256 where
  offsetDims := [1]
  collapsedSliceDims := [0]
  operandBatchingDims := []
  startIndicesBatchingDims := []
  startIndexMap := [0]
  indexVectorDim := 1
  sliceSizes := ![1, 256]
  wf := gather_S1000x256_S8192x1_S8192x256_1_0_n_n_0_1_1256_wf

class Facts : Prop extends Facts₀ where

variable [Facts]
-- ==== Proof.Kernel.Region0.lean ====
/-
  The first kernel region (the triplet and exemplar-distance rows), at any contents `V` of the core's buffers when
  the region is entered. Its grid has four points; point `t` sees rows 2048·t … 2048·t + 2047 of five [8192, 256]
  arrays (anchor, positive, negative and the two gathered exemplar slabs) and writes rows 2048·t … of two [8192, 1]
  arrays. Here: each window's block as a function of `V`; what the body leaves in each output block, a function of the
  five input blocks and of the point (the row mask `2048·t + r < 8192` depends on it); the body's triple; the
  pipeline's proof data with exactly those contents; and the body obligation at every point.
-/
import proofs.«429437_j17102559773291_2_alg».proof.Proof.Gen.Kernel.Launch
import proofs.«429437_j17102559773291_2_alg».proof.Proof.Gen.Kernel.Skeleton
import proofs.«429437_j17102559773291_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rows the point sees of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data over `V` whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, for any proof data over `V` whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, for any proof data over `V` whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, for any proof data over `V` whose body leaves
    the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, for any proof data over `V` whose body leaves
    the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is of a whole block -/

abbrev rIn0 : Rect S2048x256 := Rect.unit (s := S2048x256) ![0, 0] S2048x256.size inb_S2048x256_S2048x256_0_0
abbrev rOut0 : Rect S2048x1 := Rect.unit (s := S2048x1) ![0, 0] S2048x1.size inb_S2048x1_S2048x1_0_0

/-! ## What the body leaves in each output block -/

/-- The triplet rows: per row, max(Σ|a − p| − Σ|a − n|, 0) under the row mask, from the anchor, positive and
    negative blocks. -/
def out0_5 (i : grid0.Coords) (x0 x1 x2 : Vec F S2048x256 .f32) : Vec F S2048x1 .f32 :=
  View.canon [⟨rOut0, k0_pay1 (k0_pay3 i) (k0_pay6 (View.ld x0 rIn0) (View.ld x1 rIn0) (View.ld x2 rIn0))⟩]

/-- The exemplar-distance rows: per row, max(d(a, eₐ) − d(n, eₐ), 0) + max(d(n, eₙ) − d(a, eₙ), 0) under the row
    mask, d the shifted Euclidean distance along the row, from the anchor, negative and two exemplar blocks. -/
def out0_6 (i : grid0.Coords) (x0 x2 x3 x4 : Vec F S2048x256 .f32) : Vec F S2048x1 .f32 :=
  View.canon [⟨rOut0, k0_pay2 (k0_pay3 i) (View.ld x2 rIn0) (k0_pay5 (View.ld x4 rIn0)) (k0_pay7 (View.ld x0 rIn0) (View.ld x3 rIn0))
    (k0_pay8 (View.ld x2 rIn0) (View.ld x3 rIn0)) (k0_pay9 (View.ld x0 rIn0) (View.ld x4 rIn0)) (Scalar.ofBits .f32 0x358637BD#32)⟩]

/-- One store of the whole block covers it. -/
theorem cover0 (p0 : Vec F S2048x1 .f32) (y : S2048x1.Idx) :
    ∃ pc ∈ ([⟨rOut0, p0⟩] : List (View.Piece (Elt F) S2048x1 .f32)), y ∈ pc.1.set :=
  View.cover_of_tiled [⟨rOut0, p0⟩] S2048x1.size (by rfl) y

/-! ## The body's triple -/

set_option maxHeartbeats 1000000 in
/-- On whole staging buffers, the five inputs' at contents `x0 … x4` and the two outputs' at anything, the body runs
    to its end with the inputs' as they were and the outputs' at `out0_5`, `out0_6` of them. -/
theorem sound_kernel0 (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S2048x256 .f32) (harg3 : arg3.IsWhole) (arg4 : Memref sig .tc .vmem S2048x256 .f32) (harg4 : arg4.IsWhole)
    (arg5 : Memref sig .tc .vmem S2048x256 .f32) (harg5 : arg5.IsWhole) (arg6 : Memref sig .tc .vmem S2048x1 .f32) (harg6 : arg6.IsWhole)
    (arg7 : Memref sig .tc .vmem S2048x1 .f32) (harg7 : arg7.IsWhole)
    (x0 x1 x2 x3 x4 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 i x0 x1 x2) ∗ owns (c : Thread nD τ) arg7 fullShare (out0_6 i x0 x2 x3 x4)) -∗ K ⟨⟩))
      ⊢ wp frame (wpE (defs₀ (F := F)) Variants.none c none) E (cc0__main_kernel i arg1 harg1 arg2 harg2 arg3 harg3 arg4 harg4 arg5 harg5 arg6 harg6 arg7 harg7) K := by
  simp only [cc0__main_kernel_eq_skeleton]; unfold cc0__main_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- The proof data of the first pipeline on core `c`: the arrays as the region finds them; after the body at point
    `t` each input's buffer at its block and each output's at its function of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (grid0.coords t) (iblk0 V c 0 t) (iblk0 V c 1 t) (iblk0 V c 2 t)
    | ⟨6, _⟩ => out0_6 (grid0.coords t) (iblk0 V c 0 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (grid0.coords t) (iblk0 V c 0 t) (iblk0 V c 1 t) (iblk0 V c 2 t) := by dsimp only [dat0]
theorem after0_6 (c : Dev nD) (t : Fin cfg0.N) :
    (dat0 V c).after 6 t = out0_6 (grid0.coords t) (iblk0 V c 0 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Kernel.Region1.lean ====
/-
  The second kernel region (the cross-entropy rows), at any contents `V` of the core's buffers when the region is
  entered. Its grid has twelve points; point `t` sees rows 2048·t … 2048·t + 2047 of the [24576, 1000] logits and of
  the [24576, 1] label column and writes the same rows of a [24576, 1] array: per row, −((x_label − max x) − log Σ
  exp(x − max x)) under the row mask `2048·t + r < 24576`, x_label picked by comparing the column index with the label.
  Here: each window's block as a function of `V`; the output block as a function of the two input blocks and the
  point; the body's triple; the pipeline's proof data; and the body obligation at every point.
-/
import proofs.«429437_j17102559773291_2_alg».proof.Proof.Gen.Kernel.Launch
import proofs.«429437_j17102559773291_2_alg».proof.Proof.Gen.Kernel.Skeleton
import proofs.«429437_j17102559773291_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rows the point sees of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, for any proof data over `V` whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, for any proof data over `V` whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the store is of a whole block -/

abbrev rX1 : Rect S2048x1000 := Rect.unit (s := S2048x1000) ![0, 0] S2048x1000.size inb_S2048x1000_S2048x1000_0_0
abbrev rCol1 : Rect S2048x1 := Rect.unit (s := S2048x1) ![0, 0] S2048x1.size inb_S2048x1_S2048x1_0_0

/-! ## What the body leaves in the output block -/

/-- The cross-entropy rows of the point, from the logits block and the label column. -/
def out1_2 (i : grid1.Coords) (x0 : Vec F S2048x1000 .f32) (x1 : Vec F S2048x1 .i32) : Vec F S2048x1 .f32 :=
  View.canon [⟨rCol1, k1_pay1 i (View.ld x0 rX1) (View.ld x1 rCol1)⟩]

/-- One store of the whole block covers it. -/
theorem cover1 (p0 : Vec F S2048x1 .f32) (y : S2048x1.Idx) :
    ∃ pc ∈ ([⟨rCol1, p0⟩] : List (View.Piece (Elt F) S2048x1 .f32)), y ∈ pc.1.set :=
  View.cover_of_tiled [⟨rCol1, p0⟩] S2048x1.size (by rfl) y

/-! ## The body's triple -/

set_option maxHeartbeats 1000000 in
/-- On whole staging buffers, the inputs' at contents `x0`, `x1` and the output's at anything, the body runs to its
    end with the inputs' as they were and the output's at `out1_2` of them. -/
theorem sound_kernel1 (c : Dev nD) (E : Set ℕ) (i : grid1.Coords)
    (arg1 : Memref sig .tc .vmem S2048x1000 .f32) (harg1 : arg1.IsWhole) (arg2 : Memref sig .tc .vmem S2048x1 .i32) (harg2 : arg2.IsWhole)
    (arg3 : Memref sig .tc .vmem S2048x1 .f32) (harg3 : arg3.IsWhole)
    (x0 : Vec F S2048x1000 .f32) (x1 : Vec F S2048x1 .i32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 i x0 x1)) -∗ K ⟨⟩))
      ⊢ wp frame (wpE (defs₀ (F := F)) Variants.none c none) E (cc1__ce_kernel i arg1 harg1 arg2 harg2 arg3 harg3) K := by
  simp only [cc1__ce_kernel_eq_skeleton]; unfold cc1__ce_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The pipeline's proof data -/

/-- The proof data of the second pipeline on core `c`: the arrays as the region finds them; after the body at point
    `t` each input's buffer at its block and the output's at its function of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (grid1.coords t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.Kernel.Run.lean ====
/-
  The run of @main: three stretches of host operations around the two kernel regions. The contents of the core's
  unscoped buffers are followed from the launch memory through each of the five items — a host stretch applies its
  operations; a region leaves its input arrays as they were and each output array at what the write-backs of its grid
  points leave — and every weakly fair execution is shown to terminate with every unscoped buffer at the last of these
  contents. The frame (no argument array changes) and the four results' values are both read off that statement.
-/
import proofs.«429437_j17102559773291_2_alg».proof.Proof.Kernel.Region0
import proofs.«429437_j17102559773291_2_alg».proof.Proof.Kernel.Region1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
/-- After the first host stretch (the two exemplar gathers): what the first region finds. -/
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)
/-- After the second host stretch (two row sums, the label column): what the second region finds. -/
abbrev W3 : Dev nD → Valuation τ sig (Elt F) := fun c => StableHlo.after hostOps1 (W2 m c)
abbrev VV3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (VV3 m) c).arrAt w cfg1.N
theorem W4_arr (c : Dev nD) (w : Fin cfg1.W) :
    W4 m c (Proc.devRef .tc (Pipeline.arrRef spec1 w)) = (dat1 (VV3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VV4 : (c : Dev nD) → (b : Ref sig .tc) → Buf (Elt F) ((c : Thread nD τ).loc b) := fun c b => W4 m c b
theorem hF1 (c : Dev nD) (w : Fin cfg1.W) : (dat1 (VV3 m) c).arrAt w cfg1.N = VV4 m c (Pipeline.arrRef spec1 w) :=
  (W4_arr m c w).symm
theorem hrest1 (c : Dev nD) : ∀ b, b ∉ Finset.univ.image (Pipeline.arrRef spec1) → VV4 m c b = VV3 m c b :=
  fun b hb => W4_of_ne m c b fun w e => hb (Finset.mem_image.mpr ⟨w, Finset.mem_univ _, e⟩)
/-- After the last host stretch (the mean, the weighted total): what the program returns. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- A host stretch as a segment: from the unscoped buffers at `W` to them at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W1`, left with them at `W2`. Its
    arrays are split out of the unscoped buffers and put back at what the write-backs leave; the generator register
    goes into the body's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers and put back at what the write-backs leave; the generator register
    goes into the body's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (VV3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV3 m c) (VV4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- Every weakly fair execution of @main from memory `m` with zero counters terminates, nothing faulting, and every
    final memory holds each unscoped buffer of each core at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W5 m c))
    (hch := ⟨fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Fr

end
-- ==== Proof.Kernel.Frame.lean ====
/-
  The frame: no item of @main changes an argument array. A host stretch writes only its own results; a region leaves
  its input arrays as they were and writes only its output arrays, none of which is an argument. So each argument's
  buffer at the last boundary is its buffer in the launch memory, and the run's statement gives the frame claim.
-/
import proofs.«429437_j17102559773291_2_alg».proof.Proof.Kernel.Run
import Idealize.ShloMosaic.Lib.StableHlo.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

theorem W5_main_arg0 (c : Dev nD) : W5 m c (Proc.devRef .tc main_arg0) = m ((c : Thread nD τ).loc main_arg0) := by
  have e54 : W5 m c (Proc.devRef .tc main_arg0) = W4 m c (Proc.devRef .tc main_arg0) := by
    show StableHlo.after hostOps2 (W4 m c) (Proc.devRef .tc main_arg0) = _
    unfold hostOps2; after_results; try rfl
  have e43 : W4 m c (Proc.devRef .tc main_arg0) = W3 m c (Proc.devRef .tc main_arg0) := W4_of_ne m c main_arg0 (by decide)
  have e32 : W3 m c (Proc.devRef .tc main_arg0) = W2 m c (Proc.devRef .tc main_arg0) := by
    show StableHlo.after hostOps1 (W2 m c) (Proc.devRef .tc main_arg0) = _
    unfold hostOps1; after_results; try rfl
  have e21 : W2 m c (Proc.devRef .tc main_arg0) = W1 m c (Proc.devRef .tc main_arg0) := (W2_arr m c 0).trans (((dat0 (VV1 m) c).arrAt_in 0 rfl _).trans (A_eq0 (VV1 m) c 0))
  have e10 : W1 m c (Proc.devRef .tc main_arg0) = m ((c : Thread nD τ).loc main_arg0) := by
    show StableHlo.after hostOps0 (W0 m c) (Proc.devRef .tc main_arg0) = _
    unfold hostOps0; after_results; try rfl
  rw [e54, e43, e32, e21, e10]

theorem W5_main_arg1 (c : Dev nD) : W5 m c (Proc.devRef .tc main_arg1) = m ((c : Thread nD τ).loc main_arg1) := by
  have e54 : W5 m c (Proc.devRef .tc main_arg1) = W4 m c (Proc.devRef .tc main_arg1) := by
    show StableHlo.after hostOps2 (W4 m c) (Proc.devRef .tc main_arg1) = _
    unfold hostOps2; after_results; try rfl
  have e43 : W4 m c (Proc.devRef .tc main_arg1) = W3 m c (Proc.devRef .tc main_arg1) := W4_of_ne m c main_arg1 (by decide)
  have e32 : W3 m c (Proc.devRef .tc main_arg1) = W2 m c (Proc.devRef .tc main_arg1) := by
    show StableHlo.after hostOps1 (W2 m c) (Proc.devRef .tc main_arg1) = _
    unfold hostOps1; after_results; try rfl
  have e21 : W2 m c (Proc.devRef .tc main_arg1) = W1 m c (Proc.devRef .tc main_arg1) := (W2_arr m c 1).trans (((dat0 (VV1 m) c).arrAt_in 1 rfl _).trans (A_eq0 (VV1 m) c 1))
  have e10 : W1 m c (Proc.devRef .tc main_arg1) = m ((c : Thread nD τ).loc main_arg1) := by
    show StableHlo.after hostOps0 (W0 m c) (Proc.devRef .tc main_arg1) = _
    unfold hostOps0; after_results; try rfl
  rw [e54, e43, e32, e21, e10]

theorem W5_main_arg2 (c : Dev nD) : W5 m c (Proc.devRef .tc main_arg2) = m ((c : Thread nD τ).loc main_arg2) := by
  have e54 : W5 m c (Proc.devRef .tc main_arg2) = W4 m c (Proc.devRef .tc main_arg2) := by
    show StableHlo.after hostOps2 (W4 m c) (Proc.devRef .tc main_arg2) = _
    unfold hostOps2; after_results; try rfl
  have e43 : W4 m c (Proc.devRef .tc main_arg2) = W3 m c (Proc.devRef .tc main_arg2) := W4_of_ne m c main_arg2 (by decide)
  have e32 : W3 m c (Proc.devRef .tc main_arg2) = W2 m c (Proc.devRef .tc main_arg2) := by
    show StableHlo.after hostOps1 (W2 m c) (Proc.devRef .tc main_arg2) = _
    unfold hostOps1; after_results; try rfl
  have e21 : W2 m c (Proc.devRef .tc main_arg2) = W1 m c (Proc.devRef .tc main_arg2) := (W2_arr m c 2).trans (((dat0 (VV1 m) c).arrAt_in 2 rfl _).trans (A_eq0 (VV1 m) c 2))
  have e10 : W1 m c (Proc.devRef .tc main_arg2) = m ((c : Thread nD τ).loc main_arg2) := by
    show StableHlo.after hostOps0 (W0 m c) (Proc.devRef .tc main_arg2) = _
    unfold hostOps0; after_results; try rfl
  rw [e54, e43, e32, e21, e10]

theorem W5_main_arg3 (c : Dev nD) : W5 m c (Proc.devRef .tc main_arg3) = m ((c : Thread nD τ).loc main_arg3) := by
  have e54 : W5 m c (Proc.devRef .tc main_arg3) = W4 m c (Proc.devRef .tc main_arg3) := by
    show StableHlo.after hostOps2 (W4 m c) (Proc.devRef .tc main_arg3) = _
    unfold hostOps2; after_results; try rfl
  have e43 : W4 m c (Proc.devRef .tc main_arg3) = W3 m c (Proc.devRef .tc main_arg3) := (W4_arr m c 0).trans (((dat1 (VV3 m) c).arrAt_in 0 rfl _).trans (A_eq1 (VV3 m) c 0))
  have e32 : W3 m c (Proc.devRef .tc main_arg3) = W2 m c (Proc.devRef .tc main_arg3) := by
    show StableHlo.after hostOps1 (W2 m c) (Proc.devRef .tc main_arg3) = _
    unfold hostOps1; after_results; try rfl
  have e21 : W2 m c (Proc.devRef .tc main_arg3) = W1 m c (Proc.devRef .tc main_arg3) := W2_of_ne m c main_arg3 (by decide)
  have e10 : W1 m c (Proc.devRef .tc main_arg3) = m ((c : Thread nD τ).loc main_arg3) := by
    show StableHlo.after hostOps0 (W0 m c) (Proc.devRef .tc main_arg3) = _
    unfold hostOps0; after_results; try rfl
  rw [e54, e43, e32, e21, e10]

theorem W5_main_arg4 (c : Dev nD) : W5 m c (Proc.devRef .tc main_arg4) = m ((c : Thread nD τ).loc main_arg4) := by
  have e54 : W5 m c (Proc.devRef .tc main_arg4) = W4 m c (Proc.devRef .tc main_arg4) := by
    show StableHlo.after hostOps2 (W4 m c) (Proc.devRef .tc main_arg4) = _
    unfold hostOps2; after_results; try rfl
  have e43 : W4 m c (Proc.devRef .tc main_arg4) = W3 m c (Proc.devRef .tc main_arg4) := W4_of_ne m c main_arg4 (by decide)
  have e32 : W3 m c (Proc.devRef .tc main_arg4) = W2 m c (Proc.devRef .tc main_arg4) := by
    show StableHlo.after hostOps1 (W2 m c) (Proc.devRef .tc main_arg4) = _
    unfold hostOps1; after_results; try rfl
  have e21 : W2 m c (Proc.devRef .tc main_arg4) = W1 m c (Proc.devRef .tc main_arg4) := W2_of_ne m c main_arg4 (by decide)
  have e10 : W1 m c (Proc.devRef .tc main_arg4) = m ((c : Thread nD τ).loc main_arg4) := by
    show StableHlo.after hostOps0 (W0 m c) (Proc.devRef .tc main_arg4) = _
    unfold hostOps0; after_results; try rfl
  rw [e54, e43, e32, e21, e10]

theorem W5_main_arg5 (c : Dev nD) : W5 m c (Proc.devRef .tc main_arg5) = m ((c : Thread nD τ).loc main_arg5) := by
  have e54 : W5 m c (Proc.devRef .tc main_arg5) = W4 m c (Proc.devRef .tc main_arg5) := by
    show StableHlo.after hostOps2 (W4 m c) (Proc.devRef .tc main_arg5) = _
    unfold hostOps2; after_results; try rfl
  have e43 : W4 m c (Proc.devRef .tc main_arg5) = W3 m c (Proc.devRef .tc main_arg5) := W4_of_ne m c main_arg5 (by decide)
  have e32 : W3 m c (Proc.devRef .tc main_arg5) = W2 m c (Proc.devRef .tc main_arg5) := by
    show StableHlo.after hostOps1 (W2 m c) (Proc.devRef .tc main_arg5) = _
    unfold hostOps1; after_results; try rfl
  have e21 : W2 m c (Proc.devRef .tc main_arg5) = W1 m c (Proc.devRef .tc main_arg5) := W2_of_ne m c main_arg5 (by decide)
  have e10 : W1 m c (Proc.devRef .tc main_arg5) = m ((c : Thread nD τ).loc main_arg5) := by
    show StableHlo.after hostOps0 (W0 m c) (Proc.devRef .tc main_arg5) = _
    unfold hostOps0; after_results; try rfl
  rw [e54, e43, e32, e21, e10]

theorem W5_main_arg6 (c : Dev nD) : W5 m c (Proc.devRef .tc main_arg6) = m ((c : Thread nD τ).loc main_arg6) := by
  have e54 : W5 m c (Proc.devRef .tc main_arg6) = W4 m c (Proc.devRef .tc main_arg6) := by
    show StableHlo.after hostOps2 (W4 m c) (Proc.devRef .tc main_arg6) = _
    unfold hostOps2; after_results; try rfl
  have e43 : W4 m c (Proc.devRef .tc main_arg6) = W3 m c (Proc.devRef .tc main_arg6) := W4_of_ne m c main_arg6 (by decide)
  have e32 : W3 m c (Proc.devRef .tc main_arg6) = W2 m c (Proc.devRef .tc main_arg6) := by
    show StableHlo.after hostOps1 (W2 m c) (Proc.devRef .tc main_arg6) = _
    unfold hostOps1; after_results; try rfl
  have e21 : W2 m c (Proc.devRef .tc main_arg6) = W1 m c (Proc.devRef .tc main_arg6) := W2_of_ne m c main_arg6 (by decide)
  have e10 : W1 m c (Proc.devRef .tc main_arg6) = m ((c : Thread nD τ).loc main_arg6) := by
    show StableHlo.after hostOps0 (W0 m c) (Proc.devRef .tc main_arg6) = _
    unfold hostOps0; after_results; try rfl
  rw [e54, e43, e32, e21, e10]

/-- Every weakly fair execution of @main terminates, nothing faulting, with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_all m ρ)

end Cert.Kernel.Fr

end
-- ==== Proof.KernelIdeal.Region0.lean ====
/-
  The first kernel region (the triplet and exemplar-distance rows), at any contents `V` of the core's buffers when
  the region is entered. Its grid has four points; point `t` sees rows 2048·t … 2048·t + 2047 of five [8192, 256]
  arrays (anchor, positive, negative and the two gathered exemplar slabs) and writes rows 2048·t … of two [8192, 1]
  arrays. Here: each window's block as a function of `V`; what the body leaves in each output block, a function of the
  five input blocks and of the point (the row mask `2048·t + r < 8192` depends on it); the body's triple; the
  pipeline's proof data with exactly those contents; and the body obligation at every point.
-/
import proofs.«429437_j17102559773291_2_alg».proof.Proof.Gen.KernelIdeal.Launch
import proofs.«429437_j17102559773291_2_alg».proof.Proof.Gen.KernelIdeal.Skeleton
import proofs.«429437_j17102559773291_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rows the point sees of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data over `V` whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, for any proof data over `V` whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, for any proof data over `V` whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, for any proof data over `V` whose body leaves
    the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, for any proof data over `V` whose body leaves
    the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is of a whole block -/

abbrev rIn0 : Rect S2048x256 := Rect.unit (s := S2048x256) ![0, 0] S2048x256.size inb_S2048x256_S2048x256_0_0
abbrev rOut0 : Rect S2048x1 := Rect.unit (s := S2048x1) ![0, 0] S2048x1.size inb_S2048x1_S2048x1_0_0

/-! ## What the body leaves in each output block -/

/-- The triplet rows: per row, max(Σ|a − p| − Σ|a − n|, 0) under the row mask, from the anchor, positive and
    negative blocks. -/
def out0_5 (i : grid0.Coords) (x0 x1 x2 : Vec F S2048x256 .f32) : Vec F S2048x1 .f32 :=
  View.canon [⟨rOut0, k0_pay1 (k0_pay3 i) (k0_pay6 (View.ld x0 rIn0) (View.ld x1 rIn0) (View.ld x2 rIn0))⟩]

/-- The exemplar-distance rows: per row, max(d(a, eₐ) − d(n, eₐ), 0) + max(d(n, eₙ) − d(a, eₙ), 0) under the row
    mask, d the shifted Euclidean distance along the row, from the anchor, negative and two exemplar blocks. -/
def out0_6 (i : grid0.Coords) (x0 x2 x3 x4 : Vec F S2048x256 .f32) : Vec F S2048x1 .f32 :=
  View.canon [⟨rOut0, k0_pay2 (k0_pay3 i) (View.ld x2 rIn0) (k0_pay5 (View.ld x4 rIn0)) (k0_pay7 (View.ld x0 rIn0) (View.ld x3 rIn0))
    (k0_pay8 (View.ld x2 rIn0) (View.ld x3 rIn0)) (k0_pay9 (View.ld x0 rIn0) (View.ld x4 rIn0)) (Scalar.ofBits .f32 0x358637BD#32)⟩]

/-- One store of the whole block covers it. -/
theorem cover0 (p0 : Vec F S2048x1 .f32) (y : S2048x1.Idx) :
    ∃ pc ∈ ([⟨rOut0, p0⟩] : List (View.Piece (Elt F) S2048x1 .f32)), y ∈ pc.1.set :=
  View.cover_of_tiled [⟨rOut0, p0⟩] S2048x1.size (by rfl) y

/-! ## The body's triple -/

set_option maxHeartbeats 1000000 in
/-- On whole staging buffers, the five inputs' at contents `x0 … x4` and the two outputs' at anything, the body runs
    to its end with the inputs' as they were and the outputs' at `out0_5`, `out0_6` of them. -/
theorem sound_kernel0 (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S2048x256 .f32) (harg3 : arg3.IsWhole) (arg4 : Memref sig .tc .vmem S2048x256 .f32) (harg4 : arg4.IsWhole)
    (arg5 : Memref sig .tc .vmem S2048x256 .f32) (harg5 : arg5.IsWhole) (arg6 : Memref sig .tc .vmem S2048x1 .f32) (harg6 : arg6.IsWhole)
    (arg7 : Memref sig .tc .vmem S2048x1 .f32) (harg7 : arg7.IsWhole)
    (x0 x1 x2 x3 x4 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 i x0 x1 x2) ∗ owns (c : Thread nD τ) arg7 fullShare (out0_6 i x0 x2 x3 x4)) -∗ K ⟨⟩))
      ⊢ wp frame (wpE (defs₀ (F := F)) Variants.none c none) E (cc0__main_kernel i arg1 harg1 arg2 harg2 arg3 harg3 arg4 harg4 arg5 harg5 arg6 harg6 arg7 harg7) K := by
  simp only [cc0__main_kernel_eq_skeleton]; unfold cc0__main_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- The proof data of the first pipeline on core `c`: the arrays as the region finds them; after the body at point
    `t` each input's buffer at its block and each output's at its function of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (grid0.coords t) (iblk0 V c 0 t) (iblk0 V c 1 t) (iblk0 V c 2 t)
    | ⟨6, _⟩ => out0_6 (grid0.coords t) (iblk0 V c 0 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (grid0.coords t) (iblk0 V c 0 t) (iblk0 V c 1 t) (iblk0 V c 2 t) := by dsimp only [dat0]
theorem after0_6 (c : Dev nD) (t : Fin cfg0.N) :
    (dat0 V c).after 6 t = out0_6 (grid0.coords t) (iblk0 V c 0 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdeal.Region1.lean ====
/-
  The second kernel region (the cross-entropy rows), at any contents `V` of the core's buffers when the region is
  entered. Its grid has twelve points; point `t` sees rows 2048·t … 2048·t + 2047 of the [24576, 1000] logits and of
  the [24576, 1] label column and writes the same rows of a [24576, 1] array: per row, −((x_label − max x) − log Σ
  exp(x − max x)) under the row mask `2048·t + r < 24576`, x_label picked by comparing the column index with the label.
  Here: each window's block as a function of `V`; the output block as a function of the two input blocks and the
  point; the body's triple; the pipeline's proof data; and the body obligation at every point.
-/
import proofs.«429437_j17102559773291_2_alg».proof.Proof.Gen.KernelIdeal.Launch
import proofs.«429437_j17102559773291_2_alg».proof.Proof.Gen.KernelIdeal.Skeleton
import proofs.«429437_j17102559773291_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rows the point sees of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, for any proof data over `V` whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, for any proof data over `V` whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the store is of a whole block -/

abbrev rX1 : Rect S2048x1000 := Rect.unit (s := S2048x1000) ![0, 0] S2048x1000.size inb_S2048x1000_S2048x1000_0_0
abbrev rCol1 : Rect S2048x1 := Rect.unit (s := S2048x1) ![0, 0] S2048x1.size inb_S2048x1_S2048x1_0_0

/-! ## What the body leaves in the output block -/

/-- The cross-entropy rows of the point, from the logits block and the label column. -/
def out1_2 (i : grid1.Coords) (x0 : Vec F S2048x1000 .f32) (x1 : Vec F S2048x1 .i32) : Vec F S2048x1 .f32 :=
  View.canon [⟨rCol1, k1_pay1 i (View.ld x0 rX1) (View.ld x1 rCol1)⟩]

/-- One store of the whole block covers it. -/
theorem cover1 (p0 : Vec F S2048x1 .f32) (y : S2048x1.Idx) :
    ∃ pc ∈ ([⟨rCol1, p0⟩] : List (View.Piece (Elt F) S2048x1 .f32)), y ∈ pc.1.set :=
  View.cover_of_tiled [⟨rCol1, p0⟩] S2048x1.size (by rfl) y

/-! ## The body's triple -/

set_option maxHeartbeats 1000000 in
/-- On whole staging buffers, the inputs' at contents `x0`, `x1` and the output's at anything, the body runs to its
    end with the inputs' as they were and the output's at `out1_2` of them. -/
theorem sound_kernel1 (c : Dev nD) (E : Set ℕ) (i : grid1.Coords)
    (arg1 : Memref sig .tc .vmem S2048x1000 .f32) (harg1 : arg1.IsWhole) (arg2 : Memref sig .tc .vmem S2048x1 .i32) (harg2 : arg2.IsWhole)
    (arg3 : Memref sig .tc .vmem S2048x1 .f32) (harg3 : arg3.IsWhole)
    (x0 : Vec F S2048x1000 .f32) (x1 : Vec F S2048x1 .i32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 i x0 x1)) -∗ K ⟨⟩))
      ⊢ wp frame (wpE (defs₀ (F := F)) Variants.none c none) E (cc1__ce_kernel i arg1 harg1 arg2 harg2 arg3 harg3) K := by
  simp only [cc1__ce_kernel_eq_skeleton]; unfold cc1__ce_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The pipeline's proof data -/

/-- The proof data of the second pipeline on core `c`: the arrays as the region finds them; after the body at point
    `t` each input's buffer at its block and the output's at its function of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (grid1.coords t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KernelIdeal.Run.lean ====
/-
  The run of @main: three stretches of host operations around the two kernel regions. The contents of the core's
  unscoped buffers are followed from the launch memory through each of the five items — a host stretch applies its
  operations; a region leaves its input arrays as they were and each output array at what the write-backs of its grid
  points leave — and every weakly fair execution is shown to terminate with every unscoped buffer at the last of these
  contents. The frame (no argument array changes) and the four results' values are both read off that statement.
-/
import proofs.«429437_j17102559773291_2_alg».proof.Proof.KernelIdeal.Region0
import proofs.«429437_j17102559773291_2_alg».proof.Proof.KernelIdeal.Region1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
/-- After the first host stretch (the two exemplar gathers): what the first region finds. -/
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)
/-- After the second host stretch (two row sums, the label column): what the second region finds. -/
abbrev W3 : Dev nD → Valuation τ sig (Elt F) := fun c => StableHlo.after hostOps1 (W2 m c)
abbrev VV3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (VV3 m) c).arrAt w cfg1.N
theorem W4_arr (c : Dev nD) (w : Fin cfg1.W) :
    W4 m c (Proc.devRef .tc (Pipeline.arrRef spec1 w)) = (dat1 (VV3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VV4 : (c : Dev nD) → (b : Ref sig .tc) → Buf (Elt F) ((c : Thread nD τ).loc b) := fun c b => W4 m c b
theorem hF1 (c : Dev nD) (w : Fin cfg1.W) : (dat1 (VV3 m) c).arrAt w cfg1.N = VV4 m c (Pipeline.arrRef spec1 w) :=
  (W4_arr m c w).symm
theorem hrest1 (c : Dev nD) : ∀ b, b ∉ Finset.univ.image (Pipeline.arrRef spec1) → VV4 m c b = VV3 m c b :=
  fun b hb => W4_of_ne m c b fun w e => hb (Finset.mem_image.mpr ⟨w, Finset.mem_univ _, e⟩)
/-- After the last host stretch (the mean, the weighted total): what the program returns. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- A host stretch as a segment: from the unscoped buffers at `W` to them at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W1`, left with them at `W2`. Its
    arrays are split out of the unscoped buffers and put back at what the write-backs leave; the generator register
    goes into the body's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers and put back at what the write-backs leave; the generator register
    goes into the body's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (VV3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV3 m c) (VV4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- Every weakly fair execution of @main from memory `m` with zero counters terminates, nothing faulting, and every
    final memory holds each unscoped buffer of each core at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W5 m c))
    (hch := ⟨fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Fr

end
-- ==== Proof.KernelIdeal.Frame.lean ====
/-
  The frame: no item of @main changes an argument array. A host stretch writes only its own results; a region leaves
  its input arrays as they were and writes only its output arrays, none of which is an argument. So each argument's
  buffer at the last boundary is its buffer in the launch memory, and the run's statement gives the frame claim.
-/
import proofs.«429437_j17102559773291_2_alg».proof.Proof.KernelIdeal.Run
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

theorem W5_main_arg0 (c : Dev nD) : W5 m c (Proc.devRef .tc main_arg0) = m ((c : Thread nD τ).loc main_arg0) := by
  have e54 : W5 m c (Proc.devRef .tc main_arg0) = W4 m c (Proc.devRef .tc main_arg0) := by
    show StableHlo.after hostOps2 (W4 m c) (Proc.devRef .tc main_arg0) = _
    unfold hostOps2; after_results; try rfl
  have e43 : W4 m c (Proc.devRef .tc main_arg0) = W3 m c (Proc.devRef .tc main_arg0) := W4_of_ne m c main_arg0 (by decide)
  have e32 : W3 m c (Proc.devRef .tc main_arg0) = W2 m c (Proc.devRef .tc main_arg0) := by
    show StableHlo.after hostOps1 (W2 m c) (Proc.devRef .tc main_arg0) = _
    unfold hostOps1; after_results; try rfl
  have e21 : W2 m c (Proc.devRef .tc main_arg0) = W1 m c (Proc.devRef .tc main_arg0) := (W2_arr m c 0).trans (((dat0 (VV1 m) c).arrAt_in 0 rfl _).trans (A_eq0 (VV1 m) c 0))
  have e10 : W1 m c (Proc.devRef .tc main_arg0) = m ((c : Thread nD τ).loc main_arg0) := by
    show StableHlo.after hostOps0 (W0 m c) (Proc.devRef .tc main_arg0) = _
    unfold hostOps0; after_results; try rfl
  rw [e54, e43, e32, e21, e10]

theorem W5_main_arg1 (c : Dev nD) : W5 m c (Proc.devRef .tc main_arg1) = m ((c : Thread nD τ).loc main_arg1) := by
  have e54 : W5 m c (Proc.devRef .tc main_arg1) = W4 m c (Proc.devRef .tc main_arg1) := by
    show StableHlo.after hostOps2 (W4 m c) (Proc.devRef .tc main_arg1) = _
    unfold hostOps2; after_results; try rfl
  have e43 : W4 m c (Proc.devRef .tc main_arg1) = W3 m c (Proc.devRef .tc main_arg1) := W4_of_ne m c main_arg1 (by decide)
  have e32 : W3 m c (Proc.devRef .tc main_arg1) = W2 m c (Proc.devRef .tc main_arg1) := by
    show StableHlo.after hostOps1 (W2 m c) (Proc.devRef .tc main_arg1) = _
    unfold hostOps1; after_results; try rfl
  have e21 : W2 m c (Proc.devRef .tc main_arg1) = W1 m c (Proc.devRef .tc main_arg1) := (W2_arr m c 1).trans (((dat0 (VV1 m) c).arrAt_in 1 rfl _).trans (A_eq0 (VV1 m) c 1))
  have e10 : W1 m c (Proc.devRef .tc main_arg1) = m ((c : Thread nD τ).loc main_arg1) := by
    show StableHlo.after hostOps0 (W0 m c) (Proc.devRef .tc main_arg1) = _
    unfold hostOps0; after_results; try rfl
  rw [e54, e43, e32, e21, e10]

theorem W5_main_arg2 (c : Dev nD) : W5 m c (Proc.devRef .tc main_arg2) = m ((c : Thread nD τ).loc main_arg2) := by
  have e54 : W5 m c (Proc.devRef .tc main_arg2) = W4 m c (Proc.devRef .tc main_arg2) := by
    show StableHlo.after hostOps2 (W4 m c) (Proc.devRef .tc main_arg2) = _
    unfold hostOps2; after_results; try rfl
  have e43 : W4 m c (Proc.devRef .tc main_arg2) = W3 m c (Proc.devRef .tc main_arg2) := W4_of_ne m c main_arg2 (by decide)
  have e32 : W3 m c (Proc.devRef .tc main_arg2) = W2 m c (Proc.devRef .tc main_arg2) := by
    show StableHlo.after hostOps1 (W2 m c) (Proc.devRef .tc main_arg2) = _
    unfold hostOps1; after_results; try rfl
  have e21 : W2 m c (Proc.devRef .tc main_arg2) = W1 m c (Proc.devRef .tc main_arg2) := (W2_arr m c 2).trans (((dat0 (VV1 m) c).arrAt_in 2 rfl _).trans (A_eq0 (VV1 m) c 2))
  have e10 : W1 m c (Proc.devRef .tc main_arg2) = m ((c : Thread nD τ).loc main_arg2) := by
    show StableHlo.after hostOps0 (W0 m c) (Proc.devRef .tc main_arg2) = _
    unfold hostOps0; after_results; try rfl
  rw [e54, e43, e32, e21, e10]

theorem W5_main_arg3 (c : Dev nD) : W5 m c (Proc.devRef .tc main_arg3) = m ((c : Thread nD τ).loc main_arg3) := by
  have e54 : W5 m c (Proc.devRef .tc main_arg3) = W4 m c (Proc.devRef .tc main_arg3) := by
    show StableHlo.after hostOps2 (W4 m c) (Proc.devRef .tc main_arg3) = _
    unfold hostOps2; after_results; try rfl
  have e43 : W4 m c (Proc.devRef .tc main_arg3) = W3 m c (Proc.devRef .tc main_arg3) := (W4_arr m c 0).trans (((dat1 (VV3 m) c).arrAt_in 0 rfl _).trans (A_eq1 (VV3 m) c 0))
  have e32 : W3 m c (Proc.devRef .tc main_arg3) = W2 m c (Proc.devRef .tc main_arg3) := by
    show StableHlo.after hostOps1 (W2 m c) (Proc.devRef .tc main_arg3) = _
    unfold hostOps1; after_results; try rfl
  have e21 : W2 m c (Proc.devRef .tc main_arg3) = W1 m c (Proc.devRef .tc main_arg3) := W2_of_ne m c main_arg3 (by decide)
  have e10 : W1 m c (Proc.devRef .tc main_arg3) = m ((c : Thread nD τ).loc main_arg3) := by
    show StableHlo.after hostOps0 (W0 m c) (Proc.devRef .tc main_arg3) = _
    unfold hostOps0; after_results; try rfl
  rw [e54, e43, e32, e21, e10]

theorem W5_main_arg4 (c : Dev nD) : W5 m c (Proc.devRef .tc main_arg4) = m ((c : Thread nD τ).loc main_arg4) := by
  have e54 : W5 m c (Proc.devRef .tc main_arg4) = W4 m c (Proc.devRef .tc main_arg4) := by
    show StableHlo.after hostOps2 (W4 m c) (Proc.devRef .tc main_arg4) = _
    unfold hostOps2; after_results; try rfl
  have e43 : W4 m c (Proc.devRef .tc main_arg4) = W3 m c (Proc.devRef .tc main_arg4) := W4_of_ne m c main_arg4 (by decide)
  have e32 : W3 m c (Proc.devRef .tc main_arg4) = W2 m c (Proc.devRef .tc main_arg4) := by
    show StableHlo.after hostOps1 (W2 m c) (Proc.devRef .tc main_arg4) = _
    unfold hostOps1; after_results; try rfl
  have e21 : W2 m c (Proc.devRef .tc main_arg4) = W1 m c (Proc.devRef .tc main_arg4) := W2_of_ne m c main_arg4 (by decide)
  have e10 : W1 m c (Proc.devRef .tc main_arg4) = m ((c : Thread nD τ).loc main_arg4) := by
    show StableHlo.after hostOps0 (W0 m c) (Proc.devRef .tc main_arg4) = _
    unfold hostOps0; after_results; try rfl
  rw [e54, e43, e32, e21, e10]

theorem W5_main_arg5 (c : Dev nD) : W5 m c (Proc.devRef .tc main_arg5) = m ((c : Thread nD τ).loc main_arg5) := by
  have e54 : W5 m c (Proc.devRef .tc main_arg5) = W4 m c (Proc.devRef .tc main_arg5) := by
    show StableHlo.after hostOps2 (W4 m c) (Proc.devRef .tc main_arg5) = _
    unfold hostOps2; after_results; try rfl
  have e43 : W4 m c (Proc.devRef .tc main_arg5) = W3 m c (Proc.devRef .tc main_arg5) := W4_of_ne m c main_arg5 (by decide)
  have e32 : W3 m c (Proc.devRef .tc main_arg5) = W2 m c (Proc.devRef .tc main_arg5) := by
    show StableHlo.after hostOps1 (W2 m c) (Proc.devRef .tc main_arg5) = _
    unfold hostOps1; after_results; try rfl
  have e21 : W2 m c (Proc.devRef .tc main_arg5) = W1 m c (Proc.devRef .tc main_arg5) := W2_of_ne m c main_arg5 (by decide)
  have e10 : W1 m c (Proc.devRef .tc main_arg5) = m ((c : Thread nD τ).loc main_arg5) := by
    show StableHlo.after hostOps0 (W0 m c) (Proc.devRef .tc main_arg5) = _
    unfold hostOps0; after_results; try rfl
  rw [e54, e43, e32, e21, e10]

theorem W5_main_arg6 (c : Dev nD) : W5 m c (Proc.devRef .tc main_arg6) = m ((c : Thread nD τ).loc main_arg6) := by
  have e54 : W5 m c (Proc.devRef .tc main_arg6) = W4 m c (Proc.devRef .tc main_arg6) := by
    show StableHlo.after hostOps2 (W4 m c) (Proc.devRef .tc main_arg6) = _
    unfold hostOps2; after_results; try rfl
  have e43 : W4 m c (Proc.devRef .tc main_arg6) = W3 m c (Proc.devRef .tc main_arg6) := W4_of_ne m c main_arg6 (by decide)
  have e32 : W3 m c (Proc.devRef .tc main_arg6) = W2 m c (Proc.devRef .tc main_arg6) := by
    show StableHlo.after hostOps1 (W2 m c) (Proc.devRef .tc main_arg6) = _
    unfold hostOps1; after_results; try rfl
  have e21 : W2 m c (Proc.devRef .tc main_arg6) = W1 m c (Proc.devRef .tc main_arg6) := W2_of_ne m c main_arg6 (by decide)
  have e10 : W1 m c (Proc.devRef .tc main_arg6) = m ((c : Thread nD τ).loc main_arg6) := by
    show StableHlo.after hostOps0 (W0 m c) (Proc.devRef .tc main_arg6) = _
    unfold hostOps0; after_results; try rfl
  rw [e54, e43, e32, e21, e10]

/-- Every weakly fair execution of @main terminates, nothing faulting, with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_all m ρ)

end Cert.KernelIdeal.Fr

end
-- ==== Proof.Spec.lean ====
/-
  The four results as functions of the argument arrays, over the extended reals.

  Rows are indexed by `i`, features by `j < 256`, classes by `j < 1000`. For two [n, 256] arrays `x`, `y`:
  `l1 x y i = Σⱼ |xᵢⱼ − yᵢⱼ|` and `dist x y i = √(Σⱼ (xᵢⱼ − yᵢⱼ + ε)²)`, ε the f32 nearest 10⁻⁶. The triplet term of
  row `i` is `max(l1 a p i − l1 a n i, 0)`; the exemplar term is `max(dist a eₐ i − dist n eₐ i, 0) + max(dist n eₙ i −
  dist a eₙ i, 0)`, eₐ and eₙ the exemplar rows gathered at the two label vectors. For the [24576, 1000] logits `o`
  the log-probability of class `l` in row `i` is `(oᵢₗ − maxⱼ oᵢⱼ) − log Σⱼ exp(oᵢⱼ − maxⱼ oᵢⱼ)`. The results: the sum of the
  triplet terms; the sum of the exemplar terms; minus the mean of the labelled log-probabilities; and their weighted
  total.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An [n, 256] array of extended reals. -/
abbrev Rows (n : Nat) : Type := (⟨2, ![n, 256]⟩ : Shape).Idx → EReal
/-- The [24576, 1000] logits. -/
abbrev Logits : Type := (⟨2, ![24576, 1000]⟩ : Shape).Idx → EReal
/-- A scalar result: a rank-0 array. -/
abbrev Scal : Type := (⟨0, ![]⟩ : Shape).Idx → EReal

/-- The shift inside the distance: the f32 nearest 10⁻⁶. -/
def eps : EReal := Ideal.ofBits .f32 0x358637BD#32

/-- |x − y|. -/
def absd (x y : EReal) : EReal := max (x - y) (-(x - y))

/-- Σⱼ |xᵢⱼ − yᵢⱼ|. -/
def l1 {n : Nat} (x y : Rows n) (i : Fin n) : EReal := ∑ j : Fin 256, absd (x (ix2 i j)) (y (ix2 i j))

/-- √(Σⱼ (xᵢⱼ − yᵢⱼ + ε)²). -/
def dist {n : Nat} (x y : Rows n) (i : Fin n) : EReal :=
  Ideal.sqrt (∑ j : Fin 256, (x (ix2 i j) - y (ix2 i j) + eps) * (x (ix2 i j) - y (ix2 i j) + eps))

/-- Row `i`'s triplet term. -/
def trip (a p n : Rows 8192) (i : Fin 8192) : EReal := max (l1 a p i - l1 a n i) 0

/-- Row `i`'s exemplar term. -/
def cen (a n ea en : Rows 8192) (i : Fin 8192) : EReal :=
  max (dist a ea i - dist n ea i) 0 + max (dist n en i - dist a en i) 0

/-- Row `i`'s largest logit (the fold of `max` from −∞). -/
def rowMax (o : Logits) (i : Fin 24576) : EReal := (Finset.univ : Finset (Fin 1000)).fold max ⊥ (fun j => o (ix2 i j))

/-- log Σⱼ exp(oᵢⱼ − maxⱼ oᵢⱼ). -/
def lse (o : Logits) (i : Fin 24576) : EReal := Ideal.log (∑ j : Fin 1000, Ideal.exp (o (ix2 i j) - rowMax o i))

/-- The log-probability of class `l` in row `i`. -/
def logp (o : Logits) (i : Fin 24576) (l : Fin 1000) : EReal := (o (ix2 i l) - rowMax o i) - lse o i

/-- The sum of the triplet terms. -/
def lossesSum (a p n : Rows 8192) : EReal := ∑ i : Fin 8192, trip a p n i

/-- The sum of the exemplar terms. -/
def lossCenter (a n ea en : Rows 8192) : EReal := ∑ i : Fin 8192, cen a n ea en i

/-- Minus the mean, over the 24576 rows, of the labelled log-probabilities: the negation of (sum ÷ 24576). -/
def lossSoftmax (o : Logits) (lab : Fin 24576 → Fin 1000) : EReal :=
  -(Ideal.div (∑ i : Fin 24576, logp o i (lab i)) (Ideal.ofBits .f32 0x46C00000#32))

/-- The same mean taken of the negated rows `0 − logp`: what a row-wise computation that negates first returns. -/
def lossSoftmaxRows (o : Logits) (lab : Fin 24576 → Fin 1000) : EReal :=
  Ideal.div (∑ i : Fin 24576, (0 - logp o i (lab i))) (Ideal.ofBits .f32 0x46C00000#32)

/-- The weighted total: softmax + 10⁻³ (as f32) · center + 1 · triplet, associated to the left. -/
def total (sm ce tr : EReal) : EReal :=
  (sm + Ideal.ofBits .f32 0x3A83126F#32 * ce) + Ideal.ofBits .f32 0x3F800000#32 * tr

/-- The three labels of row `i` of the concatenation (anchor, anchor, negative labels): row `i` reads vector
    `i / 8192` at position `i % 8192`. -/
def catLab (la ln : Fin 8192 → Fin 1000) (i : Fin 24576) : Fin 1000 :=
  if h : i.val < 8192 then la ⟨i.val, h⟩
  else if h2 : i.val < 16384 then la ⟨i.val - 8192, by omega⟩
  else ln ⟨i.val - 16384, by omega⟩

end Cert.Spec

end
-- ==== Proof.SpecLaws.lean ====
/-
  Two facts about the specification over the extended reals.

  The constants: the f32 pattern 0x3F800000 denotes 1, 0x46C00000 denotes 24576, 0x00000000 denotes 0.

  The mean of negated rows. When every logit is a real number, every log-probability is one too: a row's maximum is
  one of its entries, each exp(x − max) is a positive real, their sum is a positive real, and its logarithm is real.
  Real numbers carry the law  (Σᵢ (0 − xᵢ)) ÷ c = −((Σᵢ xᵢ) ÷ c),  which fails at infinities (−(⊤ + ⊥) ≠ −⊤ + −⊥ in the
  extended reals): so negating every row before the mean, or the mean afterwards, is the same number.
-/
import proofs.«429437_j17102559773291_2_alg».proof.Proof.Spec

noncomputable section

namespace Cert.Spec

open Idealize.ShloMosaic Idealize.ShloMosaic.ValueIdx

/-! ## Constants -/

theorem ofBits_one : Ideal.ofBits .f32 0x3F800000#32 = 1 := by
  simp [Ideal.ofBits, Ideal.ieee, -EReal.coe_mul]; norm_num

theorem ofBits_24576 : Ideal.ofBits .f32 0x46C00000#32 = ((24576 : ℝ) : EReal) := by
  simp [Ideal.ofBits, Ideal.ieee, -EReal.coe_mul]; norm_num

/-! ## Finite sums of reals are real -/

theorem coe_sum {ι : Type} [DecidableEq ι] (s : Finset ι) (f : ι → ℝ) : (∑ i ∈ s, ((f i : ℝ) : EReal)) = ((∑ i ∈ s, f i : ℝ) : EReal) := by
  induction s using Finset.induction_on with
  | empty => simp
  | insert a s ha ih => rw [Finset.sum_insert ha, Finset.sum_insert ha, ih, EReal.coe_add]

/-- The fold of `max` from −∞ over a nonempty family of reals is a real. -/
theorem fold_max_real {n : Nat} (f : Fin (n + 1) → ℝ) :
    ∃ r : ℝ, (Finset.univ : Finset (Fin (n + 1))).fold max (⊥ : EReal) (fun j => ((f j : ℝ) : EReal)) = (r : EReal) := by
  have key : ∀ s : Finset (Fin (n + 1)), s.Nonempty → ∃ r : ℝ, s.fold max (⊥ : EReal) (fun j => ((f j : ℝ) : EReal)) = (r : EReal) := by
    intro s hs
    induction hs using Finset.Nonempty.cons_induction with
    | singleton a => exact ⟨f a, by simp⟩
    | cons a s ha hs ih =>
      obtain ⟨r, hr⟩ := ih
      refine ⟨max (f a) r, ?_⟩
      rw [Finset.fold_cons, hr]
      exact (EReal.coe_strictMono.monotone.map_max).symm
  exact key _ Finset.univ_nonempty

/-! ## The log-probabilities of finite logits are real -/

theorem logp_real (o : Logits) (hfin : ∀ y, ∃ r : ℝ, o y = (r : EReal)) (i : Fin 24576) (l : Fin 1000) :
    ∃ r : ℝ, logp o i l = (r : EReal) := by
  choose f hf using hfin
  obtain ⟨mx, hmx⟩ : ∃ r : ℝ, rowMax o i = (r : EReal) := by
    unfold rowMax
    simp only [hf]
    exact fold_max_real (n := 999) (fun j => f (ix2 i j))
  have hs : (∑ j : Fin 1000, Ideal.exp (o (ix2 i j) - rowMax o i)) = ((∑ j : Fin 1000, Real.exp (f (ix2 i j) - mx) : ℝ) : EReal) := by
    rw [← coe_sum]
    refine Finset.sum_congr rfl fun j _ => ?_
    rw [hf, hmx, ← EReal.coe_sub, Ideal.exp_coe]
  have hpos : 0 < ∑ j : Fin 1000, Real.exp (f (ix2 i j) - mx) :=
    Finset.sum_pos (fun j _ => Real.exp_pos _) Finset.univ_nonempty
  refine ⟨(f (ix2 i l) - mx) - Real.log (∑ j : Fin 1000, Real.exp (f (ix2 i j) - mx)), ?_⟩
  unfold logp lse
  rw [hs, Ideal.log_coe, if_neg (not_le.mpr hpos), hf, hmx, ← EReal.coe_sub, ← EReal.coe_sub]

/-! ## Negating the rows or the mean -/

theorem lossSoftmaxRows_eq (o : Logits) (hfin : ∀ y, ∃ r : ℝ, o y = (r : EReal)) (lab : Fin 24576 → Fin 1000) :
    lossSoftmaxRows o lab = lossSoftmax o lab := by
  have hr : ∀ i : Fin 24576, ∃ r : ℝ, logp o i (lab i) = (r : EReal) := fun i => logp_real o hfin i (lab i)
  choose g hg using hr
  unfold lossSoftmaxRows lossSoftmax
  simp only [hg]
  have h0 : ∀ i : Fin 24576, (0 : EReal) - ((g i : ℝ) : EReal) = ((-(g i) : ℝ) : EReal) := fun i => by
    rw [zero_sub, EReal.coe_neg]
  simp only [h0]
  rw [coe_sum, coe_sum, ofBits_24576, Ideal.div_coe (by norm_num : (24576 : ℝ) ≠ 0), Ideal.div_coe (by norm_num : (24576 : ℝ) ≠ 0),
    ← EReal.coe_mul, ← EReal.coe_mul, ← EReal.coe_neg, Finset.sum_neg_distrib]
  congr 1
  ring

end Cert.Spec

end
-- ==== Proof.LibConcat3.lean ====
/-
  A concatenation of three vectors of one length, read at a row.

  Three vectors x, y, z of length n laid end to end along their one axis form a vector of length 3n whose entry at
  row i is x at i when i < n, y at i − n when n ≤ i < 2n, and z at i − 2n otherwise.
-/
import Idealize.ShloMosaic.Lib.Pipeline.Value
import Idealize.ShloMosaic.Lib.ValueIdx

namespace Idealize.ShloMosaic

open Idealize.ShloMosaic.ValueIdx

/-- Row `i` of the concatenation of three length-`n` vectors along their axis is the row of the piece whose span holds
    `i`, at `i` less the lengths before it. -/
theorem concatenate_three_apply {α : Type} (n N : Nat) (x y z : (⟨1, ![n]⟩ : Shape).Idx → α)
    (h : Shape.Concatenates [(⟨1, ![n]⟩ : Shape), ⟨1, ![n]⟩, ⟨1, ![n]⟩] (⟨1, ![N]⟩ : Shape) 0) (i : Fin N) :
    concatenate (⟨1, ![N]⟩ : Shape) 0 [⟨(⟨1, ![n]⟩ : Shape), x⟩, ⟨(⟨1, ![n]⟩ : Shape), y⟩, ⟨(⟨1, ![n]⟩ : Shape), z⟩] h (ix1 i)
      = if h1 : i.val < n then x (ix1 ⟨i.val, h1⟩)
        else if h2 : i.val < 2 * n then y (ix1 ⟨i.val - n, by omega⟩)
        else z (ix1 ⟨i.val - 2 * n, by
          have hN : N = n + (n + (n + 0)) := by
            have := h.2.2; simpa using this.symm
          have := i.isLt; omega⟩) := by
  have hN : N = n + (n + (n + 0)) := by
    have := h.2.2; simpa using this.symm
  split
  · rename_i h1
    refine concatenate_apply_piece (t := (⟨1, ![N]⟩ : Shape)) (0 : Fin 1) [⟨(⟨1, ![n]⟩ : Shape), x⟩, ⟨(⟨1, ![n]⟩ : Shape), y⟩, ⟨(⟨1, ![n]⟩ : Shape), z⟩] h (ix1 i)
      0 (by simp) _ x rfl rfl 0 (by simp) (ix1 ⟨i.val, h1⟩) (fun b hb => absurd (Subsingleton.elim _ _) hb) ?_
    show 0 + i.val = i.val
    omega
  · rename_i h1
    split
    · rename_i h2
      refine concatenate_apply_piece (t := (⟨1, ![N]⟩ : Shape)) (0 : Fin 1) [⟨(⟨1, ![n]⟩ : Shape), x⟩, ⟨(⟨1, ![n]⟩ : Shape), y⟩, ⟨(⟨1, ![n]⟩ : Shape), z⟩] h (ix1 i)
        1 (by simp) _ y rfl rfl n (by simp) (ix1 ⟨i.val - n, by omega⟩) (fun b hb => absurd (Subsingleton.elim _ _) hb) ?_
      show n + (i.val - n) = i.val
      omega
    · rename_i h2
      refine concatenate_apply_piece (t := (⟨1, ![N]⟩ : Shape)) (0 : Fin 1) [⟨(⟨1, ![n]⟩ : Shape), x⟩, ⟨(⟨1, ![n]⟩ : Shape), y⟩, ⟨(⟨1, ![n]⟩ : Shape), z⟩] h (ix1 i)
        2 (by simp) _ z rfl rfl (2 * n) (by simp; omega) (ix1 ⟨i.val - 2 * n, by have := i.isLt; omega⟩)
        (fun b hb => absurd (Subsingleton.elim _ _) hb) ?_
      show 2 * n + (i.val - 2 * n) = i.val
      omega

end Idealize.ShloMosaic
-- ==== Proof.KernelIdeal.Results.lean ====
/-
  The idealized kernel's four result buffers at the last boundary, as the specification's functions of the arguments.

  The last boundary's contents are read back through the items of @main: the final host stretch forms the mean and the
  weighted total from three scalars; two of them are sums, taken by the middle stretch, of the first region's two
  output columns; the third is the sum of the second region's output column. The first stretch leaves the arguments in
  place and gathers the exemplar rows; the middle stretch lays the three label vectors end to end as the label column.
  What each region leaves in its output columns is read in the modules that follow; here every result buffer is walked
  back to those columns, and the label column is read at a row.
-/
import proofs.«429437_j17102559773291_2_alg».proof.Proof.KernelIdeal.Run
import proofs.«429437_j17102559773291_2_alg».proof.Proof.SpecLaws
import proofs.«429437_j17102559773291_2_alg».proof.Proof.LibConcat3
import Idealize.ShloMosaic.Lib.StableHlo.Run
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (c : Dev nD)

/-- The exemplar rows at a label vector: a negative label wrapped by 1000, then the row gather (kept opaque). -/
def exRows (ex : FVec Ideal S1000x256 .f32) (lbl : IVec S8192 32) : FVec Ideal S8192x256 .f32 :=
  Host.gather gather_S1000x256_S8192x1_S8192x256_1_0_n_n_0_1_1256 ex (broadcastInDim S8192x1 ![0] bcast_S8192_S8192x1_0
    (select (cmpi .slt lbl (broadcastInDim S8192 ![] bcast_S_S8192 (constantI S_ 32 0#32)))
      (addi lbl (broadcastInDim S8192 ![] bcast_S_S8192 (constantI S_ 32 1000#32))) lbl))

/-! ## What the first region finds -/

theorem VV1_arg0 : VV1 m c main_arg0 = m ((c : Thread nD τ).loc main_arg0) := rfl
theorem VV1_arg1 : VV1 m c main_arg1 = m ((c : Thread nD τ).loc main_arg1) := rfl
theorem VV1_arg2 : VV1 m c main_arg2 = m ((c : Thread nD τ).loc main_arg2) := rfl
theorem VV1_v6 : VV1 m c main_v6 = exRows (m ((c : Thread nD τ).loc main_arg4)) (m ((c : Thread nD τ).loc main_arg5)) := rfl
theorem VV1_v13 : VV1 m c main_v13 = exRows (m ((c : Thread nD τ).loc main_arg4)) (m ((c : Thread nD τ).loc main_arg6)) := rfl

/-! ## What the second region finds -/

theorem VV3_arg3 : VV3 m c main_arg3 = m ((c : Thread nD τ).loc main_arg3) := by
  show W3 m c (Proc.devRef .tc main_arg3) = _
  have h1 : W3 m c (Proc.devRef .tc main_arg3) = W2 m c (Proc.devRef .tc main_arg3) := by
    dsimp only [W3, hostOps1]; first | rfl | (after_results; rfl)
  rw [h1, W2_of_ne m c main_arg3 (by decide)]
  rfl

theorem W3_arg5 : W3 m c (Proc.devRef .tc main_arg5) = m ((c : Thread nD τ).loc main_arg5) := by
  have h1 : W3 m c (Proc.devRef .tc main_arg5) = W2 m c (Proc.devRef .tc main_arg5) := by
    dsimp only [W3, hostOps1]; first | rfl | (after_results; rfl)
  rw [h1, W2_of_ne m c main_arg5 (by decide)]
  rfl

/-- The label column is the three label vectors laid end to end, as a column. -/
theorem VV3_v18 : VV3 m c main_v18
    = shapeCast S24576x1 (concatenate S24576 0 [⟨S8192, W2 m c (Proc.devRef .tc main_arg5)⟩, ⟨S8192, W2 m c (Proc.devRef .tc main_arg5)⟩, ⟨S8192, W2 m c (Proc.devRef .tc main_arg6)⟩]
        concatenates_S8192_S8192_S8192_S24576_d0) shapeCasts_S24576_S24576x1 := by
  show StableHlo.after hostOps1 (W2 m c) (Proc.devRef .tc main_v18) = _
  unfold hostOps1
  after_results
  rfl

theorem W2_arg5 : W2 m c (Proc.devRef .tc main_arg5) = m ((c : Thread nD τ).loc main_arg5) := by
  rw [W2_of_ne m c main_arg5 (by decide)]; rfl
theorem W2_arg6 : W2 m c (Proc.devRef .tc main_arg6) = m ((c : Thread nD τ).loc main_arg6) := by
  rw [W2_of_ne m c main_arg6 (by decide)]; rfl

/-- Row `i` of the label column is the label of row `i` of the three vectors laid end to end. -/
theorem VV3_v18_apply (la ln : Fin 8192 → Fin 1000)
    (h5 : ∀ i : Fin 8192, (m ((c : Thread nD τ).loc main_arg5) : S8192.Idx → BitVec 32) (ix1 i) = BitVec.ofNat 32 (la i).val)
    (h6 : ∀ i : Fin 8192, (m ((c : Thread nD τ).loc main_arg6) : S8192.Idx → BitVec 32) (ix1 i) = BitVec.ofNat 32 (ln i).val)
    (i : Fin 24576) :
    (VV3 m c main_v18 : S24576x1.Idx → BitVec 32) (ix2 i 0) = BitVec.ofNat 32 (Cert.Spec.catLab la ln i).val := by
  rw [VV3_v18, W2_arg5, W2_arg6]
  rw [shapeCast_apply _ _ (ix2 i (0 : Fin 1)) (ix1 i) (by rw [Shape.rowMajor_val_one, Shape.rowMajor_val_two]; show i.val = i.val * 1 + 0; omega)]
  rw [concatenate_three_apply 8192 24576]
  unfold Cert.Spec.catLab
  by_cases h1 : i.val < 8192
  · rw [dif_pos h1, dif_pos h1]; exact h5 _
  · rw [dif_neg h1, dif_neg h1]
    by_cases h2 : i.val < 16384
    · rw [dif_pos (show i.val < 2 * 8192 by omega), dif_pos h2]; exact h5 _
    · rw [dif_neg (show ¬ i.val < 2 * 8192 by omega), dif_neg h2]; exact h6 _

/-! ## Sums of a column -/

/-- The total of an [n, 1] column is the sum of its rows. -/
theorem sum_col {n : Nat} (f : (⟨2, ![n, 1]⟩ : Shape).Idx → EReal) : ∑ y, f y = ∑ i : Fin n, f (ix2 i (0 : Fin 1)) := by
  rw [sum_idx2]
  exact Finset.sum_congr rfl fun i _ => Fin.sum_univ_one _

/-- The host's sum of a whole [8192, 1] column from zero. -/
theorem hostSum_8192 (x : FVec Ideal S8192x1 .f32) :
    Host.reduceAdd x (constant (F := Ideal) S_ .f32 0x00000000#32) reducesTo_S8192x1_S_d0_1 h_S_
      = fun _ => ∑ i : Fin 8192, x (ix2 i (0 : Fin 1)) := by
  funext j
  simp only [Host.reduceAdd, Ideal.hostReduceAdd_def]
  rw [Ideal.hostReduceAdd_total reducesTo_S8192x1_S_d0_1 (fun b => b.elim0) x _ j]
  show Ideal.ofBits .f32 0x00000000#32 + _ = _
  rw [Ideal.ofBits_zero_f32, zero_add]
  exact sum_col x

/-- The host's sum of a whole [24576, 1] column from zero. -/
theorem hostSum_24576 (x : FVec Ideal S24576x1 .f32) :
    Host.reduceAdd x (constant (F := Ideal) S_ .f32 0x00000000#32) reducesTo_S24576x1_S_d0_1 h_S_
      = fun _ => ∑ i : Fin 24576, x (ix2 i (0 : Fin 1)) := by
  funext j
  simp only [Host.reduceAdd, Ideal.hostReduceAdd_def]
  rw [Ideal.hostReduceAdd_total reducesTo_S24576x1_S_d0_1 (fun b => b.elim0) x _ j]
  show Ideal.ofBits .f32 0x00000000#32 + _ = _
  rw [Ideal.ofBits_zero_f32, zero_add]
  exact sum_col x

/-! ## The result buffers, walked back to the regions' output columns -/

theorem W5_v15 : W5 m c (Proc.devRef .tc main_v15)
    = Host.reduceAdd (W2 m c (Proc.devRef .tc main_v14_0)) (constant (F := Ideal) S_ .f32 0x00000000#32) reducesTo_S8192x1_S_d0_1 h_S_ := by
  have h1 : W5 m c (Proc.devRef .tc main_v15) = W4 m c (Proc.devRef .tc main_v15) := by
    show StableHlo.after hostOps2 (W4 m c) (Proc.devRef .tc main_v15) = _
    unfold hostOps2; after_results; try rfl
  rw [h1, W4_of_ne m c main_v15 (by decide)]
  show StableHlo.after hostOps1 (W2 m c) (Proc.devRef .tc main_v15) = _
  unfold hostOps1; after_results; try rfl

theorem W5_v16 : W5 m c (Proc.devRef .tc main_v16)
    = Host.reduceAdd (W2 m c (Proc.devRef .tc main_v14_1)) (constant (F := Ideal) S_ .f32 0x00000000#32) reducesTo_S8192x1_S_d0_1 h_S_ := by
  have h1 : W5 m c (Proc.devRef .tc main_v16) = W4 m c (Proc.devRef .tc main_v16) := by
    show StableHlo.after hostOps2 (W4 m c) (Proc.devRef .tc main_v16) = _
    unfold hostOps2; after_results; try rfl
  rw [h1, W4_of_ne m c main_v16 (by decide)]
  show StableHlo.after hostOps1 (W2 m c) (Proc.devRef .tc main_v16) = _
  unfold hostOps1; after_results; try rfl

theorem W5_v21 : W5 m c (Proc.devRef .tc main_v21)
    = Host.divf (Host.reduceAdd (W4 m c (Proc.devRef .tc main_v19)) (constant (F := Ideal) S_ .f32 0x00000000#32) reducesTo_S24576x1_S_d0_1 h_S_)
        (constant (F := Ideal) S_ .f32 0x46C00000#32) := by
  show StableHlo.after hostOps2 (W4 m c) (Proc.devRef .tc main_v21) = _
  unfold hostOps2; after_results; try rfl

theorem W5_v25 : W5 m c (Proc.devRef .tc main_v25)
    = addf (addf (W5 m c (Proc.devRef .tc main_v21)) (mulf (constant (F := Ideal) S_ .f32 0x3A83126F#32) (W5 m c (Proc.devRef .tc main_v16))))
        (mulf (constant (F := Ideal) S_ .f32 0x3F800000#32) (W5 m c (Proc.devRef .tc main_v15))) := by
  have e16 : W5 m c (Proc.devRef .tc main_v16) = W4 m c (Proc.devRef .tc main_v16) := by
    show StableHlo.after hostOps2 (W4 m c) (Proc.devRef .tc main_v16) = _
    unfold hostOps2; after_results; try rfl
  have e15 : W5 m c (Proc.devRef .tc main_v15) = W4 m c (Proc.devRef .tc main_v15) := by
    show StableHlo.after hostOps2 (W4 m c) (Proc.devRef .tc main_v15) = _
    unfold hostOps2; after_results; try rfl
  rw [W5_v21, e16, e15]
  show StableHlo.after hostOps2 (W4 m c) (Proc.devRef .tc main_v25) = _
  unfold hostOps2; after_results; try rfl

end Cert.KernelIdeal.Fr

end
-- ==== Proof.KernelIdeal.Value0Rows.lean ====
/-
  The first kernel region's body, read row by row over the extended reals. A grid point holds 2048 rows of each of
  five [2048, 256] blocks. Row r of the first output block is max(Σⱼ|aᵣⱼ − pᵣⱼ| − Σⱼ|aᵣⱼ − nᵣⱼ|, 0), the triplet term of
  the blocks' row r; row r of the second is max(d(a, eₐ) − d(n, eₐ), 0) + max(d(n, eₙ) − d(a, eₙ), 0) at row r, d the
  shifted Euclidean distance along the row. The row mask 2048·i + r < 8192 holds at every row of each of the four
  grid points, so the masked-out branch (zero) is never taken.
-/
import proofs.«429437_j17102559773291_2_alg».proof.Proof.KernelIdeal.Region0
import proofs.«429437_j17102559773291_2_alg».proof.Proof.Spec
import Idealize.ShloMosaic.Lib.ValueIdx
import Idealize.ShloMosaic.Lib.Pipeline.Value
import Idealize.ShloMosaic.PureOps.Ideal.Laws

noncomputable section

namespace Cert.KernelIdeal.Fr

open Cert.KernelIdeal Cert.KernelIdeal.Gen Idealize.ShloMosaic Idealize.ShloMosaic.TcCoe Idealize.ShloMosaic.ValueIdx

/-- The zero offsets of a whole-block access, as a constant function. -/
theorem zeroOff : (![0, 0] : Fin 2 → Nat) = fun _ => 0 := funext fun a => by fin_cases a <;> rfl

/-! ## The row mask -/

/-- For a grid coordinate a < 4 and a row b < 2048 the 32-bit word 2048·a + b is below 8192 as a signed word. -/
theorem rowWord_slt (a b : Nat) (ha : a < 4) (hb : b < 2048) :
    (BitVec.ofNat 32 a * 2048#32 + BitVec.ofNat 32 b).slt 8192#32 = true := by
  have hx : (BitVec.ofNat 32 a * 2048#32 + BitVec.ofNat 32 b).toNat = a * 2048 + b := by
    simp only [BitVec.toNat_add, BitVec.toNat_mul, BitVec.toNat_ofNat]
    omega
  rw [BitVec.slt, decide_eq_true_eq, BitVec.toInt_eq_toNat_of_lt (by rw [hx]; omega), hx]
  show ((a * 2048 + b : Nat) : Int) < 8192
  omega

/-- The row mask is set at every row of every grid point. -/
theorem rowMask_apply (i : grid0.Coords) (r : Fin 2048) (u : Fin 1) : k0_pay3 i (ix2 r u) = 1#1 := by
  have hi : (i 0).val < 4 := (i 0).isLt
  unfold k0_pay3
  show IntOp.cmpi .slt (IntOp.addi (Scalar.muli (BitVec.ofNat 32 (i 0).val) 2048#32)
    (iota .tc S2048x1 32 [0] iota_S2048x1_d0_w32 (ix2 r u))) 8192#32 = 1#1
  rw [iota_single_apply]
  show BitVec.ofBool ((BitVec.ofNat 32 (i 0).val * 2048#32 + BitVec.ofNat 32 r.val).slt 8192#32) = 1#1
  rw [rowWord_slt _ _ hi r.isLt]
  rfl

/-! ## A lane sum kept as a column -/

/-- The sum along the lanes of a [2048, 256] block, kept as a [2048, 1] column: at row r, Σₖ of the block's row r. -/
theorem laneSum_apply (v : FVec Ideal S2048x256 .f32) (h : S2048x256.Reduces [1] S2048) (hc : S2048.ShapeCasts S2048x1)
    (r : Fin 2048) (u : Fin 1) :
    shapeCast S2048x1 (multiReduction (F := Ideal) .add [1] S2048 v 0x00000000#32 h (.inl rfl) rfl) hc (ix2 r u)
      = ∑ k : Fin 256, v (ix2 r k) := by
  refine (shapeCast_apply _ hc (ix2 r u) (ix1 r) ?_).trans ?_
  · have hu : u.val = 0 := by omega
    rw [Shape.rowMajor_val_two, Shape.rowMajor_val_one]
    show r.val = r.val * 1 + u.val
    omega
  · refine (Ideal.multiReduction_add_single v 0x00000000#32 h (.inl rfl) rfl (ix1 r)).trans ?_
    refine Finset.sum_congr rfl fun k _ => congrArg v ?_
    exact Shape.idx_ext₂ rfl rfl

/-! ## The triplet rows -/

/-- Row r of the triplet payload: max(Σ|a − p| − Σ|a − n|, 0) of the three blocks' rows r. -/
theorem tripRow_apply (x0 x1 x2 : Vec Ideal S2048x256 .f32) (r : Fin 2048) (u : Fin 1) :
    k0_pay6 x0 x1 x2 (ix2 r u) = max (Cert.Spec.l1 (n := 2048) x0 x1 r - Cert.Spec.l1 (n := 2048) x0 x2 r) 0 := by
  unfold k0_pay6
  show max (shapeCast S2048x1 (multiReduction (F := Ideal) .add [1] S2048 (absf (subf x0 x1)) 0x00000000#32 _ (.inl rfl) rfl) _ (ix2 r u)
      - shapeCast S2048x1 (multiReduction (F := Ideal) .add [1] S2048 (absf (subf x0 x2)) 0x00000000#32 _ (.inl rfl) rfl) _ (ix2 r u))
    (Ideal.ofBits .f32 0x00000000#32) = _
  rw [laneSum_apply, laneSum_apply, Ideal.ofBits_zero_f32]
  rfl

/-- The first output block at row r: the triplet term of the three input blocks' rows r. -/
theorem out0_5_apply (i : grid0.Coords) (x0 x1 x2 : Vec Ideal S2048x256 .f32) (r : Fin 2048) (u : Fin 1) :
    out0_5 i x0 x1 x2 (ix2 r u) = max (Cert.Spec.l1 (n := 2048) x0 x1 r - Cert.Spec.l1 (n := 2048) x0 x2 r) 0 := by
  unfold out0_5
  rw [View.canon_unit_zero zeroOff]
  simp only [View.ld_unit_zero (S := S2048x256) zeroOff]
  unfold k0_pay1
  show Scalar.select (k0_pay3 i (ix2 r u)) (k0_pay6 x0 x1 x2 (ix2 r u)) _ = _
  rw [rowMask_apply, select_one, tripRow_apply]

/-! ## The exemplar-distance rows -/

/-- √(Σₖ (xᵣₖ − yᵣₖ + ε)²) as the body computes it from a difference block d = x − y: at row r it is the shifted
    distance of the rows r of x and y. -/
theorem distOfDiff_apply (x y : Vec Ideal S2048x256 .f32) (d : FVec Ideal S2048x256 .f32) (hd : d = subf x y)
    (h : S2048x256.Reduces [1] S2048) (hc : S2048.ShapeCasts S2048x1) (r : Fin 2048) (u : Fin 1) :
    sqrt (shapeCast S2048x1 (multiReduction (F := Ideal) .add [1] S2048
        (mulf (addf d (broadcast S2048x256 (Scalar.ofBits .f32 0x358637BD#32))) (addf d (broadcast S2048x256 (Scalar.ofBits .f32 0x358637BD#32))))
        0x00000000#32 h (.inl rfl) rfl) hc) (ix2 r u)
      = Cert.Spec.dist (n := 2048) x y r := by
  subst hd
  show Ideal.sqrt (shapeCast S2048x1 (multiReduction (F := Ideal) .add [1] S2048 _ 0x00000000#32 h (.inl rfl) rfl) hc (ix2 r u)) = _
  rw [laneSum_apply]
  rfl

/-- The distance payload of the anchor (or negative) block against an exemplar block, at row r. -/
theorem distA_apply (x y : Vec Ideal S2048x256 .f32) (r : Fin 2048) (u : Fin 1) :
    k0_pay7 x y (ix2 r u) = Cert.Spec.dist (n := 2048) x y r := by
  unfold k0_pay7 k0_pay4
  exact distOfDiff_apply x y _ (by rw [shapeCast_self]) _ _ r u

/-- The same for the second distance payload of the same shape. -/
theorem distB_apply (x y : Vec Ideal S2048x256 .f32) (r : Fin 2048) (u : Fin 1) :
    k0_pay8 x y (ix2 r u) = Cert.Spec.dist (n := 2048) x y r := by
  unfold k0_pay8 k0_pay4
  exact distOfDiff_apply x y _ (by rw [shapeCast_self]) _ _ r u

/-- The second output block at row r: the exemplar term of the four input blocks' rows r. -/
theorem out0_6_apply (i : grid0.Coords) (x0 x2 x3 x4 : Vec Ideal S2048x256 .f32) (r : Fin 2048) (u : Fin 1) :
    out0_6 i x0 x2 x3 x4 (ix2 r u)
      = max (Cert.Spec.dist (n := 2048) x0 x3 r - Cert.Spec.dist (n := 2048) x2 x3 r) 0
        + max (Cert.Spec.dist (n := 2048) x2 x4 r - Cert.Spec.dist (n := 2048) x0 x4 r) 0 := by
  unfold out0_6
  rw [View.canon_unit_zero zeroOff]
  simp only [View.ld_unit_zero (S := S2048x256) zeroOff]
  unfold k0_pay2
  show Scalar.select (k0_pay3 i (ix2 r u))
    (max (k0_pay7 x0 x3 (ix2 r u) - k0_pay8 x2 x3 (ix2 r u)) (Ideal.ofBits .f32 0x00000000#32)
      + max (sqrt (shapeCast S2048x1 (multiReduction (F := Ideal) .add [1] S2048
            (mulf (addf (subf x2 (k0_pay5 x4)) (broadcast S2048x256 (Scalar.ofBits .f32 0x358637BD#32)))
              (addf (subf x2 (k0_pay5 x4)) (broadcast S2048x256 (Scalar.ofBits .f32 0x358637BD#32))))
            0x00000000#32 _ (.inl rfl) rfl) _) (ix2 r u)
          - sqrt (shapeCast S2048x1 (multiReduction (F := Ideal) .add [1] S2048
            (mulf (addf (k0_pay9 x0 x4) (broadcast S2048x256 (Scalar.ofBits .f32 0x358637BD#32)))
              (addf (k0_pay9 x0 x4) (broadcast S2048x256 (Scalar.ofBits .f32 0x358637BD#32))))
            0x00000000#32 _ (.inl rfl) rfl) _) (ix2 r u))
        (Ideal.ofBits .f32 0x00000000#32)) _ = _
  rw [rowMask_apply, select_one, distA_apply, distB_apply,
    distOfDiff_apply x2 x4 _ (by unfold k0_pay5; rw [shapeCast_self]),
    distOfDiff_apply x0 x4 _ (by unfold k0_pay9 k0_pay5; rw [shapeCast_self]), Ideal.ofBits_zero_f32]

end Cert.KernelIdeal.Fr

end
-- ==== Proof.KernelIdeal.Value0.lean ====
/-
  The first kernel region's two output arrays as whole-array functions of the arrays the region finds. Point t of the
  four-point grid sees rows 2048·t … 2048·t + 2047 of each of the five [8192, 256] inputs and writes the same rows of the
  two [8192, 1] outputs; a row of an output block depends only on the same row of the input blocks, so row 2048·t + r
  of an output is the row term of row 2048·t + r of the inputs, and the four blocks tile the 8192 rows (row i lies in
  block i / 2048). Hence the first output holds the triplet term of every row and the second the exemplar term.
-/
import proofs.«429437_j17102559773291_2_alg».proof.Proof.KernelIdeal.Value0Rows
import proofs.«429437_j17102559773291_2_alg».proof.Proof.KernelIdeal.Region0
import proofs.«429437_j17102559773291_2_alg».proof.Proof.Spec
import Idealize.ShloMosaic.Lib.ValueIdx
import Idealize.ShloMosaic.Lib.Pipeline.Value
import Idealize.ShloMosaic.PureOps.Ideal.Laws

noncomputable section

namespace Cert.KernelIdeal.Fr

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## Where a point's blocks sit -/

/-- At point t every window's block index is (t, 0): point t sees rows 2048·t … 2048·t + 2047. -/
theorem blockIdx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Every one of the four row blocks is some point's. -/
theorem pointOfBlock0 : ∀ q : Fin 4, ∃ t : Fin cfg0.N, t.val = q.val :=
  (by decide +kernel : ∀ q : Fin 4, ∃ t : Fin grid0.N, t.val = q.val)

/-- The grid has four points. -/
theorem point_lt0 (t : Fin cfg0.N) : t.val < 4 := lt_of_lt_of_eq t.isLt N_0

/-- Row r, lane k of the anchor block at point t is row 2048·t + r, lane k of the anchor array. -/
theorem iblk0_0_apply (c : Dev nD) (t : Fin cfg0.N) (r : Fin 2048) (k : Fin 256) (hr : 2048 * t.val + r.val < 8192) :
    (iblk0 V c 0 t : Vec Ideal S2048x256 .f32) (ix2 r k)
      = (V c main_arg0 : S8192x256.Idx → EReal) (ix2 ⟨2048 * t.val + r.val, hr⟩ k) := by
  obtain ⟨h0, h1⟩ := (blockIdx0 t).1
  unfold iblk0
  rw [View.read_apply]
  show V c main_arg0 _ = V c main_arg0 _
  congr 1
  funext a
  apply Fin.ext
  match a with
  | ⟨0, _⟩ => show win0_0.index t 0 * 2048 + 1 * r.val = 2048 * t.val + r.val; rw [h0]; omega
  | ⟨1, _⟩ => show win0_0.index t 1 * 256 + 1 * k.val = k.val; rw [h1]; omega

/-- The same for the positive block. -/
theorem iblk0_1_apply (c : Dev nD) (t : Fin cfg0.N) (r : Fin 2048) (k : Fin 256) (hr : 2048 * t.val + r.val < 8192) :
    (iblk0 V c 1 t : Vec Ideal S2048x256 .f32) (ix2 r k)
      = (V c main_arg1 : S8192x256.Idx → EReal) (ix2 ⟨2048 * t.val + r.val, hr⟩ k) := by
  obtain ⟨h0, h1⟩ := (blockIdx0 t).2.1
  unfold iblk0
  rw [View.read_apply]
  show V c main_arg1 _ = V c main_arg1 _
  congr 1
  funext a
  apply Fin.ext
  match a with
  | ⟨0, _⟩ => show win0_1.index t 0 * 2048 + 1 * r.val = 2048 * t.val + r.val; rw [h0]; omega
  | ⟨1, _⟩ => show win0_1.index t 1 * 256 + 1 * k.val = k.val; rw [h1]; omega

/-- The same for the negative block. -/
theorem iblk0_2_apply (c : Dev nD) (t : Fin cfg0.N) (r : Fin 2048) (k : Fin 256) (hr : 2048 * t.val + r.val < 8192) :
    (iblk0 V c 2 t : Vec Ideal S2048x256 .f32) (ix2 r k)
      = (V c main_arg2 : S8192x256.Idx → EReal) (ix2 ⟨2048 * t.val + r.val, hr⟩ k) := by
  obtain ⟨h0, h1⟩ := (blockIdx0 t).2.2.1
  unfold iblk0
  rw [View.read_apply]
  show V c main_arg2 _ = V c main_arg2 _
  congr 1
  funext a
  apply Fin.ext
  match a with
  | ⟨0, _⟩ => show win0_2.index t 0 * 2048 + 1 * r.val = 2048 * t.val + r.val; rw [h0]; omega
  | ⟨1, _⟩ => show win0_2.index t 1 * 256 + 1 * k.val = k.val; rw [h1]; omega

/-- The same for the block of exemplar rows gathered at the anchor labels. -/
theorem iblk0_3_apply (c : Dev nD) (t : Fin cfg0.N) (r : Fin 2048) (k : Fin 256) (hr : 2048 * t.val + r.val < 8192) :
    (iblk0 V c 3 t : Vec Ideal S2048x256 .f32) (ix2 r k)
      = (V c main_v6 : S8192x256.Idx → EReal) (ix2 ⟨2048 * t.val + r.val, hr⟩ k) := by
  obtain ⟨h0, h1⟩ := (blockIdx0 t).2.2.2.1
  unfold iblk0
  rw [View.read_apply]
  show V c main_v6 _ = V c main_v6 _
  congr 1
  funext a
  apply Fin.ext
  match a with
  | ⟨0, _⟩ => show win0_3.index t 0 * 2048 + 1 * r.val = 2048 * t.val + r.val; rw [h0]; omega
  | ⟨1, _⟩ => show win0_3.index t 1 * 256 + 1 * k.val = k.val; rw [h1]; omega

/-- The same for the block of exemplar rows gathered at the negative labels. -/
theorem iblk0_4_apply (c : Dev nD) (t : Fin cfg0.N) (r : Fin 2048) (k : Fin 256) (hr : 2048 * t.val + r.val < 8192) :
    (iblk0 V c 4 t : Vec Ideal S2048x256 .f32) (ix2 r k)
      = (V c main_v13 : S8192x256.Idx → EReal) (ix2 ⟨2048 * t.val + r.val, hr⟩ k) := by
  obtain ⟨h0, h1⟩ := (blockIdx0 t).2.2.2.2.1
  unfold iblk0
  rw [View.read_apply]
  show V c main_v13 _ = V c main_v13 _
  congr 1
  funext a
  apply Fin.ext
  match a with
  | ⟨0, _⟩ => show win0_4.index t 0 * 2048 + 1 * r.val = 2048 * t.val + r.val; rw [h0]; omega
  | ⟨1, _⟩ => show win0_4.index t 1 * 256 + 1 * k.val = k.val; rw [h1]; omega

/-! ## The rows of a point's blocks are the arrays' rows -/

/-- The L1 row distance of two blocks at point t, at row r, is that of the two arrays at row 2048·t + r. -/
theorem l1_blocks (A B : S8192x256.Idx → EReal) (x y : Vec Ideal S2048x256 .f32) (t : Nat) (r : Fin 2048) (hr : 2048 * t + r.val < 8192)
    (hx : ∀ k : Fin 256, x (ix2 r k) = A (ix2 ⟨2048 * t + r.val, hr⟩ k))
    (hy : ∀ k : Fin 256, y (ix2 r k) = B (ix2 ⟨2048 * t + r.val, hr⟩ k)) :
    Cert.Spec.l1 (n := 2048) x y r = Cert.Spec.l1 (n := 8192) A B ⟨2048 * t + r.val, hr⟩ := by
  unfold Cert.Spec.l1
  exact Finset.sum_congr rfl fun k _ => by rw [hx k, hy k]

/-- The shifted Euclidean row distance likewise. -/
theorem dist_blocks (A B : S8192x256.Idx → EReal) (x y : Vec Ideal S2048x256 .f32) (t : Nat) (r : Fin 2048) (hr : 2048 * t + r.val < 8192)
    (hx : ∀ k : Fin 256, x (ix2 r k) = A (ix2 ⟨2048 * t + r.val, hr⟩ k))
    (hy : ∀ k : Fin 256, y (ix2 r k) = B (ix2 ⟨2048 * t + r.val, hr⟩ k)) :
    Cert.Spec.dist (n := 2048) x y r = Cert.Spec.dist (n := 8192) A B ⟨2048 * t + r.val, hr⟩ := by
  unfold Cert.Spec.dist
  exact congrArg Ideal.sqrt (Finset.sum_congr rfl fun k _ => by rw [hx k, hy k])

/-! ## The triplet rows: what a point writes back, and the array -/

/-- The triplet rows as one function of the three arrays. -/
abbrev tripRows (c : Dev nD) : S8192x1.Idx → EReal :=
  fun y => Cert.Spec.trip (V c main_arg0) (V c main_arg1) (V c main_arg2) (y 0)

/-- Row r of the first output block at point t is the triplet term of row 2048·t + r of the arrays. -/
theorem out0_5_point (c : Dev nD) (t : Fin cfg0.N) (r : Fin 2048) (u : Fin 1) (hr : 2048 * t.val + r.val < 8192) :
    out0_5 (grid0.coords t) (iblk0 V c 0 t) (iblk0 V c 1 t) (iblk0 V c 2 t) (ix2 r u)
      = Cert.Spec.trip (V c main_arg0) (V c main_arg1) (V c main_arg2) ⟨2048 * t.val + r.val, hr⟩ := by
  refine (out0_5_apply (grid0.coords t) (iblk0 V c 0 t) (iblk0 V c 1 t) (iblk0 V c 2 t) r u).trans ?_
  unfold Cert.Spec.trip
  rw [l1_blocks (V c main_arg0) (V c main_arg1) (iblk0 V c 0 t) (iblk0 V c 1 t) t.val r hr
      (fun k => iblk0_0_apply V c t r k hr) (fun k => iblk0_1_apply V c t r k hr),
    l1_blocks (V c main_arg0) (V c main_arg2) (iblk0 V c 0 t) (iblk0 V c 2 t) t.val r hr
      (fun k => iblk0_0_apply V c t r k hr) (fun k => iblk0_2_apply V c t r k hr)]

/-- What point t writes back of the first output is block t of the triplet rows. -/
theorem flushed0_5_eq (c : Dev nD) (t : Fin cfg0.N) :
    (dat0 (F := Ideal) V c).flushed 5 t = ((cfg0.win 5).blk t).view.read (Elt Ideal) (tripRows V c) := by
  show (cfg0.win 5).cut (grid0.coords t) ((dat0 V c).after 5 t) = _
  rw [after0_5]
  funext j
  rw [View.read_apply]
  have ht := point_lt0 t
  have hj0 : (j 0).val < 2048 := (j 0).isLt
  have hj1 : (j 1).val < 1 := (j 1).isLt
  have hr : 2048 * t.val + (j 0).val < 8192 := by omega
  obtain ⟨h0, h1⟩ := (blockIdx0 t).2.2.2.2.2.1
  have e : (cfg0.win 5).xinj (grid0.coords t) j = ix2 (⟨(j 0).val, hj0⟩ : Fin 2048) (⟨(j 1).val, hj1⟩ : Fin 1) :=
    funext fun a => match a with | ⟨0, _⟩ => rfl | ⟨1, _⟩ => rfl
  refine (congrArg (out0_5 (grid0.coords t) (iblk0 V c 0 t) (iblk0 V c 1 t) (iblk0 V c 2 t)) e).trans ?_
  refine (out0_5_point V c t ⟨(j 0).val, hj0⟩ ⟨(j 1).val, hj1⟩ hr).trans ?_
  refine congrArg (Cert.Spec.trip (V c main_arg0) (V c main_arg1) (V c main_arg2)) (Fin.ext ?_)
  show 2048 * t.val + (j 0).val = win0_5.index t 0 * 2048 + 1 * (j 0).val
  rw [h0]; omega

/-- An index of the [8192, 1] array is in point t's block of the first output iff each coordinate is in the block's range. -/
theorem mem_blk0_5 (t : Fin cfg0.N) (i : S8192x1.Idx) :
    i ∈ ((cfg0.win 5).blk t).view.set ↔ ∀ a : Fin 2, win0_5.index t a * S2048x1.size a ≤ (i a).val ∧ (i a).val < win0_5.index t a * S2048x1.size a + S2048x1.size a := by
  show i ∈ ((View.whole main_v14_0).slice (win0_5.rect t)).set ↔ _
  rw [View.set_slice_whole, Rect.mem_set_unit]
  exact Iff.rfl

/-- Row i is covered by point i / 2048. -/
theorem cover0_5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  obtain ⟨t, ht⟩ := pointOfBlock0 ⟨(i 0).val / 2048, by omega⟩
  have ht' : t.val = (i 0).val / 2048 := ht
  obtain ⟨h0, h1⟩ := (blockIdx0 t).2.2.2.2.2.1
  refine ⟨t, flush0_5 t, ?_⟩
  rw [mem_blk0_5]
  intro a
  match a with
  | ⟨0, _⟩ => show win0_5.index t (0 : Fin 2) * 2048 ≤ (i 0).val ∧ (i 0).val < win0_5.index t (0 : Fin 2) * 2048 + 2048; rw [h0]; omega
  | ⟨1, _⟩ => show win0_5.index t (1 : Fin 2) * 1 ≤ (i 1).val ∧ (i 1).val < win0_5.index t (1 : Fin 2) * 1 + 1; rw [h1]; omega

/-- After the region the first output array holds, at row i, the triplet term of row i of anchor, positive and negative. -/
theorem arr0_5 (c : Dev nD) : (dat0 (F := Ideal) V c).arrAt 5 cfg0.N
    = fun y => Cert.Spec.trip (V c main_arg0) (V c main_arg1) (V c main_arg2) (y 0) :=
  (dat0 (F := Ideal) V c).arrAt_eq_of_cover 5 (tripRows V c) (fun t _ => flushed0_5_eq V c t) cover0_5

/-! ## The exemplar rows: what a point writes back, and the array -/

/-- The exemplar rows as one function of the four arrays. -/
abbrev cenRows (c : Dev nD) : S8192x1.Idx → EReal :=
  fun y => Cert.Spec.cen (V c main_arg0) (V c main_arg2) (V c main_v6) (V c main_v13) (y 0)

/-- Row r of the second output block at point t is the exemplar term of row 2048·t + r of the arrays. -/
theorem out0_6_point (c : Dev nD) (t : Fin cfg0.N) (r : Fin 2048) (u : Fin 1) (hr : 2048 * t.val + r.val < 8192) :
    out0_6 (grid0.coords t) (iblk0 V c 0 t) (iblk0 V c 2 t) (iblk0 V c 3 t) (iblk0 V c 4 t) (ix2 r u)
      = Cert.Spec.cen (V c main_arg0) (V c main_arg2) (V c main_v6) (V c main_v13) ⟨2048 * t.val + r.val, hr⟩ := by
  refine (out0_6_apply (grid0.coords t) (iblk0 V c 0 t) (iblk0 V c 2 t) (iblk0 V c 3 t) (iblk0 V c 4 t) r u).trans ?_
  unfold Cert.Spec.cen
  rw [dist_blocks (V c main_arg0) (V c main_v6) (iblk0 V c 0 t) (iblk0 V c 3 t) t.val r hr
      (fun k => iblk0_0_apply V c t r k hr) (fun k => iblk0_3_apply V c t r k hr),
    dist_blocks (V c main_arg2) (V c main_v6) (iblk0 V c 2 t) (iblk0 V c 3 t) t.val r hr
      (fun k => iblk0_2_apply V c t r k hr) (fun k => iblk0_3_apply V c t r k hr),
    dist_blocks (V c main_arg2) (V c main_v13) (iblk0 V c 2 t) (iblk0 V c 4 t) t.val r hr
      (fun k => iblk0_2_apply V c t r k hr) (fun k => iblk0_4_apply V c t r k hr),
    dist_blocks (V c main_arg0) (V c main_v13) (iblk0 V c 0 t) (iblk0 V c 4 t) t.val r hr
      (fun k => iblk0_0_apply V c t r k hr) (fun k => iblk0_4_apply V c t r k hr)]

/-- What point t writes back of the second output is block t of the exemplar rows. -/
theorem flushed0_6_eq (c : Dev nD) (t : Fin cfg0.N) :
    (dat0 (F := Ideal) V c).flushed 6 t = ((cfg0.win 6).blk t).view.read (Elt Ideal) (cenRows V c) := by
  show (cfg0.win 6).cut (grid0.coords t) ((dat0 V c).after 6 t) = _
  rw [after0_6]
  funext j
  rw [View.read_apply]
  have ht := point_lt0 t
  have hj0 : (j 0).val < 2048 := (j 0).isLt
  have hj1 : (j 1).val < 1 := (j 1).isLt
  have hr : 2048 * t.val + (j 0).val < 8192 := by omega
  obtain ⟨h0, h1⟩ := (blockIdx0 t).2.2.2.2.2.2
  have e : (cfg0.win 6).xinj (grid0.coords t) j = ix2 (⟨(j 0).val, hj0⟩ : Fin 2048) (⟨(j 1).val, hj1⟩ : Fin 1) :=
    funext fun a => match a with | ⟨0, _⟩ => rfl | ⟨1, _⟩ => rfl
  refine (congrArg (out0_6 (grid0.coords t) (iblk0 V c 0 t) (iblk0 V c 2 t) (iblk0 V c 3 t) (iblk0 V c 4 t)) e).trans ?_
  refine (out0_6_point V c t ⟨(j 0).val, hj0⟩ ⟨(j 1).val, hj1⟩ hr).trans ?_
  refine congrArg (Cert.Spec.cen (V c main_arg0) (V c main_arg2) (V c main_v6) (V c main_v13)) (Fin.ext ?_)
  show 2048 * t.val + (j 0).val = win0_6.index t 0 * 2048 + 1 * (j 0).val
  rw [h0]; omega

/-- An index of the [8192, 1] array is in point t's block of the second output iff each coordinate is in the block's range. -/
theorem mem_blk0_6 (t : Fin cfg0.N) (i : S8192x1.Idx) :
    i ∈ ((cfg0.win 6).blk t).view.set ↔ ∀ a : Fin 2, win0_6.index t a * S2048x1.size a ≤ (i a).val ∧ (i a).val < win0_6.index t a * S2048x1.size a + S2048x1.size a := by
  show i ∈ ((View.whole main_v14_1).slice (win0_6.rect t)).set ↔ _
  rw [View.set_slice_whole, Rect.mem_set_unit]
  exact Iff.rfl

/-- Row i is covered by point i / 2048. -/
theorem cover0_6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  obtain ⟨t, ht⟩ := pointOfBlock0 ⟨(i 0).val / 2048, by omega⟩
  have ht' : t.val = (i 0).val / 2048 := ht
  obtain ⟨h0, h1⟩ := (blockIdx0 t).2.2.2.2.2.2
  refine ⟨t, flush0_6 t, ?_⟩
  rw [mem_blk0_6]
  intro a
  match a with
  | ⟨0, _⟩ => show win0_6.index t (0 : Fin 2) * 2048 ≤ (i 0).val ∧ (i 0).val < win0_6.index t (0 : Fin 2) * 2048 + 2048; rw [h0]; omega
  | ⟨1, _⟩ => show win0_6.index t (1 : Fin 2) * 1 ≤ (i 1).val ∧ (i 1).val < win0_6.index t (1 : Fin 2) * 1 + 1; rw [h1]; omega

/-- After the region the second output array holds, at row i, the exemplar term of row i of anchor, negative and the
    two gathered exemplar slabs. -/
theorem arr0_6 (c : Dev nD) : (dat0 (F := Ideal) V c).arrAt 6 cfg0.N
    = fun y => Cert.Spec.cen (V c main_arg0) (V c main_arg2) (V c main_v6) (V c main_v13) (y 0) :=
  (dat0 (F := Ideal) V c).arrAt_eq_of_cover 6 (cenRows V c) (fun t _ => flushed0_6_eq V c t) cover0_6

end Cert.KernelIdeal.Fr

end
-- ==== Proof.KernelIdeal.Value1.lean ====
/-
  The second kernel region's output array as one function of the logits and the labels: row y of the [24576, 1]
  array ends at 0 − logp o y (lab y), logp the log-probability of the specification.

  First one row of one block: the payload at row r of a [2048, 1000] block x and a [2048, 1] label column whose row r
  holds the word of l < 1000 is 0 − ((x r l − m) − log Σⱼ exp (x r j − m)), m = maxⱼ x r j. Then each grid point's
  written block is the block of that function of the whole arrays, and the twelve blocks cover the array.
-/
import proofs.«429437_j17102559773291_2_alg».proof.Proof.KernelIdeal.Region1
import proofs.«429437_j17102559773291_2_alg».proof.Proof.Spec
import Idealize.ShloMosaic.Lib.ValueIdx
import Idealize.ShloMosaic.Lib.IdealHost
import Idealize.ShloMosaic.Lib.Pipeline.Value
import Idealize.ShloMosaic.PureOps.Ideal.Laws
import Idealize.ShloMosaic.Lib.StableHlo.Predicate

set_option maxRecDepth 16384

noncomputable section

namespace Cert.KernelIdeal.Fr

open Cert.KernelIdeal Cert.KernelIdeal.Gen Idealize.ShloMosaic Idealize.ShloMosaic.TcCoe Idealize.ShloMosaic.ValueIdx
open Idealize.ShloMosaic.Pipeline (Dat)

/-! ## Pointwise operations at an index -/

theorem cmpi_at {s : Shape} {w : Nat} (p : CmpIPredicate) (x y : IVec s w) (j : s.Idx) :
    cmpi p x y j = IntOp.cmpi p (x j) (y j) := rfl

theorem addi_at {s : Shape} {w : Nat} (x y : IVec s w) (j : s.Idx) : addi x y j = IntOp.addi (x j) (y j) := rfl

theorem exp_at {s : Shape} {φ : FTy} (x : FVec Ideal s φ) (j : s.Idx) : exp x j = Ideal.exp (x j) := rfl

theorem log_at {s : Shape} {φ : FTy} (x : FVec Ideal s φ) (j : s.Idx) : log x j = Ideal.log (x j) := rfl

/-! ## Constants -/

/-- x · 1 = x at every element: the multiplication by the splat of the f32 one leaves the block. -/
theorem mulf_one_splat (x : FVec Ideal S2048x1000 .f32) :
    mulf x (broadcast S2048x1000 (Scalar.ofBits (F := Ideal) .f32 0x3F800000#32)) = x := by
  funext j
  show x j * Ideal.ofBits .f32 0x3F800000#32 = x j
  rw [Ideal.ofBits_one_f32, mul_one]

/-- The f32 word of −∞ is ⊥. -/
theorem ofBits_neg_inf_f32 : Ideal.ofBits .f32 0xFF800000#32 = ⊥ := by simp [Ideal.ofBits, Ideal.ieee]

/-! ## The layout operations at a row -/

/-- A lane reduction's inserted index at row r and lane k is (r, k). -/
theorem lift_row (h : S2048x1000.Reduces [1] S2048) (r : Fin 2048) (k : Fin 1000) : h.lift (ix1 r) k = ix2 r k := by
  funext a
  match a with
  | ⟨0, _⟩ => rfl
  | ⟨1, _⟩ => rfl

/-- The lane sum of a [2048, 1000] block at row r. -/
theorem laneSum_row (src : FVec Ideal S2048x1000 .f32) (h : S2048x1000.Reduces [1] S2048)
    (hφ : FTy.f32 = FTy.f32 ∨ FTy.f32 = FTy.bf16) (hacc : (0x00000000#32 : BitVec 32) = 0x00000000#32) (r : Fin 2048) :
    multiReduction (F := Ideal) .add [1] S2048 src 0x00000000#32 h hφ hacc (ix1 r) = ∑ j : Fin 1000, src (ix2 r j) := by
  refine (Ideal.multiReduction_add_single src 0x00000000#32 h hφ hacc (ix1 r)).trans ?_
  exact Finset.sum_congr rfl fun k _ => congrArg src (lift_row h r k)

/-- The lane maximum of a [2048, 1000] block at row r: the fold of max from ⊥. -/
theorem laneMax_row (src : FVec Ideal S2048x1000 .f32) (h : S2048x1000.Reduces [1] S2048)
    (hφ : FTy.f32 = FTy.f32 ∨ FTy.f32 = FTy.bf16) (hacc : (0xFF800000#32 : BitVec 32) = 0xFF800000#32) (r : Fin 2048) :
    multiReduction (F := Ideal) .maximumf [1] S2048 src 0xFF800000#32 h hφ hacc (ix1 r)
      = (Finset.univ : Finset (Fin 1000)).fold max ⊥ (fun j => src (ix2 r j)) := by
  refine (Ideal.multiReduction_maximumf_single src 0xFF800000#32 h hφ hacc (ix1 r)).trans ?_
  have e : src ∘ h.lift (ix1 r) = fun j : Fin 1000 => src (ix2 r j) := funext fun k => congrArg src (lift_row h r k)
  show (Finset.univ : Finset (Fin 1000)).fold max (Ideal.ofBits .f32 0xFF800000#32) (src ∘ h.lift (ix1 r)) = _
  rw [e, ofBits_neg_inf_f32]
  rfl

/-- A [2048] vector viewed [2048, 1] reads row r at (r, 0). -/
theorem colCast_row {α : Type} (v : S2048.Idx → α) (h : S2048.ShapeCasts S2048x1) (r : Fin 2048) :
    shapeCast S2048x1 v h (ix2 r 0) = v (ix1 r) := by
  refine shapeCast_apply v h (ix2 r 0) (ix1 r) ?_
  rw [Shape.rowMajor_val_one, Shape.rowMajor_val_two]
  show r.val = r.val * 1 + 0
  omega

/-- A [2048, 1] column broadcast along the lanes reads row r at (r, j). -/
theorem colBroadcast_row {α : Type} (v : S2048x1.Idx → α) (h : S2048x1.Broadcasts S2048x1000) (r : Fin 2048) (j : Fin 1000) :
    broadcastTo S2048x1000 v h (ix2 r j) = v (ix2 r 0) := by
  refine broadcastTo_apply v h (ix2 r j) (ix2 r 0) fun a => ?_
  match a with
  | ⟨0, _⟩ => rfl
  | ⟨1, _⟩ => rfl

/-- The lane iota at (r, j) is the word of j. -/
theorem laneIota_row (h : S2048x1000.Iotas .tc 32 [1]) (r : Fin 2048) (j : Fin 1000) :
    iota .tc S2048x1000 32 [1] h (ix2 r j) = BitVec.ofNat 32 j.val :=
  iota_single_apply .tc S2048x1000 32 1 h (ix2 r j)

/-- The row iota at (r, 0) is the word of r. -/
theorem rowIota_row (h : S2048x1.Iotas .tc 32 [0]) (r : Fin 2048) :
    iota .tc S2048x1 32 [0] h (ix2 r 0) = BitVec.ofNat 32 r.val :=
  iota_single_apply .tc S2048x1 32 0 h (ix2 r 0)

/-! ## The row mask and the one-hot pick -/

/-- Row 2048·a + r of the array is inside it at each of the twelve grid points. -/
theorem rowMask_true (a : Fin 12) (r : Fin 2048) :
    IntOp.cmpi .slt (IntOp.addi (Scalar.muli (BitVec.ofNat 32 a.val) 2048#32) (BitVec.ofNat 32 r.val)) 24576#32 = 1#1 := by
  have ha := a.isLt
  have hr := r.isLt
  have e : (IntOp.addi (Scalar.muli (BitVec.ofNat 32 a.val) 2048#32) (BitVec.ofNat 32 r.val)).toNat = a.val * 2048 + r.val := by
    simp only [IntOp.addi, Scalar.muli, IntOp.muli, BitVec.toNat_add, BitVec.toNat_mul, BitVec.toNat_ofNat]
    omega
  rw [StableHlo.Predicate.slt_iff_toNat (by rw [e]; omega) (by decide), e]
  show a.val * 2048 + r.val < 24576
  omega

/-- Two class indices have the same word only when they are the same. -/
theorem classWord_inj (j l : Fin 1000) (h : BitVec.ofNat 32 j.val = BitVec.ofNat 32 l.val) : j = l := by
  have hj := j.isLt
  have hl := l.isLt
  have e := congrArg BitVec.toNat h
  simp only [BitVec.toNat_ofNat] at e
  exact Fin.ext (by omega)

/-- The sum over the lanes of the elements picked where the lane's word is the label's is the labelled element. -/
theorem oneHot_sum (f : Fin 1000 → EReal) (l : Fin 1000) :
    ∑ j : Fin 1000, Scalar.select (IntOp.cmpi .eq (BitVec.ofNat 32 j.val) (BitVec.ofNat 32 l.val)) (f j) (0 : EReal) = f l := by
  rw [Finset.sum_eq_single l]
  · rw [StableHlo.Predicate.cmpi_eq_iff.mpr rfl, select_one]
  · intro j _ hj
    have hne : ¬ IntOp.cmpi .eq (BitVec.ofNat 32 j.val) (BitVec.ofNat 32 l.val) = 1#1 := fun h =>
      hj (classWord_inj j l (StableHlo.Predicate.cmpi_eq_iff.mp h))
    rw [eq_zero_of_ne_one hne, select_zero]
  · intro h; exact absurd (Finset.mem_univ l) h

/-! ## The payload at a row -/

/-- The largest element of row r of a block: the fold of max from ⊥. -/
def blockMax (x : Vec Ideal S2048x1000 .f32) (r : Fin 2048) : EReal :=
  (Finset.univ : Finset (Fin 1000)).fold max ⊥ (fun j => x (ix2 r j))

/-- The picked lane sum of row r: comparing the lane's word with the row's label word, broadcast along the lanes,
    picks the labelled element. -/
theorem pickedSum_row (x0 : Vec Ideal S2048x1000 .f32) (x1 : Vec Ideal S2048x1 .i32) (r : Fin 2048) (l : Fin 1000)
    (hl : x1 (ix2 r 0) = BitVec.ofNat 32 l.val) (hI : S2048x1000.Iotas .tc 32 [1]) (hB : S2048x1.Broadcasts S2048x1000)
    (hC : S2048x1.ShapeCasts S2048x1) :
    ∑ j : Fin 1000, select (cmpi .eq (iota .tc S2048x1000 32 [1] hI) (broadcastTo S2048x1000 (shapeCast S2048x1 x1 hC) hB))
        x0 (broadcast S2048x1000 (Scalar.ofBits (F := Ideal) .f32 0x00000000#32)) (ix2 r j) = x0 (ix2 r l) := by
  refine Eq.trans (Finset.sum_congr rfl fun j _ => ?_) (oneHot_sum (fun j => x0 (ix2 r j)) l)
  show Scalar.select (IntOp.cmpi .eq (iota .tc S2048x1000 32 [1] hI (ix2 r j))
      (broadcastTo S2048x1000 (shapeCast S2048x1 x1 hC) hB (ix2 r j))) (x0 (ix2 r j)) (Ideal.ofBits .f32 0x00000000#32) = _
  rw [laneIota_row, colBroadcast_row, shapeCast_self, hl, Ideal.ofBits_zero_f32]

/-- The lane sum of the exponentials of row r's differences from the row's maximum, broadcast along the lanes. -/
theorem expSum_row (x0 : Vec Ideal S2048x1000 .f32) (r : Fin 2048) (h : S2048x1000.Reduces [1] S2048)
    (hφ : FTy.f32 = FTy.f32 ∨ FTy.f32 = FTy.bf16) (hacc : (0xFF800000#32 : BitVec 32) = 0xFF800000#32)
    (hB : S2048x1.Broadcasts S2048x1000) (hC : S2048.ShapeCasts S2048x1) :
    ∑ j : Fin 1000, exp (subf x0 (broadcastTo S2048x1000
        (shapeCast S2048x1 (multiReduction (F := Ideal) .maximumf [1] S2048 x0 0xFF800000#32 h hφ hacc) hC) hB)) (ix2 r j)
      = ∑ j : Fin 1000, Ideal.exp (x0 (ix2 r j) - blockMax x0 r) := by
  refine Finset.sum_congr rfl fun j _ => ?_
  show Ideal.exp (x0 (ix2 r j) - broadcastTo S2048x1000
      (shapeCast S2048x1 (multiReduction (F := Ideal) .maximumf [1] S2048 x0 0xFF800000#32 h hφ hacc) hC) hB (ix2 r j)) = _
  rw [colBroadcast_row, colCast_row, laneMax_row]
  rfl

/-- Row r of the payload, when row r of the label column holds the word of the class l: minus the log-probability
    of l among the row's logits. -/
theorem pay1_row (i : grid1.Coords) (x0 : Vec Ideal S2048x1000 .f32) (x1 : Vec Ideal S2048x1 .i32) (r : Fin 2048) (l : Fin 1000)
    (hl : x1 (ix2 r 0) = BitVec.ofNat 32 l.val) :
    k1_pay1 (F := Ideal) i x0 x1 (ix2 r 0)
      = 0 - ((x0 (ix2 r l) - blockMax x0 r) - Ideal.log (∑ j : Fin 1000, Ideal.exp (x0 (ix2 r j) - blockMax x0 r))) := by
  have hm : IntOp.cmpi .slt (IntOp.addi (Scalar.muli (BitVec.ofNat 32 (i 0).val) 2048#32) (BitVec.ofNat 32 r.val)) 24576#32 = 1#1 :=
    rowMask_true (i 0) r
  unfold k1_pay1
  rw [mulf_one_splat]
  simp only [select_apply, cmpi_at, addi_at, broadcast_apply, subf_apply, log_at]
  rw [colCast_row, colCast_row, colCast_row, laneSum_row, laneMax_row, laneSum_row, rowIota_row, hm, select_one,
    pickedSum_row x0 x1 r l hl, expSum_row x0 r,
    show (FloatOps.ofBits (F := Ideal) .f32 0#32 : EReal) = 0 from Ideal.ofBits_zero_f32]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: at point t every window is at block (t, 0). -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row r of the logits block at point t is row 2048·t + r of the logits. -/
theorem logitsBlock_apply (c : Dev nD) (t : Fin cfg1.N) (r : Fin 2048) (k : Fin 1000) (R : Fin 24576)
    (hR : R.val = 2048 * t.val + r.val) :
    (iblk1 V c 0 t : Vec Ideal S2048x1000 .f32) (ix2 r k) = (V c main_arg3 : S24576x1000.Idx → EReal) (ix2 R k) := by
  obtain ⟨e0, e1, -⟩ := blockIndex1 t
  unfold iblk1
  rw [View.read_apply]
  show V c main_arg3 _ = V c main_arg3 _
  congr 1
  funext a
  apply Fin.ext
  match a with
  | ⟨0, _⟩ => show win1_0.index t (0 : Fin 2) * 2048 + 1 * r.val = R.val; rw [e0, hR]; omega
  | ⟨1, _⟩ => show win1_0.index t (1 : Fin 2) * 1000 + 1 * k.val = k.val; rw [e1]; omega

/-- Row r of the label block at point t is row 2048·t + r of the label column. -/
theorem labelBlock_apply (c : Dev nD) (t : Fin cfg1.N) (r : Fin 2048) (R : Fin 24576)
    (hR : R.val = 2048 * t.val + r.val) :
    (iblk1 V c 1 t : Vec Ideal S2048x1 .i32) (ix2 r 0) = (V c main_v18 : S24576x1.Idx → BitVec 32) (ix2 R 0) := by
  obtain ⟨-, -, e0, e1, -⟩ := blockIndex1 t
  unfold iblk1
  rw [View.read_apply]
  show V c main_v18 _ = V c main_v18 _
  congr 1
  funext a
  apply Fin.ext
  match a with
  | ⟨0, _⟩ => show win1_1.index t (0 : Fin 2) * 2048 + 1 * r.val = R.val; rw [e0, hR]; omega
  | ⟨1, _⟩ => show win1_1.index t (1 : Fin 2) * 1 + 1 * 0 = 0; rw [e1]

/-- The largest element of row r of the logits block at point t is the largest logit of row 2048·t + r. -/
theorem blockMax_logitsBlock (c : Dev nD) (t : Fin cfg1.N) (r : Fin 2048) (R : Fin 24576) (hR : R.val = 2048 * t.val + r.val) :
    blockMax (iblk1 V c 0 t) r = Cert.Spec.rowMax (V c main_arg3) R := by
  unfold blockMax Cert.Spec.rowMax
  congr 1
  funext k
  exact logitsBlock_apply V c t r k R hR

/-- The payload at any element of the block, read at the element's row. -/
theorem pay1_at (i : grid1.Coords) (x0 : Vec Ideal S2048x1000 .f32) (x1 : Vec Ideal S2048x1 .i32) (y : S2048x1.Idx) (l : Fin 1000)
    (hl : x1 (ix2 (y 0) 0) = BitVec.ofNat 32 l.val) :
    k1_pay1 (F := Ideal) i x0 x1 y
      = 0 - ((x0 (ix2 (y 0) l) - blockMax x0 (y 0)) - Ideal.log (∑ j : Fin 1000, Ideal.exp (x0 (ix2 (y 0) j) - blockMax x0 (y 0)))) := by
  obtain ⟨r, q, rfl⟩ : ∃ (r : Fin 2048) (q : Fin 1), y = ix2 r q := ⟨y 0, y 1, eq_ix2 y⟩
  obtain rfl : q = 0 := Subsingleton.elim _ _
  exact pay1_row i x0 x1 r l hl

/-- The rows of the output array as one function of the logits and the labels: minus the labelled log-probability. -/
def ceRows (o : Cert.Spec.Logits) (lab : Fin 24576 → Fin 1000) : S24576x1.Idx → EReal :=
  fun y => 0 - Cert.Spec.logp o (y 0) (lab (y 0))

/-- What point t writes back is block t of that function of the arrays as the region finds them. -/
theorem flushed1_2_eq (c : Dev nD) (lab : Fin 24576 → Fin 1000)
    (hlab : ∀ i : Fin 24576, (V c main_v18 : S24576x1.Idx → BitVec 32) (ix2 i 0) = BitVec.ofNat 32 (lab i).val)
    (t : Fin cfg1.N) :
    (dat1 (F := Ideal) V c).flushed 2 t = ((cfg1.win 2).blk t).view.read (Elt Ideal) (ceRows (V c main_arg3) lab) := by
  show (cfg1.win 2).cut (grid1.coords t) ((dat1 V c).after 2 t) = _
  rw [after1_2]
  unfold out1_2
  rw [View.canon_unit_zero zero_offsets]
  simp only [View.ld_unit_zero (S := S2048x1000) zero_offsets, View.ld_unit_zero (S := S2048x1) zero_offsets]
  funext j
  obtain ⟨-, -, -, -, e0, e1⟩ := blockIndex1 t
  have hj0 : (j 0).val < 2048 := (j 0).isLt
  have hj1 : (j 1).val < 1 := (j 1).isLt
  have hN : t.val < 12 := lt_of_lt_of_eq t.isLt N_1
  obtain ⟨R, hR⟩ : ∃ R : Fin 24576, R.val = 2048 * t.val + (j 0).val := ⟨⟨2048 * t.val + (j 0).val, by omega⟩, rfl⟩
  have hemb : ((cfg1.win 2).blk t).view.emb j = (ix2 R 0 : S24576x1.Idx) := by
    funext a
    apply Fin.ext
    match a with
    | ⟨0, _⟩ => show win1_2.index t (0 : Fin 2) * 2048 + 1 * (j 0).val = R.val; rw [e0, hR]; omega
    | ⟨1, _⟩ => show win1_2.index t (1 : Fin 2) * 1 + 1 * (j 1).val = 0; rw [e1]; omega
  show k1_pay1 (F := Ideal) (grid1.coords t) (iblk1 V c 0 t) (iblk1 V c 1 t) j
    = ceRows (V c main_arg3) lab (((cfg1.win 2).blk t).view.emb j)
  rw [hemb]
  refine (pay1_at (grid1.coords t) (iblk1 V c 0 t) (iblk1 V c 1 t) j (lab R)
    ((labelBlock_apply V c t (j 0) R hR).trans (hlab R))).trans ?_
  show _ = 0 - Cert.Spec.logp (V c main_arg3) R (lab R)
  unfold Cert.Spec.logp Cert.Spec.lse
  rw [logitsBlock_apply V c t (j 0) (lab R) R hR, blockMax_logitsBlock V c t (j 0) R hR]
  congr 3
  exact Finset.sum_congr rfl fun k _ => by rw [logitsBlock_apply V c t (j 0) k R hR]

/-- An index of the array is in point t's block iff each coordinate is in the block's range on its axis. -/
theorem mem_block1_2 (t : Fin cfg1.N) (i : S24576x1.Idx) :
    i ∈ ((cfg1.win 2).blk t).view.set ↔ ∀ a : Fin 2, win1_2.index t a * S2048x1.size a ≤ (i a).val
      ∧ (i a).val < win1_2.index t a * S2048x1.size a + S2048x1.size a := by
  show i ∈ ((View.whole main_v19).slice (win1_2.rect t)).set ↔ _
  rw [View.set_slice_whole, Rect.mem_set_unit]
  exact Iff.rfl

/-- Row y of the array is in the block of point y / 2048, which is written back. -/
theorem covered1_2 (i : S24576x1.Idx) :
    ∃ t : Fin cfg1.N, (cfg1.win 2).flush t = true ∧ i ∈ ((cfg1.win 2).blk t).view.set := by
  have hi0 : (i 0).val < 24576 := (i 0).isLt
  have hi1 : (i 1).val < 1 := (i 1).isLt
  obtain ⟨t, ht⟩ : ∃ t : Fin cfg1.N, t.val = (i 0).val / 2048 :=
    ⟨⟨(i 0).val / 2048, by rw [show cfg1.N = 12 from N_1]; omega⟩, rfl⟩
  obtain ⟨-, -, -, -, e0, e1⟩ := blockIndex1 t
  refine ⟨t, flush1_2 t, ?_⟩
  rw [mem_block1_2]
  intro a
  match a with
  | ⟨0, _⟩ =>
    show win1_2.index t (0 : Fin 2) * 2048 ≤ (i 0).val ∧ (i 0).val < win1_2.index t (0 : Fin 2) * 2048 + 2048
    rw [e0, ht]; omega
  | ⟨1, _⟩ =>
    show win1_2.index t (1 : Fin 2) * 1 ≤ (i 1).val ∧ (i 1).val < win1_2.index t (1 : Fin 2) * 1 + 1
    rw [e1]; omega

/-- The output array after the region: row y holds minus the log-probability of y's label among y's logits. -/
theorem arr1_2 (c : Dev nD) (lab : Fin 24576 → Fin 1000)
    (hlab : ∀ i : Fin 24576, (V c main_v18 : S24576x1.Idx → BitVec 32) (ix2 i 0) = BitVec.ofNat 32 (lab i).val) :
    (dat1 (F := Ideal) V c).arrAt 2 cfg1.N = fun y => 0 - Cert.Spec.logp (V c main_arg3) (y 0) (lab (y 0)) :=
  (dat1 (F := Ideal) V c).arrAt_eq_of_cover 2 (ceRows (V c main_arg3) lab) (fun t _ => flushed1_2_eq V c lab hlab t) covered1_2

end Cert.KernelIdeal.Fr

end
-- ==== Proof.KernelIdeal.Values.lean ====
/-
  The idealized kernel's four results as the specification's functions of the arguments.

  The triplet column and the exemplar column the first region leaves are summed by the host; the column the second
  region leaves holds, per row, 0 − (the labelled log-probability), the label column being the three label vectors laid
  end to end; the host sums it and divides by 24576. For finite logits that mean of negated rows is minus the mean.
-/
import proofs.«429437_j17102559773291_2_alg».proof.Proof.KernelIdeal.Results
import proofs.«429437_j17102559773291_2_alg».proof.Proof.KernelIdeal.Value0
import proofs.«429437_j17102559773291_2_alg».proof.Proof.KernelIdeal.Value1

set_option maxRecDepth 16384

noncomputable section

namespace Cert.KernelIdeal.Fr

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (c : Dev nD)

/-- The sum of the triplet rows. -/
theorem val_v15 : W5 m c (Proc.devRef .tc main_v15)
    = fun _ => Cert.Spec.lossesSum (m ((c : Thread nD τ).loc main_arg0)) (m ((c : Thread nD τ).loc main_arg1)) (m ((c : Thread nD τ).loc main_arg2)) := by
  have e : W2 m c (Proc.devRef .tc main_v14_0) = (dat0 (VV1 m) c).arrAt 5 cfg0.N := W2_arr m c 5
  rw [W5_v15, e, arr0_5 (VV1 m) c, hostSum_8192]
  rfl

/-- The sum of the exemplar rows. -/
theorem val_v16 : W5 m c (Proc.devRef .tc main_v16)
    = fun _ => Cert.Spec.lossCenter (m ((c : Thread nD τ).loc main_arg0)) (m ((c : Thread nD τ).loc main_arg2))
        (exRows (m ((c : Thread nD τ).loc main_arg4)) (m ((c : Thread nD τ).loc main_arg5)))
        (exRows (m ((c : Thread nD τ).loc main_arg4)) (m ((c : Thread nD τ).loc main_arg6))) := by
  have e : W2 m c (Proc.devRef .tc main_v14_1) = (dat0 (VV1 m) c).arrAt 6 cfg0.N := W2_arr m c 6
  rw [W5_v16, e, arr0_6 (VV1 m) c, hostSum_8192]
  rfl

/-- Minus the mean of the labelled log-probabilities, for labels in range and finite logits. -/
theorem val_v21 (la ln : Fin 8192 → Fin 1000)
    (h5 : ∀ i : Fin 8192, (m ((c : Thread nD τ).loc main_arg5) : S8192.Idx → BitVec 32) (ix1 i) = BitVec.ofNat 32 (la i).val)
    (h6 : ∀ i : Fin 8192, (m ((c : Thread nD τ).loc main_arg6) : S8192.Idx → BitVec 32) (ix1 i) = BitVec.ofNat 32 (ln i).val)
    (hfin : ∀ y, ∃ r : ℝ, (m ((c : Thread nD τ).loc main_arg3) : S24576x1000.Idx → EReal) y = (r : EReal)) :
    W5 m c (Proc.devRef .tc main_v21)
      = fun _ => Cert.Spec.lossSoftmax (m ((c : Thread nD τ).loc main_arg3)) (Cert.Spec.catLab la ln) := by
  have e : W4 m c (Proc.devRef .tc main_v19) = (dat1 (VV3 m) c).arrAt 2 cfg1.N := W4_arr m c 2
  rw [W5_v21, e, arr1_2 (VV3 m) c (Cert.Spec.catLab la ln) (VV3_v18_apply m c la ln h5 h6), VV3_arg3, hostSum_24576]
  funext j
  rw [← Cert.Spec.lossSoftmaxRows_eq _ hfin]
  rfl

/-- The weighted total of the three. -/
theorem val_v25 (la ln : Fin 8192 → Fin 1000)
    (h5 : ∀ i : Fin 8192, (m ((c : Thread nD τ).loc main_arg5) : S8192.Idx → BitVec 32) (ix1 i) = BitVec.ofNat 32 (la i).val)
    (h6 : ∀ i : Fin 8192, (m ((c : Thread nD τ).loc main_arg6) : S8192.Idx → BitVec 32) (ix1 i) = BitVec.ofNat 32 (ln i).val)
    (hfin : ∀ y, ∃ r : ℝ, (m ((c : Thread nD τ).loc main_arg3) : S24576x1000.Idx → EReal) y = (r : EReal)) :
    W5 m c (Proc.devRef .tc main_v25)
      = fun _ => Cert.Spec.total
          (Cert.Spec.lossSoftmax (m ((c : Thread nD τ).loc main_arg3)) (Cert.Spec.catLab la ln))
          (Cert.Spec.lossCenter (m ((c : Thread nD τ).loc main_arg0)) (m ((c : Thread nD τ).loc main_arg2))
            (exRows (m ((c : Thread nD τ).loc main_arg4)) (m ((c : Thread nD τ).loc main_arg5)))
            (exRows (m ((c : Thread nD τ).loc main_arg4)) (m ((c : Thread nD τ).loc main_arg6))))
          (Cert.Spec.lossesSum (m ((c : Thread nD τ).loc main_arg0)) (m ((c : Thread nD τ).loc main_arg1)) (m ((c : Thread nD τ).loc main_arg2))) := by
  rw [W5_v25, val_v21 m c la ln h5 h6 hfin, val_v16, val_v15]
  rfl

end Cert.KernelIdeal.Fr

end
-- ==== Proof.LibNary3.lean ====
/-
  A host operation over three operand buffers, read at its result.

  The general result lemma for an operation over a family of operand references leaves the operands' contents under a
  binder, `fun k => F (xs k)`, where no further result lemma applies to the reference `xs k`. For a literal family of
  three references the result is stated here with each operand's contents at its own reference, so that a rewriting
  pass goes on into the operands; the composed term is then the operation's function applied to the three contents
  (β, then the three cases of the index).
-/
import Idealize.ShloMosaic.Lib.StableHlo.Run

namespace Idealize.ShloMosaic.StableHlo

variable {nD : Nat} {τ : Topo} {sig : RefSig} {Val : EltTy → Type}

section

variable {x a b y : Ref sig .tc}

/-- The result of an operation over the literal family `![x, a, b]`, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed, for a simplifier pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end

/-- What one buffer holds after a line of host operations, in one rewriting pass: each operation's result at its own
    result buffer is its function's value and at any other reference what was there, an operation over three
    literal operand references included. -/
macro "after_results_simp3" : tactic =>
  `(tactic| (simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.RefValueA.lean ====
/-
  Two of the reference's results read as the specification's functions, over the extended reals.

  The triplet result is a total sum, over the 8192 rows, of max(Σⱼ|aᵢⱼ − pᵢⱼ| − Σⱼ|aᵢⱼ − nᵢⱼ|, 0); the exemplar result is a
  total sum of max(d(a, eₐ)ᵢ − d(n, eₐ)ᵢ, 0) + max(d(n, eₙ)ᵢ − d(a, eₙ)ᵢ, 0) with d(x, y)ᵢ = √(Σⱼ (xᵢⱼ − yᵢⱼ + ε)²), where eₐ and
  eₙ are the exemplar rows gathered at the two label vectors. Each stage of the reference is read at an index: a row sum
  is the zero initial value plus the sum over the 256 features, a total sum the zero initial value plus the sum over
  the rows, the remaining stages element by element. The gather itself is not opened: the exemplar rows enter the
  specification's functions as arrays.
-/
import proofs.«429437_j17102559773291_2_alg».proof.Proof.RefRun
import proofs.«429437_j17102559773291_2_alg».proof.Proof.RefRead
import proofs.«429437_j17102559773291_2_alg».proof.Proof.Spec

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo Idealize.ShloMosaic.ValueIdx

/-! ## Indices -/

/-- The rows of a rank-1 array of length 8192 are the numbers below 8192. -/
def rowEquiv : Fin 8192 ≃ S8192.Idx where
  toFun r := ix1 r
  invFun j := j 0
  left_inv _ := rfl
  right_inv j := (eq_ix1 j).symm

/-- A sum over the rank-1 index set is the sum over the rows. -/
theorem sum_rows {M : Type*} [AddCommMonoid M] (f : S8192.Idx → M) : ∑ j : S8192.Idx, f j = ∑ r : Fin 8192, f (ix1 r) :=
  (Equiv.sum_comp rowEquiv f).symm

/-- Feature k of row r, as each row sum of the reference spells it. -/
theorem idx_row (r : Fin 8192) (k : Fin 256) :
    (fun a => match a with
      | ⟨0, _⟩ => ⟨((ix1 r : S8192.Idx) 0).val, ((ix1 r : S8192.Idx) 0).isLt⟩
      | ⟨1, _⟩ => ⟨k.val, k.isLt⟩ : S8192x256.Idx) = ix2 r k :=
  funext fun a => Fin.ext (by match a with | ⟨0, _⟩ => rfl | ⟨1, _⟩ => rfl)

theorem idx_v2 (r : Fin 8192) (k : Fin 256) : idx_main_v2 (ix1 r) k = ix2 r k := idx_row r k
theorem idx_v5 (r : Fin 8192) (k : Fin 256) : idx_main_v5 (ix1 r) k = ix2 r k := idx_row r k
theorem idx_v36 (r : Fin 8192) (k : Fin 256) : idx_main_v36 (ix1 r) k = ix2 r k := idx_row r k
theorem idx_v42 (r : Fin 8192) (k : Fin 256) : idx_main_v42 (ix1 r) k = ix2 r k := idx_row r k
theorem idx_v48 (r : Fin 8192) (k : Fin 256) : idx_main_v48 (ix1 r) k = ix2 r k := idx_row r k
theorem idx_v54 (r : Fin 8192) (k : Fin 256) : idx_main_v54 (ix1 r) k = ix2 r k := idx_row r k

/-! ## The triplet sum -/

/-- Row r of the clamped difference of the two L1 row sums is the row's triplet term. -/
theorem trip_row (x0 x1 x2 : (⟨S8192x256, .f32⟩ : BufTy).Contents (Elt Ideal)) (r : Fin 8192) :
    val_main_v7 (F := Ideal) x0 x1 x2 (ix1 r) = Cert.Spec.trip x0 x1 x2 r := by
  rw [val_main_v7_apply, val_main_v6_apply, val_main_v2_apply, val_main_v5_apply, val_main_call0_v0_apply]
  simp only [val_main_v1_apply, val_main_v0_apply, val_main_v4_apply, val_main_v3_apply, val_main_cst_apply,
    val_main_cst_0_apply, val_main_call0_cst_apply, idx_v2, idx_v5, Ideal.ofBits_def, Ideal.ofBits_zero_f32, zero_add,
    Ideal.hostAbsf_def, Ideal.absf_def, Ideal.subf_def, Ideal.maximumf_def]
  rfl

/-- The reference's triplet result is the sum of the triplet terms. -/
theorem losses_eq (m : (ℓ : Loc nD τ sig) → Buf (Elt Ideal) ℓ) (c : Dev nD) :
    Host.reduceAdd (F := Ideal) (maximumf (subf (Host.reduceAdd (Host.absf (subf (m ((c.tc : Thread nD τ).loc main_arg0)) (m ((c.tc : Thread nD τ).loc main_arg1)))) (constant S_ .f32 0x00000000#32) reducesTo_S8192x256_S8192_d1 h_S_) (Host.reduceAdd (Host.absf (subf (m ((c.tc : Thread nD τ).loc main_arg0)) (m ((c.tc : Thread nD τ).loc main_arg2)))) (constant S_ .f32 0x00000000#32) reducesTo_S8192x256_S8192_d1 h_S_)) (broadcastInDim S8192 ![] bcast_S_S8192 (constant S_ .f32 0x00000000#32))) (constant S_ .f32 0x00000000#32) reducesTo_S8192_S_d0 h_S_
      = fun _ => Cert.Spec.lossesSum (m ((c.tc : Thread nD τ).loc main_arg0)) (m ((c.tc : Thread nD τ).loc main_arg1)) (m ((c.tc : Thread nD τ).loc main_arg2)) := by
  rw [val_main_v8_eq]
  funext i
  rw [val_main_v8_apply, sum_rows]
  simp only [val_main_cst_1_apply, Ideal.ofBits_def, Ideal.ofBits_zero_f32, zero_add]
  exact Finset.sum_congr rfl fun r _ => trip_row _ _ _ r

/-! ## The exemplar sum -/

/-- The exemplar rows at a label vector: a negative label is wrapped by 1000, then the rows are gathered. -/
def exRows (ex : FVec Ideal S1000x256 .f32) (lbl : IVec S8192 32) : FVec Ideal S8192x256 .f32 :=
  Host.gather gather_S1000x256_S8192x1_S8192x256_1_0_n_n_0_1_1256 ex (broadcastInDim S8192x1 ![0] bcast_S8192_S8192x1_0 (select (cmpi .slt lbl (broadcastInDim S8192 ![] bcast_S_S8192 (constantI S_ 32 0#32))) (addi lbl (broadcastInDim S8192 ![] bcast_S_S8192 (constantI S_ 32 1000#32))) lbl))

/-- The first gather of the reference is the exemplar rows at the first label vector. -/
theorem gathered_v24 (x4 : (⟨S1000x256, .f32⟩ : BufTy).Contents (Elt Ideal)) (x5 : (⟨S8192, .i32⟩ : BufTy).Contents (Elt Ideal)) :
    val_main_v24 (F := Ideal) x4 x5 = exRows x4 x5 := rfl

/-- The second gather of the reference is the exemplar rows at the second label vector. -/
theorem gathered_v31 (x4 : (⟨S1000x256, .f32⟩ : BufTy).Contents (Elt Ideal)) (x6 : (⟨S8192, .i32⟩ : BufTy).Contents (Elt Ideal)) :
    val_main_v31 (F := Ideal) x4 x6 = exRows x4 x6 := rfl

/-- Row r of the first distance stage: the anchor against the exemplar rows at the first labels. -/
theorem dist_v37 (x0 : (⟨S8192x256, .f32⟩ : BufTy).Contents (Elt Ideal)) (x4 : (⟨S1000x256, .f32⟩ : BufTy).Contents (Elt Ideal))
    (x5 : (⟨S8192, .i32⟩ : BufTy).Contents (Elt Ideal)) (r : Fin 8192) :
    val_main_v37 (F := Ideal) x0 x4 x5 (ix1 r) = Cert.Spec.dist x0 (exRows x4 x5) r := by
  rw [val_main_v37_apply, val_main_v36_apply]
  simp only [val_main_v35_apply, val_main_v34_apply, val_main_v32_apply, val_main_v33_apply, val_main_cst_8_apply,
    val_main_cst_9_apply, gathered_v24, idx_v36, Ideal.ofBits_def, Ideal.ofBits_zero_f32, zero_add,
    Ideal.hostUnary_sqrt_def, Ideal.subf_def, Ideal.addf_def, Ideal.mulf_def]
  rfl

/-- Row r of the second distance stage: the negative against the exemplar rows at the first labels. -/
theorem dist_v43 (x2 : (⟨S8192x256, .f32⟩ : BufTy).Contents (Elt Ideal)) (x4 : (⟨S1000x256, .f32⟩ : BufTy).Contents (Elt Ideal))
    (x5 : (⟨S8192, .i32⟩ : BufTy).Contents (Elt Ideal)) (r : Fin 8192) :
    val_main_v43 (F := Ideal) x2 x4 x5 (ix1 r) = Cert.Spec.dist x2 (exRows x4 x5) r := by
  rw [val_main_v43_apply, val_main_v42_apply]
  simp only [val_main_v41_apply, val_main_v40_apply, val_main_v38_apply, val_main_v39_apply, val_main_cst_10_apply,
    val_main_cst_11_apply, gathered_v24, idx_v42, Ideal.ofBits_def, Ideal.ofBits_zero_f32, zero_add,
    Ideal.hostUnary_sqrt_def, Ideal.subf_def, Ideal.addf_def, Ideal.mulf_def]
  rfl

/-- Row r of the third distance stage: the anchor against the exemplar rows at the second labels. -/
theorem dist_v49 (x0 : (⟨S8192x256, .f32⟩ : BufTy).Contents (Elt Ideal)) (x4 : (⟨S1000x256, .f32⟩ : BufTy).Contents (Elt Ideal))
    (x6 : (⟨S8192, .i32⟩ : BufTy).Contents (Elt Ideal)) (r : Fin 8192) :
    val_main_v49 (F := Ideal) x0 x4 x6 (ix1 r) = Cert.Spec.dist x0 (exRows x4 x6) r := by
  rw [val_main_v49_apply, val_main_v48_apply]
  simp only [val_main_v47_apply, val_main_v46_apply, val_main_v44_apply, val_main_v45_apply, val_main_cst_12_apply,
    val_main_cst_13_apply, gathered_v31, idx_v48, Ideal.ofBits_def, Ideal.ofBits_zero_f32, zero_add,
    Ideal.hostUnary_sqrt_def, Ideal.subf_def, Ideal.addf_def, Ideal.mulf_def]
  rfl

/-- Row r of the fourth distance stage: the negative against the exemplar rows at the second labels. -/
theorem dist_v55 (x2 : (⟨S8192x256, .f32⟩ : BufTy).Contents (Elt Ideal)) (x4 : (⟨S1000x256, .f32⟩ : BufTy).Contents (Elt Ideal))
    (x6 : (⟨S8192, .i32⟩ : BufTy).Contents (Elt Ideal)) (r : Fin 8192) :
    val_main_v55 (F := Ideal) x2 x4 x6 (ix1 r) = Cert.Spec.dist x2 (exRows x4 x6) r := by
  rw [val_main_v55_apply, val_main_v54_apply]
  simp only [val_main_v53_apply, val_main_v52_apply, val_main_v50_apply, val_main_v51_apply, val_main_cst_14_apply,
    val_main_cst_15_apply, gathered_v31, idx_v54, Ideal.ofBits_def, Ideal.ofBits_zero_f32, zero_add,
    Ideal.hostUnary_sqrt_def, Ideal.subf_def, Ideal.addf_def, Ideal.mulf_def]
  rfl

/-- Row r of the sum of the two clamped distance differences is the row's exemplar term. -/
theorem cen_row (x0 x2 : (⟨S8192x256, .f32⟩ : BufTy).Contents (Elt Ideal)) (x4 : (⟨S1000x256, .f32⟩ : BufTy).Contents (Elt Ideal))
    (x5 x6 : (⟨S8192, .i32⟩ : BufTy).Contents (Elt Ideal)) (r : Fin 8192) :
    val_main_v60 (F := Ideal) x0 x2 x4 x5 x6 (ix1 r) = Cert.Spec.cen x0 x2 (exRows x4 x5) (exRows x4 x6) r := by
  rw [val_main_v60_apply, val_main_v57_apply, val_main_v59_apply, val_main_v56_apply, val_main_v58_apply,
    val_main_call3_v0_apply, val_main_call4_v0_apply, dist_v37, dist_v43, dist_v49, dist_v55]
  simp only [val_main_call3_cst_apply, val_main_call4_cst_apply, Ideal.ofBits_def, Ideal.ofBits_zero_f32,
    Ideal.subf_def, Ideal.addf_def, Ideal.maximumf_def]
  rfl

/-- The reference's exemplar result is the sum of the exemplar terms. -/
theorem center_eq (m : (ℓ : Loc nD τ sig) → Buf (Elt Ideal) ℓ) (c : Dev nD) :
    res_main_v61 (F := Ideal) m c
      = fun _ => Cert.Spec.lossCenter (m ((c.tc : Thread nD τ).loc main_arg0)) (m ((c.tc : Thread nD τ).loc main_arg2))
          (exRows (m ((c.tc : Thread nD τ).loc main_arg4)) (m ((c.tc : Thread nD τ).loc main_arg5)))
          (exRows (m ((c.tc : Thread nD τ).loc main_arg4)) (m ((c.tc : Thread nD τ).loc main_arg6))) := by
  rw [val_main_v61_eq]
  funext i
  rw [val_main_v61_apply, sum_rows]
  simp only [val_main_cst_16_apply, Ideal.ofBits_def, Ideal.ofBits_zero_f32, zero_add]
  exact Finset.sum_congr rfl fun r _ => cen_row _ _ _ _ _ r

end Cert.ReferenceIdeal.RefValue

end
-- ==== Proof.RefValueB0.lean ====
/-
  Shape-level readings used by the cross-entropy value proof, over variable extents: a maximum taken along the
  rows of a two-axis array is the fold of `max` over that row; a conjunction taken along an axis of extent one is
  the one element; a batched gather along the second axis reads, in row `i`, the column its start index names
  (clamped into range); the concatenation of three vectors of one length reads the piece the position falls in.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Idealize.ShloMosaic Idealize.ShloMosaic.ValueIdx

/-! ## A reduce along the second axis of a two-axis array -/

/-- The reduced index `i` with column `k` put back is (i, k). -/
theorem lift_row {n m : Nat} (h : (⟨2, ![n, m]⟩ : Shape).Reduces [1] (⟨1, ![n]⟩ : Shape)) (i : Fin n)
    (k : Fin ((⟨2, ![n, m]⟩ : Shape).size 1)) : h.lift (ix1 i) k = ix2 i (⟨k.val, k.isLt⟩ : Fin m) := by
  funext c; apply Fin.ext
  fin_cases c <;> rfl

/-- A host reduce with a maximum body along the second axis, at row `i`: the fold of `max` over the row from the
    initial value. -/
theorem hostReduce_max_row {n m : Nat} (x : FVec Ideal ⟨2, ![n, m]⟩ .f32) (init : (⟨0, ![]⟩ : Shape).Idx → Ideal .f32)
    (h' : (⟨2, ![n, m]⟩ : Shape).ReducesTo [1] (⟨1, ![n]⟩ : Shape))
    (h : (⟨2, ![n, m]⟩ : Shape).Reduces [1] (⟨1, ![n]⟩ : Shape)) (hu : 0 < (⟨0, ![]⟩ : Shape).numel) (i : Fin n) :
    Host.reduce FloatOps.maximumf x init h' hu (ix1 i)
      = (Finset.univ : Finset (Fin m)).fold max (init (Shape.Idx.first hu)) (fun j => x (ix2 i j)) := by
  rw [Host.reduce_eq_fold_single FloatOps.maximumf x _ h' h hu]
  have hf : (x ∘ h.lift (ix1 i)) = fun k : Fin m => x (ix2 i k) := funext fun k => congrArg x (lift_row h i k)
  exact congrArg (fun f => Finset.fold max (init (Shape.Idx.first hu)) f (Finset.univ : Finset (Fin m))) hf

/-! ## A conjunction along a last axis of extent one -/

/-- The reduced index (i, 0) with the one coordinate put back is (i, 0, 0). -/
theorem lift_unit {n : Nat} (h : (⟨3, ![n, 1, 1]⟩ : Shape).Reduces [2] (⟨2, ![n, 1]⟩ : Shape)) (i : Fin n)
    (k : Fin ((⟨3, ![n, 1, 1]⟩ : Shape).size 2)) : h.lift (ix2 i (0 : Fin 1)) k = ix3 i (0 : Fin 1) (0 : Fin 1) := by
  funext c; apply Fin.ext
  have hk : k.val = 0 := by have := k.isLt; change k.val < 1 at this; omega
  fin_cases c
  · rfl
  · rfl
  · exact hk

/-- A host reduce with a conjunction body along a last axis of extent one, at (i, 0): the one element and the
    initial value. -/
theorem hostReduce_and_unit {n : Nat} (x : IVec ⟨3, ![n, 1, 1]⟩ 1) (init : (⟨0, ![]⟩ : Shape).Idx → BitVec 1)
    (h' : (⟨3, ![n, 1, 1]⟩ : Shape).ReducesTo [2] (⟨2, ![n, 1]⟩ : Shape))
    (h : (⟨3, ![n, 1, 1]⟩ : Shape).Reduces [2] (⟨2, ![n, 1]⟩ : Shape)) (hu : 0 < (⟨0, ![]⟩ : Shape).numel) (i : Fin n) :
    Host.reduce IntOp.andi x init h' hu (ix2 i (0 : Fin 1))
      = IntOp.andi (x (ix3 i (0 : Fin 1) (0 : Fin 1))) (init (Shape.Idx.first hu)) := by
  rw [Host.reduce_eq_fold_single IntOp.andi x _ h' h hu]
  have hf : (x ∘ h.lift (ix2 i (0 : Fin 1))) = fun _ : Fin 1 => x (ix3 i (0 : Fin 1) (0 : Fin 1)) :=
    funext fun k => congrArg x (lift_unit h i k)
  refine (congrArg (fun f => Finset.fold IntOp.andi (init (Shape.Idx.first hu)) f (Finset.univ : Finset (Fin 1))) hf).trans ?_
  show Finset.fold IntOp.andi (init (Shape.Idx.first hu)) (fun _ : Fin 1 => x (ix3 i (0 : Fin 1) (0 : Fin 1))) ({0} : Finset (Fin 1)) = _
  exact Finset.fold_singleton

/-! ## A batched gather along the second axis -/

/-- The dimension numbers of `take_along_axis` along axis 1 of an [R, C] operand at an [R, 1] column of positions: the
    start indices as [R, 1, 1], axis 0 batching on both sides, axis 1 collapsed and start-indexed, no offset axes. -/
abbrev rowTakeDims (R C : Nat)
    (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- That gather at (i, 0): the operand in row `i` at the column the start index of row `i` names, read signed and
    clamped into [0, C − 1]. -/
theorem gather_rowTake_apply {α : Type} {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (i : Fin R) :
    Host.gather (rowTakeDims R C wf) x idx (ix2 i (0 : Fin 1))
      = x (ix2 i (⟨min (idx (ix3 i (0 : Fin 1) (0 : Fin 1))).toInt.toNat (C - 1), by omega⟩ : Fin C)) := by
  unfold Host.gather
  congr 1
  funext a
  refine Fin.ext ?_
  match a with
  | ⟨0, _⟩ =>
    show (rowTakeDims R C wf).start (ix2 i (0 : Fin 1)) idx 0 + (rowTakeDims R C wf).batchCoord (ix2 i (0 : Fin 1)) 0
      + (rowTakeDims R C wf).offCoord (ix2 i (0 : Fin 1)) 0 = i.val
    rw [GatherDims.offCoord_eq_zero _ _ _ (fun h => ((GatherDims.mem_sKept _ _).mp h).2 (List.mem_singleton.mpr rfl))]
    unfold GatherDims.start
    rw [dif_neg (show (0 : Fin 2) ∉ [(1 : Fin 2)] by decide)]
    unfold GatherDims.batchCoord
    rw [dif_pos (List.mem_singleton.mpr rfl)]
    simp only [Nat.zero_add, Nat.add_zero]
    rfl
  | ⟨1, _⟩ =>
    show (rowTakeDims R C wf).start (ix2 i (0 : Fin 1)) idx 1 + (rowTakeDims R C wf).batchCoord (ix2 i (0 : Fin 1)) 1
      + (rowTakeDims R C wf).offCoord (ix2 i (0 : Fin 1)) 1 = min (idx (ix3 i (0 : Fin 1) (0 : Fin 1))).toInt.toNat (C - 1)
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims R C wf).startIndexMap from List.mem_singleton.mpr rfl)]
    have hsi : (rowTakeDims R C wf).siIdx (ix2 i (0 : Fin 1)) ⟨List.idxOf (1 : Fin 2) (rowTakeDims R C wf).startIndexMap,
        List.idxOf_lt_length_iff.2 (List.mem_singleton.mpr rfl)⟩ = ix3 i (0 : Fin 1) (0 : Fin 1) := by
      funext b; refine Fin.ext ?_
      match b with
      | ⟨0, _⟩ => rfl
      | ⟨1, _⟩ => rfl
      | ⟨2, _⟩ => rfl
    rw [hsi]
    rfl

/-! ## Three vectors of one length laid end to end -/

/-- The concatenation of three length-`n` vectors into one of length `N = 3n`, at position `p` of piece `k`:
    position `k·n + p` reads piece `k` at `p`. -/
theorem concat3_apply {α : Type} {n N : Nat} (x0 x1 x2 : (⟨1, ![n]⟩ : Shape).Idx → α)
    (h : Shape.Concatenates ([(⟨(⟨1, ![n]⟩ : Shape), x0⟩ : (s : Shape) × (s.Idx → α)), ⟨(⟨1, ![n]⟩ : Shape), x1⟩,
      ⟨(⟨1, ![n]⟩ : Shape), x2⟩].map (·.1)) (⟨1, ![N]⟩ : Shape) 0)
    (j : Fin N) (k : Fin 3) (p : Fin n) (hj : k.val * n + p.val = j.val) :
    concatenate (⟨1, ![N]⟩ : Shape) 0 [⟨(⟨1, ![n]⟩ : Shape), x0⟩, ⟨(⟨1, ![n]⟩ : Shape), x1⟩, ⟨(⟨1, ![n]⟩ : Shape), x2⟩] h (ix1 j)
      = (![x0, x1, x2] k) (ix1 p) := by
  fin_cases k
  · refine concatenate_apply_piece (0 : Fin 1) _ h (ix1 j) 0 (by simp) (⟨1, ![n]⟩ : Shape) x0 rfl rfl 0 rfl (ix1 p) ?_ ?_
    · intro b hb; exact absurd (Subsingleton.elim _ _) hb
    · show 0 + p.val = j.val; simpa using hj
  · refine concatenate_apply_piece (0 : Fin 1) _ h (ix1 j) 1 (by simp) (⟨1, ![n]⟩ : Shape) x1 rfl rfl n ?_ (ix1 p) ?_ ?_
    · simp
    · intro b hb; exact absurd (Subsingleton.elim _ _) hb
    · show n + p.val = j.val; simpa using hj
  · refine concatenate_apply_piece (0 : Fin 1) _ h (ix1 j) 2 (by simp) (⟨1, ![n]⟩ : Shape) x2 rfl rfl (n + n) ?_ (ix1 p) ?_ ?_
    · simp
    · intro b hb; exact absurd (Subsingleton.elim _ _) hb
    · show n + n + p.val = j.val; simp at hj; omega

end Cert.ReferenceIdeal.RefValue

end
-- ==== Proof.RefValueB1.lean ====
/-
  The reference's log-softmax stage read at an index, over the extended reals: the scaling by the constant one is the
  identity, the row maximum (the larger of −∞ and the fold of `max` from −∞) is the specification's `rowMax`, the
  logarithm of the row's sum of exponentials is its `lse`, and the stage's element (i, l) is `logp` of row `i` at `l`.
-/
import proofs.«429437_j17102559773291_2_alg».proof.Proof.RefRead
import proofs.«429437_j17102559773291_2_alg».proof.Proof.Spec
import proofs.«429437_j17102559773291_2_alg».proof.Proof.RefValueB0
import Idealize.ShloMosaic.Lib.IdealHost

noncomputable section

namespace Cert.ReferenceIdeal.RefValue

open Cert.ReferenceIdeal Cert.ReferenceIdeal.Gen Cert.ReferenceIdeal.ValueP Cert.ReferenceIdeal.ReadP
open Idealize.ShloMosaic Idealize.ShloMosaic.ValueIdx

/-- The f32 word of −∞ is the bottom element. -/
theorem ofBits_negInf : Ideal.ofBits .f32 0xFF800000#32 = ⊥ := by simp [Ideal.ofBits, Ideal.ieee]

/-! ## Index equations -/

theorem idx_col_of_row (i : Fin 24576) (k : Fin 1000) : idx_main_call1_v4 (ix2 i k) = ix2 i (0 : Fin 1) :=
  funext fun a => Fin.ext (by match a with | ⟨0, _⟩ => rfl | ⟨1, _⟩ => rfl)

theorem idx_vec_of_col (i : Fin 24576) : idx_main_call1_v3 (ix2 i (0 : Fin 1)) = ix1 i :=
  funext fun a => Fin.ext (by match a with | ⟨0, _⟩ => rfl)

theorem idx_sum_row (i : Fin 24576) (k : Fin 1000) : idx_main_call1_v7 (ix1 i) k = ix2 i k :=
  funext fun a => Fin.ext (by match a with | ⟨0, _⟩ => rfl | ⟨1, _⟩ => rfl)

theorem idx_vec_of_col' (i : Fin 24576) : idx_main_call1_v8 (ix2 i (0 : Fin 1)) = ix1 i :=
  funext fun a => Fin.ext (by match a with | ⟨0, _⟩ => rfl)

theorem idx_col_of_row' (i : Fin 24576) (k : Fin 1000) : idx_main_call1_v10 (ix2 i k) = ix2 i (0 : Fin 1) :=
  funext fun a => Fin.ext (by match a with | ⟨0, _⟩ => rfl | ⟨1, _⟩ => rfl)

/-! ## The stages -/

/-- Scaling by the constant one changes nothing. -/
theorem scaled_eq (x3 : (⟨S24576x1000, .f32⟩ : BufTy).Contents (Elt Ideal)) : val_main_v11 (F := Ideal) x3 = x3 := by
  funext j
  rw [val_main_v11_apply, val_main_v10_apply, val_main_cst_2_apply]
  simp only [Ideal.ofBits_def, Ideal.mulf_def, Ideal.ofBits_one_f32, one_mul]

/-- The row maximum is the fold of `max` from −∞ over the row. -/
theorem rowMax_eq (x3 : (⟨S24576x1000, .f32⟩ : BufTy).Contents (Elt Ideal)) (i : Fin 24576) :
    val_main_call1_v2 (F := Ideal) x3 (ix1 i) = Cert.Spec.rowMax x3 i := by
  rw [val_main_call1_v2_apply, val_main_call1_v1_apply, val_main_call1_cst_0_apply]
  unfold val_main_call1_v0
  rw [scaled_eq, hostReduce_max_row x3 _ reducesTo_S24576x1000_S24576_d1 (by decide) h_S_ i, val_main_call1_cst_apply]
  simp only [Ideal.ofBits_def, Ideal.maximumf_def, ofBits_negInf, bot_le, max_eq_right]
  rfl

/-- The subtracted row: element (i, j) less the row maximum. -/
theorem shifted_eq (x3 : (⟨S24576x1000, .f32⟩ : BufTy).Contents (Elt Ideal)) (i : Fin 24576) (j : Fin 1000) :
    val_main_call1_v5 (F := Ideal) x3 (ix2 i j) = x3 (ix2 i j) - Cert.Spec.rowMax x3 i := by
  rw [val_main_call1_v5_apply, scaled_eq, val_main_call1_v4_apply, idx_col_of_row, val_main_call1_v3_apply, idx_vec_of_col,
    rowMax_eq]
  rfl

/-- The logarithm of the row's sum of exponentials. -/
theorem lse_eq (x3 : (⟨S24576x1000, .f32⟩ : BufTy).Contents (Elt Ideal)) (i : Fin 24576) :
    val_main_call1_v9 (F := Ideal) x3 (ix2 i (0 : Fin 1)) = Cert.Spec.lse x3 i := by
  rw [val_main_call1_v9_apply, val_main_call1_v8_apply, idx_vec_of_col', val_main_call1_v7_apply, val_main_call1_cst_1_apply]
  simp only [idx_sum_row, val_main_call1_v6_apply, shifted_eq, Ideal.ofBits_def, Ideal.ofBits_zero_f32, zero_add,
    Ideal.hostUnary_exp_def, Ideal.hostUnary_log_def]
  rfl

/-- The log-softmax stage at (i, l) is the log-probability of class `l` in row `i`. -/
theorem logp_eq (x3 : (⟨S24576x1000, .f32⟩ : BufTy).Contents (Elt Ideal)) (i : Fin 24576) (l : Fin 1000) :
    val_main_v12 (F := Ideal) x3 (ix2 i l) = Cert.Spec.logp x3 i l := by
  rw [val_main_v12_apply, shifted_eq, val_main_call1_v10_apply, idx_col_of_row', lse_eq]
  rfl

end Cert.ReferenceIdeal.RefValue

end
-- ==== Proof.RefValueB2.lean ====
/-
  The labelled log-probabilities of the reference, over the extended reals, for label vectors whose words are class
  numbers below 1000: row `i` of the concatenated labels holds the class `catLab la ln i`; such a word is not negative, so
  the wrap-around by +1000 leaves it, and it lies in [0, 999], so the bounds mask is set and the select keeps the gathered
  value; the gather reads the log-softmax stage in row `i` at that class (the start index's clamp is the identity in
  range). Hence the column the reference sums is row by row `logp` at the row's label, and its sum over the [24576, 1]
  column is the sum over the rows.
-/
import proofs.«429437_j17102559773291_2_alg».proof.Proof.RefValueB1
import Idealize.ShloMosaic.Lib.StableHlo.Predicate

noncomputable section

namespace Cert.ReferenceIdeal.RefValue

open Cert.ReferenceIdeal Cert.ReferenceIdeal.Gen Cert.ReferenceIdeal.ValueP Cert.ReferenceIdeal.ReadP
open Idealize.ShloMosaic Idealize.ShloMosaic.ValueIdx Idealize.ShloMosaic.StableHlo.Predicate

/-! ## Words that are class numbers -/

theorem toNat_label (l : Nat) (hl : l < 1000) : (BitVec.ofNat 32 l).toNat = l := by
  rw [BitVec.toNat_ofNat]; exact Nat.mod_eq_of_lt (by omega)

/-- A class number is not negative as a signed word. -/
theorem slt_zero_label (l : Nat) (hl : l < 1000) : IntOp.cmpi .slt (BitVec.ofNat 32 l) 0#32 = 0#1 :=
  eq_zero_of_ne_one fun h => by
    have := (slt_iff_toNat (by rw [toNat_label l hl]; omega) (by decide)).1 h
    simp at this

theorem sge_zero_label (l : Nat) (hl : l < 1000) : IntOp.cmpi .sge (BitVec.ofNat 32 l) 0#32 = 1#1 :=
  (sge_iff_toNat (by rw [toNat_label l hl]; omega) (by decide)).2 (by simp)

theorem sle_max_label (l : Nat) (hl : l < 1000) : IntOp.cmpi .sle (BitVec.ofNat 32 l) 999#32 = 1#1 :=
  (sle_iff_toNat (by rw [toNat_label l hl]; omega) (by decide)).2 (by rw [toNat_label l hl]; show l ≤ 999; omega)

/-- Read signed and clamped into [0, 999], a class number is itself. -/
theorem clamp_label (l : Nat) (hl : l < 1000) : min (BitVec.ofNat 32 l).toInt.toNat (1000 - 1) = l := by
  rw [toInt_ofNat_small l (by omega)]; simp; omega

theorem and_ones : IntOp.andi (IntOp.andi 1#1 1#1) 1#1 = 1#1 := by decide

/-! ## Index equations -/

theorem idx_label_col (i : Fin 24576) : idx_main_v13 (ix2 i (0 : Fin 1)) = ix1 i :=
  funext fun a => Fin.ext (by match a with | ⟨0, _⟩ => rfl)

theorem idx_label_cube (i : Fin 24576) : idx_main_call2_v5 (ix3 i (0 : Fin 1) (0 : Fin 1)) = ix2 i (0 : Fin 1) :=
  funext fun a => Fin.ext (by
    match a with
    | ⟨0, _⟩ => show ((i.val * 1 + 0) * 1 + 0) / 1 = i.val; omega
    | ⟨1, _⟩ => rfl)

section Labels

variable (x5 x6 : (⟨S8192, .i32⟩ : BufTy).Contents (Elt Ideal)) (la ln : Fin 8192 → Fin 1000)
  (h5 : ∀ i : Fin 8192, x5 (ix1 i) = BitVec.ofNat 32 (la i).val)
  (h6 : ∀ i : Fin 8192, x6 (ix1 i) = BitVec.ofNat 32 (ln i).val)

include h5 h6

/-- Row `i` of the concatenated label vector holds the class `catLab la ln i`. -/
theorem label_eq (i : Fin 24576) :
    val_main_v9 (F := Ideal) x5 x6 (ix1 i) = BitVec.ofNat 32 (Cert.Spec.catLab la ln i).val := by
  unfold val_main_v9 Cert.Spec.catLab
  by_cases h1 : i.val < 8192
  · rw [dif_pos h1]
    exact (concat3_apply x5 x5 x6 concatenates_S8192_S8192_S8192_S24576_d0 i 0 ⟨i.val, h1⟩ (by simp)).trans (h5 _)
  · rw [dif_neg h1]
    by_cases h2 : i.val < 16384
    · rw [dif_pos h2]
      exact (concat3_apply x5 x5 x6 concatenates_S8192_S8192_S8192_S24576_d0 i 1 ⟨i.val - 8192, by omega⟩
        (by simp; omega)).trans (h5 _)
    · rw [dif_neg h2]
      exact (concat3_apply x5 x5 x6 concatenates_S8192_S8192_S8192_S24576_d0 i 2 ⟨i.val - 16384, by have := i.isLt; omega⟩
        (by simp; omega)).trans (h6 _)

/-- The wrapped label of row `i` (the start index of the gather) is the class number itself. -/
theorem start_eq (i : Fin 24576) :
    val_main_call2_v5 (F := Ideal) x5 x6 (ix3 i (0 : Fin 1) (0 : Fin 1))
      = BitVec.ofNat 32 (Cert.Spec.catLab la ln i).val := by
  have hl := (Cert.Spec.catLab la ln i).isLt
  rw [val_main_call2_v5_apply, idx_label_cube, val_main_call2_v4_apply, val_main_call2_v1_apply, val_main_v13_apply,
    idx_label_col, label_eq x5 x6 la ln h5 h6 i, val_main_call2_v0_apply, val_main_call2_c_apply,
    slt_zero_label _ hl, select_zero]

/-- The bounds mask of row `i` is set. -/
theorem mask_eq (i : Fin 24576) : val_main_call2_v12 (F := Ideal) x5 x6 (ix2 i (0 : Fin 1)) = 1#1 := by
  have hl := (Cert.Spec.catLab la ln i).isLt
  unfold val_main_call2_v12
  rw [hostReduce_and_unit _ _ reducesTo_S24576x1x1_S24576x1_d2 (by decide) h_S_ i, val_main_call2_v11_apply,
    val_main_call2_v7_apply, val_main_call2_v10_apply, start_eq x5 x6 la ln h5 h6 i, val_main_call2_v6_apply,
    val_main_call2_c_2_apply, val_main_call2_v9_apply, val_main_call2_v8_apply, val_main_call2_c_1_apply,
    val_main_call2_c_3_apply, sge_zero_label _ hl, sle_max_label _ hl]
  exact and_ones

end Labels

/-- The batched gather along axis 1 at a start index that is a class number reads that class's column. -/
theorem take_at (y : S24576x1000.Idx → EReal) (idx : IVec S24576x1x1 32) (i : Fin 24576) (l : Fin 1000)
    (hl : idx (ix3 i (0 : Fin 1) (0 : Fin 1)) = BitVec.ofNat 32 l.val) :
    Host.gather gather_S24576x1000_S24576x1x1_S24576x1_n_1_0_0_1_2_11 y idx (ix2 i (0 : Fin 1)) = y (ix2 i l) := by
  have e : gather_S24576x1000_S24576x1x1_S24576x1_n_1_0_0_1_2_11
      = rowTakeDims 24576 1000 gather_S24576x1000_S24576x1x1_S24576x1_n_1_0_0_1_2_11_wf := rfl
  rw [e, gather_rowTake_apply (by decide)]
  refine congrArg (fun q : Fin 1000 => y (ix2 i q)) (Fin.ext ?_)
  show min (idx (ix3 i (0 : Fin 1) (0 : Fin 1))).toInt.toNat (1000 - 1) = l.val
  rw [hl, clamp_label _ l.isLt]

section Take

variable (x3 : (⟨S24576x1000, .f32⟩ : BufTy).Contents (Elt Ideal)) (x5 x6 : (⟨S8192, .i32⟩ : BufTy).Contents (Elt Ideal))
  (la ln : Fin 8192 → Fin 1000)
  (h5 : ∀ i : Fin 8192, x5 (ix1 i) = BitVec.ofNat 32 (la i).val)
  (h6 : ∀ i : Fin 8192, x6 (ix1 i) = BitVec.ofNat 32 (ln i).val)

include h5 h6

/-- The column the reference sums holds, in row `i`, the log-probability of the row's label. -/
theorem taken_eq (i : Fin 24576) :
    val_main_v14 (F := Ideal) x3 x5 x6 (ix2 i (0 : Fin 1)) = Cert.Spec.logp x3 i (Cert.Spec.catLab la ln i) := by
  rw [val_main_v14_apply, mask_eq x5 x6 la ln h5 h6 i, select_one]
  unfold val_main_call2_v13
  rw [take_at _ _ i (Cert.Spec.catLab la ln i) (start_eq x5 x6 la ln h5 h6 i), logp_eq]

/-- The reference's sum of that column is the sum over the rows of the labelled log-probabilities. -/
theorem takenSum_eq (j : S_.Idx) :
    val_main_v15 (F := Ideal) x3 x5 x6 j = ∑ i : Fin 24576, Cert.Spec.logp x3 i (Cert.Spec.catLab la ln i) := by
  rw [val_main_v15_apply, val_main_cst_3_apply, sum_idx2]
  simp only [Ideal.ofBits_def, Ideal.ofBits_zero_f32, zero_add]
  refine Finset.sum_congr rfl fun i _ => ?_
  exact (Fin.sum_univ_one _).trans (taken_eq x3 x5 x6 la ln h5 h6 i)

end Take

end Cert.ReferenceIdeal.RefValue

end
-- ==== Proof.RefValueB.lean ====
/-
  The reference's cross-entropy result and its total, read as the specification's functions over the extended reals.
  The cross-entropy result is minus the quotient by 24576 of the sum over the rows of the labelled log-probabilities
  (`lossSoftmax`), for label vectors whose words are class numbers below 1000; the total is the cross-entropy result plus
  the f32 nearest 10⁻³ times the exemplar result plus one times the triplet result, associated to the left (`total`).
-/
import proofs.«429437_j17102559773291_2_alg».proof.Proof.RefValueB2

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.ValueIdx

variable (m : (ℓ : Loc nD τ sig) → Buf (Elt Ideal) ℓ) (c : Dev nD)

/-- The third result is the specification's cross-entropy loss of the logits at the concatenated labels. -/
theorem softmax_eq (la ln : Fin 8192 → Fin 1000)
    (h5 : ∀ i : Fin 8192, (m ((c.tc : Thread nD τ).loc main_arg5) : S8192.Idx → BitVec 32) (ix1 i) = BitVec.ofNat 32 (la i).val)
    (h6 : ∀ i : Fin 8192, (m ((c.tc : Thread nD τ).loc main_arg6) : S8192.Idx → BitVec 32) (ix1 i) = BitVec.ofNat 32 (ln i).val) :
    res_main_v17 (F := Ideal) m c
      = fun _ => Cert.Spec.lossSoftmax (m ((c.tc : Thread nD τ).loc main_arg3)) (Cert.Spec.catLab la ln) := by
  funext j
  rw [val_main_v17_eq, val_main_v17_apply, val_main_v16_apply, takenSum_eq _ _ _ la ln h5 h6, val_main_cst_4_apply]
  unfold Cert.Spec.lossSoftmax
  simp only [Ideal.hostNegf_def, Ideal.negf_def, Ideal.hostDivf_def, Ideal.ofBits_def]

/-- The first result is the specification's weighted total of the other three results. -/
theorem total_eq :
    res_main_v65 (F := Ideal) m c
      = fun _ => Cert.Spec.total (res_main_v17 (F := Ideal) m c ix0) (res_main_v61 (F := Ideal) m c ix0)
          (val_main_v8 (F := Ideal) (m ((c.tc : Thread nD τ).loc main_arg0)) (m ((c.tc : Thread nD τ).loc main_arg1))
            (m ((c.tc : Thread nD τ).loc main_arg2)) ix0) := by
  funext j
  have hj : j = ix0 := funext fun a => a.elim0
  subst hj
  rw [val_main_v65_eq, val_main_v65_apply, val_main_v63_apply, val_main_v64_apply, val_main_v62_apply,
    val_main_cst_17_apply, val_main_cst_18_apply, val_main_v17_eq, val_main_v61_eq]
  unfold Cert.Spec.total
  simp only [Ideal.addf_def, Ideal.mulf_def, Ideal.ofBits_def]

/-- The same, with the triplet result spelt as the run states it: the sum over the rows of the larger of zero and the
    difference of the two rows' L1 sums. -/
theorem total_eq_run :
    res_main_v65 (F := Ideal) m c
      = fun _ => Cert.Spec.total (res_main_v17 (F := Ideal) m c ix0) (res_main_v61 (F := Ideal) m c ix0)
          ((Host.reduceAdd (F := Ideal) (maximumf (F := Ideal) (subf (F := Ideal) (Host.reduceAdd (F := Ideal) (Host.absf (F := Ideal) (subf (F := Ideal) (m ((c.tc : Thread nD τ).loc main_arg0)) (m ((c.tc : Thread nD τ).loc main_arg1)))) (constant (F := Ideal) S_ .f32 0x00000000#32) reducesTo_S8192x256_S8192_d1 h_S_) (Host.reduceAdd (F := Ideal) (Host.absf (F := Ideal) (subf (F := Ideal) (m ((c.tc : Thread nD τ).loc main_arg0)) (m ((c.tc : Thread nD τ).loc main_arg2)))) (constant (F := Ideal) S_ .f32 0x00000000#32) reducesTo_S8192x256_S8192_d1 h_S_)) (broadcastInDim S8192 ![] bcast_S_S8192 (constant (F := Ideal) S_ .f32 0x00000000#32))) (constant (F := Ideal) S_ .f32 0x00000000#32) reducesTo_S8192_S_d0 h_S_) ix0) :=
  total_eq m c

end Cert.ReferenceIdeal.RefValue

end
-- ==== Proof.PreFacts.lean ====
/-
  The precondition read back. The precondition is the conjunction of seven statements: for each of the five float
  arrays, every entry x has |x| < +∞; for each of the two label vectors, every label l has 0 ≤ l and l < 1000 (signed).
  Over the extended reals |x| = max x (−x) < +∞ says exactly that x is a real number; a 32-bit word that is ≥ 0 and
  < 1000 as a signed integer has unsigned value < 1000.
-/
import proofs.«429437_j17102559773291_2_alg».proof.Pre_finite_inputs
import Idealize.ShloMosaic.Lib.ReduceAll
import Idealize.ShloMosaic.Lib.ValueIdx
import Idealize.ShloMosaic.PureOps.Ideal.Laws

noncomputable section

namespace Cert.PreFacts

open Cert.Pre_finite_inputs Idealize.ShloMosaic Idealize.ShloMosaic.ValueIdx

variable [Cert.Pre_finite_inputs.Facts]

/-- A rank-0 array has one index. -/
instance : Subsingleton S_.Idx := ⟨fun a b => funext fun d => d.elim0⟩

/-- The f32 pattern 0x7F800000 is +∞. -/
theorem inf_f32 : Ideal.ofBits .f32 0x7F800000#32 = (⊤ : EReal) := by simp [Ideal.ofBits, Ideal.ieee]

/-- An extended real with max x (−x) < +∞ is a real: −∞ has |−∞| = +∞, and +∞ is not below itself. -/
theorem real_of_abs_lt_top (x : EReal) (h : max x (-x) < ⊤) : ∃ r : ℝ, x = (r : EReal) := by
  induction x using EReal.rec with
  | bot => simp at h
  | coe r => exact ⟨r, rfl⟩
  | top => simp at h

/-- One entry of a finiteness test: the comparison |x i| < +∞ came out true, so x i is a real. -/
theorem real_of_test {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [inf_f32] at h'
  unfold Ideal.cmp at h'
  refine real_of_abs_lt_top (x i) ?_
  by_contra hn
  simp [hn] at h'

/-- A 32-bit word that is ≥ 0 and < 1000 read signed is < 1000 read unsigned. -/
theorem toNat_lt_of_signed (w : BitVec 32) (h0 : IntOp.cmpi .sge w 0#32 = 1#1) (h1 : IntOp.cmpi .slt w 1000#32 = 1#1) :
    w.toNat < 1000 := by
  rw [IntOp.cmpi_sge] at h0
  rw [IntOp.cmpi_slt] at h1
  have e0 : (0#32 : BitVec 32).toInt = 0 := by decide
  have e1 : (1000#32 : BitVec 32).toInt = 1000 := by decide
  rw [e0] at h0
  rw [e1] at h1
  have hw := w.isLt
  rw [BitVec.toInt_eq_toNat_cond] at h0 h1
  split at h1 <;> omega

/-- One entry of a label test. -/
theorem label_of_test (l : IVec S8192 32) (hb : S_.BroadcastsInDim S8192 (![] : Fin 0 → Fin S8192.rank)) (i : Fin 8192)
    (h : andi (cmpi .sge l (broadcastInDim S8192 ![] hb (constantI S_ 32 0#32)))
      (cmpi .slt l (broadcastInDim S8192 ![] hb (constantI S_ 32 1000#32))) (ix1 i) = 1#1) :
    (l (ix1 i)).toNat < 1000 := by
  have h' : IntOp.andi (IntOp.cmpi .sge (l (ix1 i)) 0#32) (IntOp.cmpi .slt (l (ix1 i)) 1000#32) = 1#1 := h
  obtain ⟨h0, h1⟩ := IntOp.andi_eq_one.1 h'
  exact toNat_lt_of_signed _ h0 h1

/-- A conjunction of two rank-0 truth values that is true: both are. -/
theorem and_ix0 (x y : IVec S_ 1) (h : andi x y ix0 = 1#1) : x ix0 = 1#1 ∧ y ix0 = 1#1 := IntOp.andi_eq_one.1 h

/-- The precondition read back in full: every entry of the five float arrays is a real, every label is below 1000. -/
theorem all_of_pre (a0 a1 a2 : FVec Ideal S8192x256 .f32) (a3 : FVec Ideal S24576x1000 .f32) (a4 : FVec Ideal S1000x256 .f32)
    (a5 a6 : IVec S8192 32)
    (h : Cert.Pre_finite_inputs.fn (F := Ideal) a0 a1 a2 a3 a4 a5 a6 = fun _ => 1#1) :
    (∀ i : S8192x256.Idx, ∃ r : ℝ, a0 i = (r : EReal)) ∧ (∀ i : S8192x256.Idx, ∃ r : ℝ, a1 i = (r : EReal))
      ∧ (∀ i : S8192x256.Idx, ∃ r : ℝ, a2 i = (r : EReal)) ∧ (∀ i : S24576x1000.Idx, ∃ r : ℝ, a3 i = (r : EReal))
      ∧ (∀ i : S1000x256.Idx, ∃ r : ℝ, a4 i = (r : EReal))
      ∧ (∀ i : Fin 8192, (a5 (ix1 i)).toNat < 1000) ∧ (∀ i : Fin 8192, (a6 (ix1 i)).toNat < 1000) := by
  have e := congrFun h ix0
  dsimp only [Cert.Pre_finite_inputs.fn, Cert.Pre_finite_inputs.fn_part1, Cert.Pre_finite_inputs.fn_part2] at e
  obtain ⟨e, h6⟩ := and_ix0 _ _ e
  obtain ⟨e, h5⟩ := and_ix0 _ _ e
  obtain ⟨e, h4⟩ := and_ix0 _ _ e
  obtain ⟨e, h3⟩ := and_ix0 _ _ e
  obtain ⟨e, h2⟩ := and_ix0 _ _ e
  obtain ⟨h0, h1⟩ := and_ix0 _ _ e
  exact ⟨fun i => real_of_test a0 _ i (Host.reduce_andi_all _ _ _ _ ix0 h0 i),
    fun i => real_of_test a1 _ i (Host.reduce_andi_all _ _ _ _ ix0 h1 i),
    fun i => real_of_test a2 _ i (Host.reduce_andi_all _ _ _ _ ix0 h2 i),
    fun i => real_of_test a3 _ i (Host.reduce_andi_all _ _ _ _ ix0 h3 i),
    fun i => real_of_test a4 _ i (Host.reduce_andi_all _ _ _ _ ix0 h4 i),
    fun i => label_of_test a5 _ i (Host.reduce_andi_all _ _ _ _ ix0 h5 (ix1 i)),
    fun i => label_of_test a6 _ i (Host.reduce_andi_all _ _ _ _ ix0 h6 (ix1 i))⟩

/-- What the value proof uses: the logits are reals and both label vectors lie below 1000. -/
theorem of_pre (a0 a1 a2 : FVec Ideal S8192x256 .f32) (a3 : FVec Ideal S24576x1000 .f32) (a4 : FVec Ideal S1000x256 .f32)
    (a5 a6 : IVec S8192 32)
    (h : Cert.Pre_finite_inputs.fn (F := Ideal) a0 a1 a2 a3 a4 a5 a6 = fun _ => 1#1) :
    (∀ i : S24576x1000.Idx, ∃ r : ℝ, a3 i = (r : EReal))
      ∧ (∀ i : Fin 8192, (a5 (ix1 i)).toNat < 1000) ∧ (∀ i : Fin 8192, (a6 (ix1 i)).toNat < 1000) :=
  let A := all_of_pre a0 a1 a2 a3 a4 a5 a6 h
  ⟨A.2.2.2.1, A.2.2.2.2.2.1, A.2.2.2.2.2.2⟩

/-- The anchor rows are reals. -/
theorem anchor_real (a0 a1 a2 : FVec Ideal S8192x256 .f32) (a3 : FVec Ideal S24576x1000 .f32) (a4 : FVec Ideal S1000x256 .f32)
    (a5 a6 : IVec S8192 32)
    (h : Cert.Pre_finite_inputs.fn (F := Ideal) a0 a1 a2 a3 a4 a5 a6 = fun _ => 1#1) :
    ∀ i : S8192x256.Idx, ∃ r : ℝ, a0 i = (r : EReal) := (all_of_pre a0 a1 a2 a3 a4 a5 a6 h).1

/-- The positive rows are reals. -/
theorem positive_real (a0 a1 a2 : FVec Ideal S8192x256 .f32) (a3 : FVec Ideal S24576x1000 .f32) (a4 : FVec Ideal S1000x256 .f32)
    (a5 a6 : IVec S8192 32)
    (h : Cert.Pre_finite_inputs.fn (F := Ideal) a0 a1 a2 a3 a4 a5 a6 = fun _ => 1#1) :
    ∀ i : S8192x256.Idx, ∃ r : ℝ, a1 i = (r : EReal) := (all_of_pre a0 a1 a2 a3 a4 a5 a6 h).2.1

/-- The negative rows are reals. -/
theorem negative_real (a0 a1 a2 : FVec Ideal S8192x256 .f32) (a3 : FVec Ideal S24576x1000 .f32) (a4 : FVec Ideal S1000x256 .f32)
    (a5 a6 : IVec S8192 32)
    (h : Cert.Pre_finite_inputs.fn (F := Ideal) a0 a1 a2 a3 a4 a5 a6 = fun _ => 1#1) :
    ∀ i : S8192x256.Idx, ∃ r : ℝ, a2 i = (r : EReal) := (all_of_pre a0 a1 a2 a3 a4 a5 a6 h).2.2.1

/-- The exemplar rows are reals. -/
theorem exemplar_real (a0 a1 a2 : FVec Ideal S8192x256 .f32) (a3 : FVec Ideal S24576x1000 .f32) (a4 : FVec Ideal S1000x256 .f32)
    (a5 a6 : IVec S8192 32)
    (h : Cert.Pre_finite_inputs.fn (F := Ideal) a0 a1 a2 a3 a4 a5 a6 = fun _ => 1#1) :
    ∀ i : S1000x256.Idx, ∃ r : ℝ, a4 i = (r : EReal) := (all_of_pre a0 a1 a2 a3 a4 a5 a6 h).2.2.2.2.1

end Cert.PreFacts

end
-- ==== Proof.lean ====
/-
  The claim: both printed kernels and the reference run to the end with their argument arrays unchanged; the idealized
  kernel is the printed kernel read at the ideal instance (no rewrite was applied); and, from memories agreeing on the
  seven arguments, the idealized kernel and the idealized reference end with the same four results, as extended reals.

  The precondition is used twice. The labels lie in [0, 1000): then the kernel's comparison of the class index with the
  label picks exactly the logit the reference's gather along the class axis reads (outside that range the reference
  wraps or fills, and the comparison picks nothing). The logits are finite: then every labelled log-probability is a
  real number, and the kernel's mean of the negated rows is the reference's negated mean. The triplet and exemplar
  sums are the same sums of the same rows on both sides, whatever the inputs; the exemplar rows are gathered by the same
  host operations in both programs. The total is one weighted sum of the three on both sides.
-/
import proofs.«429437_j17102559773291_2_alg».proof.Defs
import proofs.«429437_j17102559773291_2_alg».proof.Proof.Gen.Kernel
import proofs.«429437_j17102559773291_2_alg».proof.Proof.Gen.KernelIdeal
import proofs.«429437_j17102559773291_2_alg».proof.Proof.Gen.ReferenceIdeal
import proofs.«429437_j17102559773291_2_alg».proof.Proof.Gen.Pre_finite_inputs
import proofs.«429437_j17102559773291_2_alg».proof.Proof.Kernel.Frame
import proofs.«429437_j17102559773291_2_alg».proof.Proof.KernelIdeal.Frame
import proofs.«429437_j17102559773291_2_alg».proof.Proof.KernelIdeal.Values
import proofs.«429437_j17102559773291_2_alg».proof.Proof.RefValueA
import proofs.«429437_j17102559773291_2_alg».proof.Proof.RefValueB
import proofs.«429437_j17102559773291_2_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The frames -/

theorem frame_k : Cert.frame_Kernel := fun m ρ _ => Cert.Kernel.Fr.frame m ρ

theorem frame_ki : Cert.frame_KernelIdeal := fun m ρ _ => Cert.KernelIdeal.Fr.frame m ρ

/-- The reference has no kernel: its frame is its run with the results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-! ## The two programs' exemplar rows are one function -/

theorem exRows_eq (ex : FVec Ideal Cert.KernelIdeal.S1000x256 .f32) (lbl : IVec Cert.KernelIdeal.S8192 32) :
    Cert.ReferenceIdeal.RefValue.exRows ex lbl = Cert.KernelIdeal.Fr.exRows ex lbl := rfl

/-! ## The values -/

theorem algebraic : Cert.algebraic_KernelIdeal_ReferenceIdeal := by
  intro m ρ m' ρ' hpre hagree
  have hp := fun c : Dev Cert.KernelIdeal.nD => Cert.PreFacts.of_pre _ _ _ _ _ _ _ (hpre c)
  -- the labels as class indices, per core
  let la : Dev Cert.KernelIdeal.nD → Fin 8192 → Fin 1000 := fun c i => ⟨_, (hp c).2.1 i⟩
  let ln : Dev Cert.KernelIdeal.nD → Fin 8192 → Fin 1000 := fun c i => ⟨_, (hp c).2.2 i⟩
  have h5 : ∀ c i, (m ((c.tc : Thread Cert.KernelIdeal.nD Cert.KernelIdeal.τ).loc Cert.KernelIdeal.main_arg5) : Cert.KernelIdeal.S8192.Idx → BitVec 32) (ix1 i)
      = BitVec.ofNat 32 (la c i).val := fun c i => by simp [la]
  have h6 : ∀ c i, (m ((c.tc : Thread Cert.KernelIdeal.nD Cert.KernelIdeal.τ).loc Cert.KernelIdeal.main_arg6) : Cert.KernelIdeal.S8192.Idx → BitVec 32) (ix1 i)
      = BitVec.ofNat 32 (ln c i).val := fun c i => by simp [ln]
  have hfin := fun c : Dev Cert.KernelIdeal.nD => (hp c).1
  refine ⟨fun c => _, fun c => _, fun c => _, fun c => _,
    (θ_run Cert.KernelIdeal.defs _ _).mono (fun r h c =>
      ⟨(h c _ (Cert.KernelIdeal.Fr.mem_uc Cert.KernelIdeal.main_v25 (by decide))).trans (Cert.KernelIdeal.Fr.val_v25 m c (la c) (ln c) (h5 c) (h6 c) (hfin c)),
       (h c _ (Cert.KernelIdeal.Fr.mem_uc Cert.KernelIdeal.main_v15 (by decide))).trans (Cert.KernelIdeal.Fr.val_v15 m c),
       (h c _ (Cert.KernelIdeal.Fr.mem_uc Cert.KernelIdeal.main_v21 (by decide))).trans (Cert.KernelIdeal.Fr.val_v21 m c (la c) (ln c) (h5 c) (h6 c) (hfin c)),
       (h c _ (Cert.KernelIdeal.Fr.mem_uc Cert.KernelIdeal.main_v16 (by decide))).trans (Cert.KernelIdeal.Fr.val_v16 m c),
       (h c _ (Cert.KernelIdeal.Fr.mem_uc Cert.KernelIdeal.main_arg0 (by decide))).trans (Cert.KernelIdeal.Fr.W5_main_arg0 m c),
       (h c _ (Cert.KernelIdeal.Fr.mem_uc Cert.KernelIdeal.main_arg1 (by decide))).trans (Cert.KernelIdeal.Fr.W5_main_arg1 m c),
       (h c _ (Cert.KernelIdeal.Fr.mem_uc Cert.KernelIdeal.main_arg2 (by decide))).trans (Cert.KernelIdeal.Fr.W5_main_arg2 m c),
       (h c _ (Cert.KernelIdeal.Fr.mem_uc Cert.KernelIdeal.main_arg3 (by decide))).trans (Cert.KernelIdeal.Fr.W5_main_arg3 m c),
       (h c _ (Cert.KernelIdeal.Fr.mem_uc Cert.KernelIdeal.main_arg4 (by decide))).trans (Cert.KernelIdeal.Fr.W5_main_arg4 m c),
       (h c _ (Cert.KernelIdeal.Fr.mem_uc Cert.KernelIdeal.main_arg5 (by decide))).trans (Cert.KernelIdeal.Fr.W5_main_arg5 m c),
       (h c _ (Cert.KernelIdeal.Fr.mem_uc Cert.KernelIdeal.main_arg6 (by decide))).trans (Cert.KernelIdeal.Fr.W5_main_arg6 m c)⟩)
      (Cert.KernelIdeal.Fr.run_all m ρ), ?_⟩
  refine (θ_run Cert.ReferenceIdeal.defs _ _).mono (fun r h c => ?_) (Cert.ReferenceIdeal.ValueP.run (F := Ideal) m' ρ')
  obtain ⟨e0, e1, e2, e3, e4, e5, e6⟩ := hagree c
  have h5' : ∀ i : Fin 8192, (m' ((c.tc : Thread Cert.ReferenceIdeal.nD Cert.ReferenceIdeal.τ).loc Cert.ReferenceIdeal.main_arg5) : Cert.ReferenceIdeal.S8192.Idx → BitVec 32) (ix1 i)
      = BitVec.ofNat 32 (la c i).val := fun i => by rw [e5]; exact h5 c i
  have h6' : ∀ i : Fin 8192, (m' ((c.tc : Thread Cert.ReferenceIdeal.nD Cert.ReferenceIdeal.τ).loc Cert.ReferenceIdeal.main_arg6) : Cert.ReferenceIdeal.S8192.Idx → BitVec 32) (ix1 i)
      = BitVec.ofNat 32 (ln c i).val := fun i => by rw [e6]; exact h6 c i
  have r8 := Cert.ReferenceIdeal.RefValue.losses_eq m' c
  have r61 := Cert.ReferenceIdeal.RefValue.center_eq m' c
  have r17 := Cert.ReferenceIdeal.RefValue.softmax_eq m' c (la c) (ln c) h5' h6'
  have r65 := Cert.ReferenceIdeal.RefValue.total_eq_run m' c
  rw [r17, r61, r8] at r65
  rw [e0, e1, e2, e3, e4, e5, e6] at r65
  rw [e3] at r17
  rw [e0, e2, e4, e5, e6] at r61
  rw [e0, e1, e2] at r8
  refine ⟨(h c).1.trans r65, ?_, (h c).2.2.1.trans r17, (h c).2.2.2.1.trans r61, (h c).2.2.2.2⟩
  exact (h c).2.1.trans (by rw [e0, e1, e2] at *; exact r8)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
